-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.truncf_extf.Statement Cert.KernelIdeal.S64x4096 .f32 .bf16
  ∧ IdealRules.truncf_extf.Statement Cert.KernelIdeal.S64x4096 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S2x1024 : Shape := ⟨2, ![2, 1024]⟩
abbrev S1024x8 : Shape := ⟨2, ![1024, 8]⟩
abbrev S64x128 : Shape := ⟨2, ![64, 128]⟩
abbrev S500000 : Shape := ⟨1, ![500000]⟩
abbrev S384x128 : Shape := ⟨2, ![384, 128]⟩
abbrev S128 : Shape := ⟨1, ![128]⟩
abbrev S128x128 : Shape := ⟨2, ![128, 128]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S1024x8 : S_.BroadcastsInDim S1024x8 (![] : Fin 0 → Fin S1024x8.rank)
  reducesTo_S1024x8_S_d0_1 : S1024x8.ReducesTo [0, 1] S_
  bcast_S_S64x128 : S_.BroadcastsInDim S64x128 (![] : Fin 0 → Fin S64x128.rank)
  reducesTo_S64x128_S_d0_1 : S64x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg10 : FVec F S128 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg7 : FVec F S384x128 .f32) (main_arg8 : FVec F S128 .f32) (main_arg9 : FVec F S128x128 .f32) (main_arg10 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S384x128 .f32 := Host.absf main_arg7
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_v33

def fn {F : FTy → Type} [FloatOps F] (main_arg0 : FVec F S500000x128 .f32) (main_arg1 : FVec F S500000x128 .f32) (main_arg2 : IVec S2x1024 32) (main_arg3 : FVec F S1024x8 .f32) (main_arg4 : FVec F S64x128 .f32) (main_arg5 : IVec S500000 32) (main_arg6 : IVec S500000 32) (main_arg7 : FVec F S384x128 .f32) (main_arg8 : FVec F S128 .f32) (main_arg9 : FVec F S128x128 .f32) (main_arg10 : FVec F S128 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S1024x8 .f32 := Host.absf main_arg3
  let main_cst_2 : FVec F S_ .f32 := constant S_ .f32 0x7F800000#32
  let main_v10 : FVec F S1024x8 .f32 := broadcastInDim S1024x8 ![] bcast_S_S1024x8 main_cst_2
  let main_v11 : IVec S1024x8 1 := cmpf .olt main_v9 main_v10
  let main_c_3 : IVec S_ 1 := constantI S_ 1 1#1
  let main_v12 : IVec S_ 1 := (fun x v => Host.reduce IntOp.andi x v reducesTo_S1024x8_S_d0_1 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg7 main_arg8 main_arg9 main_arg10 main_v13 main_v16
-- ==== Kernel.lean ====
abbrev S500000x128 : Shape := ⟨2, ![500000, 128]⟩
abbrev S2x1024 : Shape := ⟨2, ![2, 1024]⟩
abbrev S1024x8 : Shape := ⟨2, ![1024, 8]⟩
abbrev S64x128 : Shape := ⟨2, ![64, 128]⟩
abbrev S500000 : Shape := ⟨1, ![500000]⟩
abbrev S384x128 : Shape := ⟨2, ![384, 128]⟩
abbrev S128 : Shape := ⟨1, ![128]⟩
abbrev S128x128 : Shape := ⟨2, ![128, 128]⟩
abbrev S_ : Shape := ⟨0, ![]⟩
abbrev S503808x128 : Shape := ⟨2, ![503808, 128]⟩
abbrev S503808 : Shape := ⟨1, ![503808]⟩
abbrev S4096x128 : Shape := ⟨2, ![4096, 128]⟩
abbrev S4096 : Shape := ⟨1, ![4096]⟩
abbrev S64x1 : Shape := ⟨2, ![64, 1]⟩
abbrev S1x4096 : Shape := ⟨2, ![1, 4096]⟩
abbrev S64x4096 : Shape := ⟨2, ![64, 4096]⟩
abbrev S64 : Shape := ⟨1, ![64]⟩
abbrev S64x384 : Shape := ⟨2, ![64, 384]⟩
abbrev S1x128 : Shape := ⟨2, ![1, 128]⟩

abbrev nBuf : Space → Nat
  | .hbm => 27
  | .vmem => 20
  | .smem => 0
  | _ => 0

abbrev bufTy : (tb : Table) → Fin (tcTables nBuf tb) → BufTy
  | .hbm, ⟨0, _⟩ => ⟨S500000x128, .f32⟩
  | .hbm, ⟨1, _⟩ => ⟨S500000x128, .f32⟩
  | .hbm, ⟨2, _⟩ => ⟨S2x1024, .i32⟩
  | .hbm, ⟨3, _⟩ => ⟨S1024x8, .f32⟩
  | .hbm, ⟨4, _⟩ => ⟨S64x128, .f32⟩
  | .hbm, ⟨5, _⟩ => ⟨S500000, .i32⟩
  | .hbm, ⟨6, _⟩ => ⟨S500000, .i32⟩
  | .hbm, ⟨7, _⟩ => ⟨S384x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S_, .i32⟩
  | .hbm, ⟨12, _⟩ => ⟨S_, .f32⟩
  | .hbm, ⟨13, _⟩ => ⟨S503808x128, .f32⟩
  | .hbm, ⟨14, _⟩ => ⟨S_, .i32⟩
  | .hbm, ⟨15, _⟩ => ⟨S_, .f32⟩
  | .hbm, ⟨16, _⟩ => ⟨S503808x128, .f32⟩
  | .hbm, ⟨17, _⟩ => ⟨S_, .i32⟩
  | .hbm, ⟨18, _⟩ => ⟨S_, .i32⟩
  | .hbm, ⟨19, _⟩ => ⟨S503808, .i32⟩
  | .hbm, ⟨20, _⟩ => ⟨S_, .i32⟩
  | .hbm, ⟨21, _⟩ => ⟨S_, .i32⟩
  | .hbm, ⟨22, _⟩ => ⟨S503808, .i32⟩
  | .hbm, ⟨23, _⟩ => ⟨S64x128, .f32⟩
  | .hbm, ⟨24, _⟩ => ⟨S64x128, .f32⟩
  | .hbm, ⟨25, _⟩ => ⟨S64x384, .f32⟩
  | .hbm, ⟨26, _⟩ => ⟨S64x128, .f32⟩
  | .local _ .vmem, ⟨0, _⟩ => ⟨S4096x128, .f32⟩
  | .local _ .vmem, ⟨1, _⟩ => ⟨S4096x128, .f32⟩
  | .local _ .vmem, ⟨2, _⟩ => ⟨S4096, .i32⟩
  | .local _ .vmem, ⟨3, _⟩ => ⟨S4096, .i32⟩
  | .local _ .vmem, ⟨4, _⟩ => ⟨S4096x128, .f32⟩
  | .local _ .vmem, ⟨5, _⟩ => ⟨S4096x128, .f32⟩
  | .local _ .vmem, ⟨6, _⟩ => ⟨S4096, .i32⟩
  | .local _ .vmem, ⟨7, _⟩ => ⟨S4096, .i32⟩
  | .local _ .vmem, ⟨8, _⟩ => ⟨S64x128, .f32⟩
  | .local _ .vmem, ⟨9, _⟩ => ⟨S64x128, .f32⟩
  | .local _ .vmem, ⟨10, _⟩ => ⟨S64x128, .f32⟩
  | .local _ .vmem, ⟨11, _⟩ => ⟨S64x1, .f32⟩
  | .local _ .vmem, ⟨12, _⟩ => ⟨S64x128, .f32⟩
  | .local _ .vmem, ⟨13, _⟩ => ⟨S64x1, .f32⟩
  | .local _ .vmem, ⟨14, _⟩ => ⟨S64x384, .f32⟩
  | .local _ .vmem, ⟨15, _⟩ => ⟨S384x128, .f32⟩
  | .local _ .vmem, ⟨16, _⟩ => ⟨S128, .f32⟩
  | .local _ .vmem, ⟨17, _⟩ => ⟨S128x128, .f32⟩
  | .local _ .vmem, ⟨18, _⟩ => ⟨S128, .f32⟩
  | .local _ .vmem, ⟨19, _⟩ => ⟨S64x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_c_0 : Ref sig .tc := ⟨.hbm, 14, rfl⟩
abbrev main_call1_v0 : Ref sig .tc := ⟨.hbm, 15, rfl⟩
abbrev main_v1 : Ref sig .tc := ⟨.hbm, 16, rfl⟩
abbrev main_c_1 : Ref sig .tc := ⟨.hbm, 17, rfl⟩
abbrev main_call2_v0 : Ref sig .tc := ⟨.hbm, 18, rfl⟩
abbrev main_v2 : Ref sig .tc := ⟨.hbm, 19, rfl⟩
abbrev main_c_2 : Ref sig .tc := ⟨.hbm, 20, rfl⟩
abbrev main_call3_v0 : Ref sig .tc := ⟨.hbm, 21, rfl⟩
abbrev main_v3 : Ref sig .tc := ⟨.hbm, 22, rfl⟩
abbrev main_v4_0 : Ref sig .tc := ⟨.hbm, 23, rfl⟩
abbrev main_v4_1 : Ref sig .tc := ⟨.hbm, 24, rfl⟩
abbrev main_v5 : Ref sig .tc := ⟨.hbm, 25, rfl⟩
abbrev main_v6 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15

abbrev nD : Nat := 1
abbrev τ : Topo := Topo.v7x

variable {F : FTy → Type} [FloatOps F]

abbrev grid0 : Pipeline.Grid := ⟨1, ![123], ![false]⟩

def k0_cond2 (i : grid0.Coords) : BitVec 1 :=
  let arg0 : BitVec 32 := BitVec.ofNat 32 (i 0).val
  let c122_i32 : BitVec 32 := 122#32
  let v54 : BitVec 1 := Scalar.cmpi .eq arg0 c122_i32
  let v55 : BitVec 32 := Scalar.extui v54
  let c0_i32_25 : BitVec 32 := 0#32
  let v56 : BitVec 1 := Scalar.cmpi .ne v55 c0_i32_25
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S64x384 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S384x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  pads_S500000x128_S503808x128_038080_000 : S500000x128.Pads (![0, 0] : Fin 2 → Nat) ![3808, 0] ![0, 0] S503808x128
  h_S_ : 0 < S_.numel
  pads_S500000_S503808_038080 : S500000.Pads (![0] : Fin 1 → Nat) ![3808] ![0] S503808
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S4096_S4096_0 : ∀ a, (![0] : Fin 1 → Nat) a + S4096.size a ≤ S4096.size a
  h_S4096 : 0 < S4096.numel
  shapeCasts_S4096_S4096 : S4096.ShapeCasts S4096
  shapeCasts_S4096_S1x4096 : S4096.ShapeCasts S1x4096
  iota_S64x4096_d0_w32 : S64x4096.Iotas .tc 32 [0]
  broadcasts_S1x4096_S64x4096 : S1x4096.Broadcasts S64x4096
  natLt_1_32 : 1 < 32
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S64x4096_S64 : S64x4096.Reduces [1] S64
  shapeCasts_S64_S64x1 : S64.ShapeCasts S64x1
  broadcasts_S64x1_S64x128 : S64x1.Broadcasts S64x128
  concatenates_S64x128_S64x128_S64x128_S64x384_d1 : Shape.Concatenates [S64x128, S64x128, S64x128] S64x384 1
  inb_S64x384_S64x384_0_0 : ∀ a, (![0, 0] : Fin 2 → Nat) a + S64x384.size a ≤ S64x384.size a
  h_S64x384 : 0 < S64x384.numel
  shapeCasts_S64x384_S64x384 : S64x384.ShapeCasts S64x384
  inb_S384x128_S384x128_0_0 : ∀ a, (![0, 0] : Fin 2 → Nat) a + S384x128.size a ≤ S384x128.size a
  h_S384x128 : 0 < S384x128.numel
  inb_S128_S128_0 : ∀ a, (![0] : Fin 1 → Nat) a + S128.size a ≤ S128.size a
  h_S128 : 0 < S128.numel
  shapeCasts_S128_S1x128 : S128.ShapeCasts S1x128
  broadcasts_S1x128_S64x128 : S1x128.Broadcasts S64x128
  inb_S128x128_S128x128_0_0 : ∀ a, (![0, 0] : Fin 2 → Nat) a + S128x128.size a ≤ S128x128.size a
  h_S128x128 : 0 < S128x128.numel
  dot_S64x4096_S4096x128_S64x128_1_0_0_1_n_n_wf : DotDims.WF S64x4096 S4096x128 S64x128 [1] [0] [0] [1] [] []
  dot_S64x384_S384x128_S64x128_1_0_0_1_n_n_wf : DotDims.WF S64x384 S384x128 S64x128 [1] [0] [0] [1] [] []
  dot_S64x128_S128x128_S64x128_1_0_0_1_n_n_wf : DotDims.WF S64x128 S128x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S503808x128.size a
  hwx0_0 : ∀ i : grid0.Coords, EltTy.bits .f32 = 32 ∨ (Rect.block (s := S503808x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S503808.size a
  hwx0_1 : ∀ i : grid0.Coords, EltTy.bits .i32 = 32 ∨ (Rect.block (s := S503808) S4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S503808x128.size a
  hwx0_2 : ∀ i : grid0.Coords, EltTy.bits .f32 = 32 ∨ (Rect.block (s := S503808x128) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096.size a ≤ S503808.size a
  hwx0_3 : ∀ i : grid0.Coords, EltTy.bits .i32 = 32 ∨ (Rect.block (s := S503808) S4096.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x384.size a ≤ S64x384.size a
  hwx1_0 : ∀ i : grid1.Coords, EltTy.bits .f32 = 32 ∨ (Rect.block (s := S64x384) S64x384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S384x128.size a ≤ S384x128.size a
  hwx1_1 : ∀ i : grid1.Coords, EltTy.bits .f32 = 32 ∨ (Rect.block (s := S384x128) S384x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x128.size a ≤ S64x128.size a
  hwx1_5 : ∀ i : grid1.Coords, EltTy.bits .f32 = 32 ∨ (Rect.block (s := S64x128) S64x128.size (cc1_transform_5 i) (hinb1_5 i)).WholeWords (EltTy.packing .f32)

variable [Facts₀]

def dot_S64x4096_S4096x128_S64x128_1_0_0_1_n_n : DotDims S64x4096 S4096x128 S64x128 where
  lhsContracting := [1]
  rhsContracting := [0]
  lhsNonContracting := [0]
  rhsNonContracting := [1]
  lhsBatch := []
  rhsBatch := []
  wf := dot_S64x4096_S4096x128_S64x128_1_0_0_1_n_n_wf
def dot_S64x384_S384x128_S64x128_1_0_0_1_n_n : DotDims S64x384 S384x128 S64x128 where
  lhsContracting := [1]
  rhsContracting := [0]
  lhsNonContracting := [0]
  rhsNonContracting := [1]
  lhsBatch := []
  rhsBatch := []
  wf := dot_S64x384_S384x128_S64x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S64x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S64x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v5) S64x384.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S384x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S64x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S500000x128 : Shape := ⟨2, ![500000, 128]⟩
abbrev S2x1024 : Shape := ⟨2, ![2, 1024]⟩
abbrev S1024x8 : Shape := ⟨2, ![1024, 8]⟩
abbrev S64x128 : Shape := ⟨2, ![64, 128]⟩
abbrev S500000 : Shape := ⟨1, ![500000]⟩
abbrev S384x128 : Shape := ⟨2, ![384, 128]⟩
abbrev S128 : Shape := ⟨1, ![128]⟩
abbrev S128x128 : Shape := ⟨2, ![128, 128]⟩
abbrev S_ : Shape := ⟨0, ![]⟩
abbrev S500000x1 : Shape := ⟨2, ![500000, 1]⟩
abbrev S64 : Shape := ⟨1, ![64]⟩
abbrev S64x1 : Shape := ⟨2, ![64, 1]⟩
abbrev S64x384 : Shape := ⟨2, ![64, 384]⟩
abbrev S1x128 : Shape := ⟨2, ![1, 128]⟩

abbrev nBuf : Space → Nat
  | .hbm => 60
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S500000x128, .f32⟩
  | .hbm, ⟨2, _⟩ => ⟨S2x1024, .i32⟩
  | .hbm, ⟨3, _⟩ => ⟨S1024x8, .f32⟩
  | .hbm, ⟨4, _⟩ => ⟨S64x128, .f32⟩
  | .hbm, ⟨5, _⟩ => ⟨S500000, .i32⟩
  | .hbm, ⟨6, _⟩ => ⟨S500000, .i32⟩
  | .hbm, ⟨7, _⟩ => ⟨S384x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S_, .f32⟩
  | .hbm, ⟨12, _⟩ => ⟨S64x128, .f32⟩
  | .hbm, ⟨13, _⟩ => ⟨S500000x1, .i32⟩
  | .hbm, ⟨14, _⟩ => ⟨S64x128, .f32⟩
  | .hbm, ⟨15, _⟩ => ⟨S_, .f32⟩
  | .hbm, ⟨16, _⟩ => ⟨S500000, .f32⟩
  | .hbm, ⟨17, _⟩ => ⟨S_, .f32⟩
  | .hbm, ⟨18, _⟩ => ⟨S64, .f32⟩
  | .hbm, ⟨19, _⟩ => ⟨S500000x1, .i32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S64x1, .f32⟩
  | .hbm, ⟨25, _⟩ => ⟨S64x128, .f32⟩
  | .hbm, ⟨26, _⟩ => ⟨S64x128, .f32⟩
  | .hbm, ⟨27, _⟩ => ⟨S_, .f32⟩
  | .hbm, ⟨28, _⟩ => ⟨S64x128, .f32⟩
  | .hbm, ⟨29, _⟩ => ⟨S500000x1, .i32⟩
  | .hbm, ⟨30, _⟩ => ⟨S64x128, .f32⟩
  | .hbm, ⟨31, _⟩ => ⟨S_, .f32⟩
  | .hbm, ⟨32, _⟩ => ⟨S500000, .f32⟩
  | .hbm, ⟨33, _⟩ => ⟨S_, .f32⟩
  | .hbm, ⟨34, _⟩ => ⟨S64, .f32⟩
  | .hbm, ⟨35, _⟩ => ⟨S500000x1, .i32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S64x1, .f32⟩
  | .hbm, ⟨41, _⟩ => ⟨S64x128, .f32⟩
  | .hbm, ⟨42, _⟩ => ⟨S64x128, .f32⟩
  | .hbm, ⟨43, _⟩ => ⟨S64x384, .f32⟩
  | .hbm, ⟨44, _⟩ => ⟨S64x128, .f32⟩
  | .hbm, ⟨45, _⟩ => ⟨S1x128, .f32⟩
  | .hbm, ⟨46, _⟩ => ⟨S64x128, .f32⟩
  | .hbm, ⟨47, _⟩ => ⟨S64x128, .f32⟩
  | .hbm, ⟨48, _⟩ => ⟨S_, .f32⟩
  | .hbm, ⟨49, _⟩ => ⟨S_, .f32⟩
  | .hbm, ⟨50, _⟩ => ⟨S64x128, .f32⟩
  | .hbm, ⟨51, _⟩ => ⟨S64x128, .i1⟩
  | .hbm, ⟨52, _⟩ => ⟨S_, .f32⟩
  | .hbm, ⟨53, _⟩ => ⟨S64x128, .f32⟩
  | .hbm, ⟨54, _⟩ => ⟨S64x128, .f32⟩
  | .hbm, ⟨55, _⟩ => ⟨S64x128, .f32⟩
  | .hbm, ⟨56, _⟩ => ⟨S64x128, .f32⟩
  | .hbm, ⟨57, _⟩ => ⟨S1x128, .f32⟩
  | .hbm, ⟨58, _⟩ => ⟨S64x128, .f32⟩
  | .hbm, ⟨59, _⟩ => ⟨S64x128, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_4 : Ref sig .tc := ⟨.hbm, 31, rfl⟩
abbrev main_v15 : Ref sig .tc := ⟨.hbm, 32, rfl⟩
abbrev main_cst_5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_6 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_call0_cst : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩

abbrev nD : Nat := 1
abbrev τ : Topo := Topo.v7x

variable {F : FTy → Type} [FloatOps F]

class Facts₀ : Prop where
  bcast_S_S64x128 : S_.BroadcastsInDim S64x128 (![] : Fin 0 → Fin S64x128.rank)
  bcast_S500000_S500000x1_0 : S500000.BroadcastsInDim S500000x1 (![0] : Fin 1 → Fin S500000x1.rank)
  bcast_S_S500000 : S_.BroadcastsInDim S500000 (![] : Fin 0 → Fin S500000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  concatenates_S64x128_S64x128_S64x128_S64x384_d1 : Shape.Concatenates [S64x128, S64x128, S64x128] S64x384 1
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  scatter_S64x128_S500000x1_S500000x128_1_0_0_1_wf : ScatterDims.WF S64x128 S500000x1 S500000x128 [1] [0] [0] 1
  scatter_S64_S500000x1_S500000_n_0_0_1_wf : ScatterDims.WF S64 S500000x1 S500000 [] [0] [0] 1
  dot_S64x384_S384x128_S64x128_1_0_0_1_n_n_wf : DotDims.WF S64x384 S384x128 S64x128 [1] [0] [0] [1] [] []
  dot_S64x128_S128x128_S64x128_1_0_0_1_n_n_wf : DotDims.WF S64x128 S128x128 S64x128 [1] [0] [0] [1] [] []

variable [Facts₀]

def scatter_S64x128_S500000x1_S500000x128_1_0_0_1 : ScatterDims S64x128 S500000x1 S500000x128 where
  updateWindowDims := [1]
  insertedWindowDims := [0]
  scatterDimsToOperandDims := [0]
  indexVectorDim := 1
  wf := scatter_S64x128_S500000x1_S500000x128_1_0_0_1_wf
def scatter_S64_S500000x1_S500000_n_0_0_1 : ScatterDims S64 S500000x1 S500000 where
  updateWindowDims := []
  insertedWindowDims := [0]
  scatterDimsToOperandDims := [0]
  indexVectorDim := 1
  wf := scatter_S64_S500000x1_S500000_n_0_0_1_wf
def dot_S64x384_S384x128_S64x128_1_0_0_1_n_n : DotDims S64x384 S384x128 S64x128 where
  lhsContracting := [1]
  rhsContracting := [0]
  lhsNonContracting := [0]
  rhsNonContracting := [1]
  lhsBatch := []
  rhsBatch := []
  wf := dot_S64x384_S384x128_S64x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

class Facts : Prop extends Facts₀ where

variable [Facts]
-- ==== Proof.KR0Body.lean ====
/-
  The scatter-mean kernel's body at one grid point, as a separation-logic triple, in the three control cases the
  grid meets: the first point (the four accumulators are reset, then the point's block is added), a middle point
  (the block is added), the last point (the block is added, then the two means are stored).

  The four accumulators (segment sums and segment counts of the two node sets) are carried as one tuple; one
  point's step adds, to each, what the point's block of node rows and segment ids contributes.
-/
import proofs.«406569_j31748398252730_1_alg».proof.Proof.Gen.Kernel.Skeleton
import proofs.«406569_j31748398252730_1_alg».proof.Proof.Gen.Kernel.Launch
import proofs.«406569_j31748398252730_1_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

/-- The four accumulators: segment sums and counts of the first node set, then of the second. -/
abbrev Sc (F : FTy → Type) [FloatOps F] : Type :=
  Vec F S64x128 .f32 × Vec F S64x1 .f32 × Vec F S64x128 .f32 × Vec F S64x1 .f32

/-- The accumulators after the reset: all zero. -/
def sc0 : Sc F := (k0_pay5 (F := F), k0_pay6 (F := F), k0_pay7 (F := F), k0_pay8 (F := F))

/-- One point's step: each accumulator plus what the point's block of rows and ids contributes. -/
def scStep (xh : Vec F S4096x128 .f32) (bh : Vec F S4096 .i32) (xg : Vec F S4096x128 .f32) (bg : Vec F S4096 .i32)
    (s : Sc F) : Sc F :=
  (k0_pay11 bh xh s.1, k0_pay1 (k0_pay9 bh) s.2.1, k0_pay12 bg xg s.2.2.1, k0_pay2 (k0_pay10 bg) s.2.2.2)

/-- The first branch's condition (the point is the first), as the kernel computes it. -/
def cond1 (i : grid0.Coords) : BitVec 1 :=
  Scalar.cmpi .ne (Scalar.extui (Scalar.cmpi .eq (BitVec.ofNat 32 (i 0).val) 0#32)) 0#32

/-- The zero offsets of a whole-buffer access of rank one, and of rank two. -/
theorem hz1 : (![0] : Fin 1 → Nat) = fun _ => 0 := funext fun a => by fin_cases a <;> rfl
theorem hz2 : (![0, 0] : Fin 2 → Nat) = fun _ => 0 := funext fun a => by fin_cases a <;> rfl

section Whole

variable {sg : RefSig} {κ : Kind} {sp : Space} {S : Shape} {e : EltTy} {Val : EltTy → Type} [∀ e, Nonempty (Val e)]

/-- A store of the whole buffer, made last, is what the buffer reads afterwards, whatever was stored before it:
    the last piece covers every index, and under it the contents are its payload. -/
theorem read_writes_whole (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

/-- A load of the whole buffer reads its contents. -/
theorem readAt_whole (v : View sg κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f _).trans (View.ld_unit_zero h inb _)

end Whole

set_option maxHeartbeats 1000000 in
/-- A middle point: the inputs' blocks are read, the accumulators go one step on; the output buffers are not touched. -/
theorem sound_kernel0_mid (c : Dev nD) (E : Set ℕ) (i : grid0.Coords) (h1 : ¬ cond1 i = 1#1) (h2 : ¬ k0_cond2 i = 1#1)
    (arg1 : Memref sig .tc .vmem S4096x128 .f32) (harg1 : arg1.IsWhole) (arg2 : Memref sig .tc .vmem S4096 .i32) (harg2 : arg2.IsWhole)
    (arg3 : Memref sig .tc .vmem S4096x128 .f32) (harg3 : arg3.IsWhole) (arg4 : Memref sig .tc .vmem S4096 .i32) (harg4 : arg4.IsWhole)
    (arg5 : Memref sig .tc .vmem S64x128 .f32) (harg5 : arg5.IsWhole) (arg6 : Memref sig .tc .vmem S64x128 .f32) (harg6 : arg6.IsWhole)
    (arg7 : Memref sig .tc .vmem S64x128 .f32) (harg7 : arg7.IsWhole) (arg8 : Memref sig .tc .vmem S64x1 .f32) (harg8 : arg8.IsWhole)
    (arg9 : Memref sig .tc .vmem S64x128 .f32) (harg9 : arg9.IsWhole) (arg10 : Memref sig .tc .vmem S64x1 .f32) (harg10 : arg10.IsWhole)
    (xh : Vec F S4096x128 .f32) (bh : Vec F S4096 .i32) (xg : Vec F S4096x128 .f32) (bg : Vec F S4096 .i32) (s : Sc F)
    (K : PUnit → sProp 𝕄) :
    iprop(owns (c : Thread nD τ) arg1 fullShare xh ∗ owns (c : Thread nD τ) arg2 fullShare bh
        ∗ owns (c : Thread nD τ) arg3 fullShare xg ∗ owns (c : Thread nD τ) arg4 fullShare bg
        ∗ owns (c : Thread nD τ) arg7 fullShare s.1 ∗ owns (c : Thread nD τ) arg8 fullShare s.2.1
        ∗ owns (c : Thread nD τ) arg9 fullShare s.2.2.1 ∗ owns (c : Thread nD τ) arg10 fullShare s.2.2.2
        ∗ (iprop(owns (c : Thread nD τ) arg1 fullShare xh ∗ owns (c : Thread nD τ) arg2 fullShare bh
            ∗ owns (c : Thread nD τ) arg3 fullShare xg ∗ owns (c : Thread nD τ) arg4 fullShare bg
            ∗ owns (c : Thread nD τ) arg7 fullShare (scStep xh bh xg bg s).1 ∗ owns (c : Thread nD τ) arg8 fullShare (scStep xh bh xg bg s).2.1
            ∗ owns (c : Thread nD τ) arg9 fullShare (scStep xh bh xg bg s).2.2.1 ∗ owns (c : Thread nD τ) arg10 fullShare (scStep xh bh xg bg s).2.2.2) -∗ K ⟨⟩))
      ⊢ wp frame (wpE (defs₀ (F := F)) Variants.none c none) E
          (cc0__scatter_mean_kernel i arg1 harg1 arg2 harg2 arg3 harg3 arg4 harg4 arg5 harg5 arg6 harg6 arg7 harg7 arg8 harg8 arg9 harg9 arg10 harg10) K := by
  -- the four accumulators by name
  obtain ⟨s1, s2, s3, s4⟩ := s
  -- the body is its sequence of whole-buffer loads and stores over the named payloads
  simp only [cc0__scatter_mean_kernel_eq_skeleton]; unfold cc0__scatter_mean_kernel_skel
  simp only [k0_part1_eq_skeleton]; unfold k0_part1_skel
  -- each buffer is held at some contents that read as stated
  unfold owns
  iintro ⟨⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, ⟨%f10, %hf10, H10⟩, Hk⟩
  subst hf1 hf2 hf3 hf4 hf7 hf8 hf9 hf10
  -- the first condition as the kernel computes it; the two conditions decide the two branches
  unfold cond1 at h1
  sl_exec (disch := first | sl_exact h1 | sl_exact h2)
  sl_step
  iapply Hk
  -- the four inputs are as they were
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  -- each buffer stored into: its last store covers it, so it reads that store's payload; a load of a whole buffer read
  -- the buffer's contents, or, after a store in this run, that store's payload; what is left is the step by definition
  isplitl [H7]
  · iexists _; isplitr
    swap; · iexact H7
    ipureintro
    sl_unfold_run_names
    rw [read_writes_whole _ _ hz2]
    simp only [readAt_whole (S := S4096) _ _ hz1, readAt_whole (S := S4096x128) _ _ hz2, readAt_whole (S := S64x128) _ _ hz2, readAt_whole (S := S64x1) _ _ hz2, View.readCov_unit_zero (S := S64x128) _ hz2, View.readCov_unit_zero (S := S64x1) _ hz2]
    rfl
  isplitl [H8]
  · iexists _; isplitr
    swap; · iexact H8
    ipureintro
    sl_unfold_run_names
    rw [read_writes_whole _ _ hz2]
    simp only [readAt_whole (S := S4096) _ _ hz1, readAt_whole (S := S4096x128) _ _ hz2, readAt_whole (S := S64x128) _ _ hz2, readAt_whole (S := S64x1) _ _ hz2, View.readCov_unit_zero (S := S64x128) _ hz2, View.readCov_unit_zero (S := S64x1) _ hz2]
    rfl
  isplitl [H9]
  · iexists _; isplitr
    swap; · iexact H9
    ipureintro
    sl_unfold_run_names
    rw [read_writes_whole _ _ hz2]
    simp only [readAt_whole (S := S4096) _ _ hz1, readAt_whole (S := S4096x128) _ _ hz2, readAt_whole (S := S64x128) _ _ hz2, readAt_whole (S := S64x1) _ _ hz2, View.readCov_unit_zero (S := S64x128) _ hz2, View.readCov_unit_zero (S := S64x1) _ hz2]
    rfl
  iexists _; isplitr
  swap; · iexact H10
  ipureintro
  sl_unfold_run_names
  rw [read_writes_whole _ _ hz2]
  simp only [readAt_whole (S := S4096) _ _ hz1, readAt_whole (S := S4096x128) _ _ hz2, readAt_whole (S := S64x128) _ _ hz2, readAt_whole (S := S64x1) _ _ hz2, View.readCov_unit_zero (S := S64x128) _ hz2, View.readCov_unit_zero (S := S64x1) _ hz2]
  rfl

set_option maxHeartbeats 1000000 in
/-- The first point: whatever the accumulators held, they are reset and then go one step on from zero. -/
theorem sound_kernel0_first (c : Dev nD) (E : Set ℕ) (i : grid0.Coords) (h1 : cond1 i = 1#1) (h2 : ¬ k0_cond2 i = 1#1)
    (arg1 : Memref sig .tc .vmem S4096x128 .f32) (harg1 : arg1.IsWhole) (arg2 : Memref sig .tc .vmem S4096 .i32) (harg2 : arg2.IsWhole)
    (arg3 : Memref sig .tc .vmem S4096x128 .f32) (harg3 : arg3.IsWhole) (arg4 : Memref sig .tc .vmem S4096 .i32) (harg4 : arg4.IsWhole)
    (arg5 : Memref sig .tc .vmem S64x128 .f32) (harg5 : arg5.IsWhole) (arg6 : Memref sig .tc .vmem S64x128 .f32) (harg6 : arg6.IsWhole)
    (arg7 : Memref sig .tc .vmem S64x128 .f32) (harg7 : arg7.IsWhole) (arg8 : Memref sig .tc .vmem S64x1 .f32) (harg8 : arg8.IsWhole)
    (arg9 : Memref sig .tc .vmem S64x128 .f32) (harg9 : arg9.IsWhole) (arg10 : Memref sig .tc .vmem S64x1 .f32) (harg10 : arg10.IsWhole)
    (xh : Vec F S4096x128 .f32) (bh : Vec F S4096 .i32) (xg : Vec F S4096x128 .f32) (bg : Vec F S4096 .i32)
    (K : PUnit → sProp 𝕄) :
    iprop(owns (c : Thread nD τ) arg1 fullShare xh ∗ owns (c : Thread nD τ) arg2 fullShare bh
        ∗ owns (c : Thread nD τ) arg3 fullShare xg ∗ owns (c : Thread nD τ) arg4 fullShare bg
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare xh ∗ owns (c : Thread nD τ) arg2 fullShare bh
            ∗ owns (c : Thread nD τ) arg3 fullShare xg ∗ owns (c : Thread nD τ) arg4 fullShare bg
            ∗ owns (c : Thread nD τ) arg7 fullShare (scStep xh bh xg bg (sc0 (F := F))).1 ∗ owns (c : Thread nD τ) arg8 fullShare (scStep xh bh xg bg (sc0 (F := F))).2.1
            ∗ owns (c : Thread nD τ) arg9 fullShare (scStep xh bh xg bg (sc0 (F := F))).2.2.1 ∗ owns (c : Thread nD τ) arg10 fullShare (scStep xh bh xg bg (sc0 (F := F))).2.2.2) -∗ K ⟨⟩))
      ⊢ wp frame (wpE (defs₀ (F := F)) Variants.none c none) E
          (cc0__scatter_mean_kernel i arg1 harg1 arg2 harg2 arg3 harg3 arg4 harg4 arg5 harg5 arg6 harg6 arg7 harg7 arg8 harg8 arg9 harg9 arg10 harg10) K := by
  -- the body is its sequence of whole-buffer loads and stores over the named payloads
  simp only [cc0__scatter_mean_kernel_eq_skeleton]; unfold cc0__scatter_mean_kernel_skel
  simp only [k0_part1_eq_skeleton]; unfold k0_part1_skel
  -- each buffer is held at some contents that read as stated
  unfold owns
  iintro ⟨⟨%f1, %hf1, H1⟩, ⟨%f2, %hf2, H2⟩, ⟨%f3, %hf3, H3⟩, ⟨%f4, %hf4, H4⟩, ⟨%d7, %f7, -, H7⟩, ⟨%d8, %f8, -, H8⟩, ⟨%d9, %f9, -, H9⟩, ⟨%d10, %f10, -, H10⟩, Hk⟩
  subst hf1 hf2 hf3 hf4
  -- the first condition as the kernel computes it; the two conditions decide the two branches
  unfold cond1 at h1
  sl_exec (disch := first | sl_exact h1 | sl_exact h2)
  sl_step
  iapply Hk
  -- the four inputs are as they were
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  -- each buffer stored into: its last store covers it, so it reads that store's payload; a load of a whole buffer read
  -- the buffer's contents, or, after a store in this run, that store's payload; what is left is the step by definition
  isplitl [H7]
  · iexists _; isplitr
    swap; · iexact H7
    ipureintro
    sl_unfold_run_names
    rw [read_writes_whole _ _ hz2]
    simp only [readAt_whole (S := S4096) _ _ hz1, readAt_whole (S := S4096x128) _ _ hz2, readAt_whole (S := S64x128) _ _ hz2, readAt_whole (S := S64x1) _ _ hz2, View.readCov_unit_zero (S := S64x128) _ hz2, View.readCov_unit_zero (S := S64x1) _ hz2]
    rfl
  isplitl [H8]
  · iexists _; isplitr
    swap; · iexact H8
    ipureintro
    sl_unfold_run_names
    rw [read_writes_whole _ _ hz2]
    simp only [readAt_whole (S := S4096) _ _ hz1, readAt_whole (S := S4096x128) _ _ hz2, readAt_whole (S := S64x128) _ _ hz2, readAt_whole (S := S64x1) _ _ hz2, View.readCov_unit_zero (S := S64x128) _ hz2, View.readCov_unit_zero (S := S64x1) _ hz2]
    rfl
  isplitl [H9]
  · iexists _; isplitr
    swap; · iexact H9
    ipureintro
    sl_unfold_run_names
    rw [read_writes_whole _ _ hz2]
    simp only [readAt_whole (S := S4096) _ _ hz1, readAt_whole (S := S4096x128) _ _ hz2, readAt_whole (S := S64x128) _ _ hz2, readAt_whole (S := S64x1) _ _ hz2, View.readCov_unit_zero (S := S64x128) _ hz2, View.readCov_unit_zero (S := S64x1) _ hz2]
    rfl
  iexists _; isplitr
  swap; · iexact H10
  ipureintro
  sl_unfold_run_names
  rw [read_writes_whole _ _ hz2]
  simp only [readAt_whole (S := S4096) _ _ hz1, readAt_whole (S := S4096x128) _ _ hz2, readAt_whole (S := S64x128) _ _ hz2, readAt_whole (S := S64x1) _ _ hz2, View.readCov_unit_zero (S := S64x128) _ hz2, View.readCov_unit_zero (S := S64x1) _ hz2]
  rfl

set_option maxHeartbeats 1000000 in
/-- The last point: the accumulators go one step on, and each mean (sum over count, the count at least one) is
    stored into its output buffer. -/
theorem sound_kernel0_last (c : Dev nD) (E : Set ℕ) (i : grid0.Coords) (h1 : ¬ cond1 i = 1#1) (h2 : k0_cond2 i = 1#1)
    (arg1 : Memref sig .tc .vmem S4096x128 .f32) (harg1 : arg1.IsWhole) (arg2 : Memref sig .tc .vmem S4096 .i32) (harg2 : arg2.IsWhole)
    (arg3 : Memref sig .tc .vmem S4096x128 .f32) (harg3 : arg3.IsWhole) (arg4 : Memref sig .tc .vmem S4096 .i32) (harg4 : arg4.IsWhole)
    (arg5 : Memref sig .tc .vmem S64x128 .f32) (harg5 : arg5.IsWhole) (arg6 : Memref sig .tc .vmem S64x128 .f32) (harg6 : arg6.IsWhole)
    (arg7 : Memref sig .tc .vmem S64x128 .f32) (harg7 : arg7.IsWhole) (arg8 : Memref sig .tc .vmem S64x1 .f32) (harg8 : arg8.IsWhole)
    (arg9 : Memref sig .tc .vmem S64x128 .f32) (harg9 : arg9.IsWhole) (arg10 : Memref sig .tc .vmem S64x1 .f32) (harg10 : arg10.IsWhole)
    (xh : Vec F S4096x128 .f32) (bh : Vec F S4096 .i32) (xg : Vec F S4096x128 .f32) (bg : Vec F S4096 .i32) (s : Sc F)
    (K : PUnit → sProp 𝕄) :
    iprop(owns (c : Thread nD τ) arg1 fullShare xh ∗ owns (c : Thread nD τ) arg2 fullShare bh
        ∗ owns (c : Thread nD τ) arg3 fullShare xg ∗ owns (c : Thread nD τ) arg4 fullShare bg
        ∗ (∃ d, owns (c : Thread nD τ) arg5 fullShare d) ∗ (∃ d, owns (c : Thread nD τ) arg6 fullShare d)
        ∗ owns (c : Thread nD τ) arg7 fullShare s.1 ∗ owns (c : Thread nD τ) arg8 fullShare s.2.1
        ∗ owns (c : Thread nD τ) arg9 fullShare s.2.2.1 ∗ owns (c : Thread nD τ) arg10 fullShare s.2.2.2
        ∗ (iprop(owns (c : Thread nD τ) arg1 fullShare xh ∗ owns (c : Thread nD τ) arg2 fullShare bh
            ∗ owns (c : Thread nD τ) arg3 fullShare xg ∗ owns (c : Thread nD τ) arg4 fullShare bg
            ∗ owns (c : Thread nD τ) arg5 fullShare (k0_pay3 (scStep xh bh xg bg s).1 (scStep xh bh xg bg s).2.1)
            ∗ owns (c : Thread nD τ) arg6 fullShare (k0_pay4 (scStep xh bh xg bg s).2.2.1 (scStep xh bh xg bg s).2.2.2)
            ∗ owns (c : Thread nD τ) arg7 fullShare (scStep xh bh xg bg s).1 ∗ owns (c : Thread nD τ) arg8 fullShare (scStep xh bh xg bg s).2.1
            ∗ owns (c : Thread nD τ) arg9 fullShare (scStep xh bh xg bg s).2.2.1 ∗ owns (c : Thread nD τ) arg10 fullShare (scStep xh bh xg bg s).2.2.2) -∗ K ⟨⟩))
      ⊢ wp frame (wpE (defs₀ (F := F)) Variants.none c none) E
          (cc0__scatter_mean_kernel i arg1 harg1 arg2 harg2 arg3 harg3 arg4 harg4 arg5 harg5 arg6 harg6 arg7 harg7 arg8 harg8 arg9 harg9 arg10 harg10) K := by
  -- the four accumulators by name
  obtain ⟨s1, s2, s3, s4⟩ := s
  -- the body is its sequence of whole-buffer loads and stores over the named payloads
  simp only [cc0__scatter_mean_kernel_eq_skeleton]; unfold cc0__scatter_mean_kernel_skel
  simp only [k0_part1_eq_skeleton]; unfold k0_part1_skel
  -- each buffer is held at some contents that read as stated
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%f9, %hf9, H9⟩, ⟨%f10, %hf10, H10⟩, Hk⟩
  subst hf1 hf2 hf3 hf4 hf7 hf8 hf9 hf10
  -- the first condition as the kernel computes it; the two conditions decide the two branches
  unfold cond1 at h1
  sl_exec (disch := first | sl_exact h1 | sl_exact h2)
  sl_step
  iapply Hk
  -- the four inputs are as they were
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  -- each buffer stored into: its last store covers it, so it reads that store's payload; a load of a whole buffer read
  -- the buffer's contents, or, after a store in this run, that store's payload; what is left is the step by definition
  isplitl [H5]
  · iexists _; isplitr
    swap; · iexact H5
    ipureintro
    sl_unfold_run_names
    rw [read_writes_whole _ _ hz2]
    simp only [readAt_whole (S := S4096) _ _ hz1, readAt_whole (S := S4096x128) _ _ hz2, readAt_whole (S := S64x128) _ _ hz2, readAt_whole (S := S64x1) _ _ hz2, View.readCov_unit_zero (S := S64x128) _ hz2, View.readCov_unit_zero (S := S64x1) _ hz2]
    rfl
  isplitl [H6]
  · iexists _; isplitr
    swap; · iexact H6
    ipureintro
    sl_unfold_run_names
    rw [read_writes_whole _ _ hz2]
    simp only [readAt_whole (S := S4096) _ _ hz1, readAt_whole (S := S4096x128) _ _ hz2, readAt_whole (S := S64x128) _ _ hz2, readAt_whole (S := S64x1) _ _ hz2, View.readCov_unit_zero (S := S64x128) _ hz2, View.readCov_unit_zero (S := S64x1) _ hz2]
    rfl
  isplitl [H7]
  · iexists _; isplitr
    swap; · iexact H7
    ipureintro
    sl_unfold_run_names
    rw [read_writes_whole _ _ hz2]
    simp only [readAt_whole (S := S4096) _ _ hz1, readAt_whole (S := S4096x128) _ _ hz2, readAt_whole (S := S64x128) _ _ hz2, readAt_whole (S := S64x1) _ _ hz2, View.readCov_unit_zero (S := S64x128) _ hz2, View.readCov_unit_zero (S := S64x1) _ hz2]
    rfl
  isplitl [H8]
  · iexists _; isplitr
    swap; · iexact H8
    ipureintro
    sl_unfold_run_names
    rw [read_writes_whole _ _ hz2]
    simp only [readAt_whole (S := S4096) _ _ hz1, readAt_whole (S := S4096x128) _ _ hz2, readAt_whole (S := S64x128) _ _ hz2, readAt_whole (S := S64x1) _ _ hz2, View.readCov_unit_zero (S := S64x128) _ hz2, View.readCov_unit_zero (S := S64x1) _ hz2]
    rfl
  isplitl [H9]
  · iexists _; isplitr
    swap; · iexact H9
    ipureintro
    sl_unfold_run_names
    rw [read_writes_whole _ _ hz2]
    simp only [readAt_whole (S := S4096) _ _ hz1, readAt_whole (S := S4096x128) _ _ hz2, readAt_whole (S := S64x128) _ _ hz2, readAt_whole (S := S64x1) _ _ hz2, View.readCov_unit_zero (S := S64x128) _ hz2, View.readCov_unit_zero (S := S64x1) _ hz2]
    rfl
  iexists _; isplitr
  swap; · iexact H10
  ipureintro
  sl_unfold_run_names
  rw [read_writes_whole _ _ hz2]
  simp only [readAt_whole (S := S4096) _ _ hz1, readAt_whole (S := S4096x128) _ _ hz2, readAt_whole (S := S64x128) _ _ hz2, readAt_whole (S := S64x1) _ _ hz2, View.readCov_unit_zero (S := S64x128) _ hz2, View.readCov_unit_zero (S := S64x1) _ hz2]
  rfl

end Cert.Kernel.Hand

end
-- ==== Proof.KR0Dat.lean ====
/-
  The scatter-mean region's proof data. Its four input windows hold their blocks of the two padded node arrays and
  the two padded id arrays; its four scratch accumulators are carried from point to point in the region's invariant:
  before the first point they hold anything, before a later point t what the points below t have accumulated
  (`acc t`, a fold of one point's step from the all-zero start); its two output windows are idle until the last point,
  where each takes its mean (sum over count) and is written back.
-/
import proofs.«406569_j31748398252730_1_alg».proof.Proof.KR0Body
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The four input blocks at a point, at their literal types: 4096 node rows of each set, and their 4096 segment ids. -/
abbrev xhB (c : Dev nD) (t : Fin cfg0.N) : Vec F S4096x128 .f32 := iblk0 V c 0 t
abbrev bhB (c : Dev nD) (t : Fin cfg0.N) : Vec F S4096 .i32 := iblk0 V c 1 t
abbrev xgB (c : Dev nD) (t : Fin cfg0.N) : Vec F S4096x128 .f32 := iblk0 V c 2 t
abbrev bgB (c : Dev nD) (t : Fin cfg0.N) : Vec F S4096 .i32 := iblk0 V c 3 t

/-- The accumulators after the points below n: zero, then one step per point. -/
def acc (c : Dev nD) : ℕ → Sc F
  | 0 => sc0
  | n + 1 => if h : n < cfg0.N then scStep (xhB V c ⟨n, h⟩) (bhB V c ⟨n, h⟩) (xgB V c ⟨n, h⟩) (bgB V c ⟨n, h⟩) (acc c n) else acc c n

theorem acc_zero (c : Dev nD) : acc V c 0 = sc0 := rfl
theorem acc_succ (c : Dev nD) (t : Fin cfg0.N) :
    acc V c (t.val + 1) = scStep (xhB V c t) (bhB V c t) (xgB V c t) (bgB V c t) (acc V c t.val) := by
  show (if h : t.val < cfg0.N then _ else _) = _
  rw [dif_pos t.isLt]

/-- The scratch accumulators before point t: anything before the first point, acc t before a later one. -/
def scratchAt (c : Dev nD) (t : ℕ) : sProp 𝕄 :=
  iprop(∃ s : Sc F, ⌜t ≠ 0 → s = acc V c t⌝
    ∗ owns (c : Thread nD τ) (Memref.whole cc0_scratch0) fullShare s.1 ∗ owns (c : Thread nD τ) (Memref.whole cc0_scratch1) fullShare s.2.1
    ∗ owns (c : Thread nD τ) (Memref.whole cc0_scratch2) fullShare s.2.2.1 ∗ owns (c : Thread nD τ) (Memref.whole cc0_scratch3) fullShare s.2.2.2)

/-- What else the region's invariant keeps, untouched: the other region's staging buffers at some contents, and the generator register. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ ∃ r, prngReg c r)

/-- The region's proof data on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay3 (acc V c (t.val + 1)).1 (acc V c (t.val + 1)).2.1
    | ⟨5, _⟩ => k0_pay4 (acc V c (t.val + 1)).2.2.1 (acc V c (t.val + 1)).2.2.2
  Φ t := iprop(scratchAt V c t.val ∗ rest0 c)
  q _ := fullShare
  owed _ := 0

theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = k0_pay3 (acc V c (t.val + 1)).1 (acc V c (t.val + 1)).2.1 := by dsimp only [dat0]
theorem after0_5 (c : Dev nD) (t : Fin cfg0.N) :
    (dat0 V c).after 5 t = k0_pay4 (acc V c (t.val + 1)).2.2.1 (acc V c (t.val + 1)).2.2.2 := by dsimp only [dat0]

/-! ## An array written back at the last point only

The array after the write-backs below a count is a recursion on the count. Below the first point that writes the
window back nothing has been overwritten, so the array is as at entry; a window whose only write-back is at the last
point therefore ends as the entry contents with that one block overwritten. Both at a variable configuration, so that
the recursion is unfolded here and not at a point count that is a numeral. -/

section LastFlush

variable {cfg : Cfg sig Λ₀} {c : Dev nD} (dat : Dat τ (Elt F) Unit ℕ (UR sig nD τ) ℕ cfg c)

/-- If no point below `n` writes window `w` back, the array after the write-backs below `n` is the entry contents. -/
theorem arrAt_of_no_flush_below (w : Fin cfg.W) :
    ∀ n : ℕ, (∀ t : Fin cfg.N, t.val < n → (cfg.win w).flush t = false) → dat.arrAt w n = dat.A w
  | 0, _ => rfl
  | n + 1, h => by
    have ih := arrAt_of_no_flush_below w n fun t ht => h t (Nat.lt_succ_of_lt ht)
    by_cases hn : n < cfg.N
    · have e := dat.arrAt_succ w ⟨n, hn⟩
      rw [h ⟨n, hn⟩ (Nat.lt_succ_self n), if_neg Bool.false_ne_true] at e
      exact e.trans ih
    · show (if h : n < cfg.N then _ else dat.arrAt w n) = _
      rw [dif_neg hn]; exact ih

/-- A window written back at the last point only: its array ends as the entry contents with the last point's block
    overwritten by what the body left there. -/
theorem arrAt_last_flush_only (w : Fin cfg.W) (t : Fin cfg.N) (ht : t.val + 1 = cfg.N) (hfl : (cfg.win w).flush t = true)
    (hno : ∀ t' : Fin cfg.N, t'.val < t.val → (cfg.win w).flush t' = false) :
    dat.arrAt w cfg.N = ((cfg.win w).blk t).view.write (Elt F) (dat.A w) (dat.flushed w t) Finset.univ := by
  have e : dat.arrAt w cfg.N = dat.arrAt w (t.val + 1) := congrArg (dat.arrAt w) ht.symm
  rw [e, dat.arrAt_succ w t, if_pos hfl, arrAt_of_no_flush_below dat w t.val hno]

end LastFlush

/-- The last point of the grid. -/
def tLast0 : Fin cfg0.N := ⟨122, by have := Gen.N_0; show 122 < grid0.N; omega⟩

/-- Windows 4 and 5 are written back at no point below the last. -/
theorem noflush0_4 (t' : Fin cfg0.N) (h : t'.val < (tLast0).val) : (cfg0.win 4).flush t' = false :=
  Bool.eq_false_iff.mpr fun hf => by have := (Gen.flush0_4 t').mp hf; have : t'.val < 122 := h; omega
theorem noflush0_5 (t' : Fin cfg0.N) (h : t'.val < (tLast0).val) : (cfg0.win 5).flush t' = false :=
  Bool.eq_false_iff.mpr fun hf => by have := (Gen.flush0_5 t').mp hf; have : t'.val < 122 := h; omega

/-- The invariant before the first point, from the generator register and the scoped buffers no window stages. -/
theorem hin0 (c : Dev nD) :
    iprop((∃ r, prngReg c r) ∗ Pipeline.scopedRest (Ix := Unit) (Name := ℕ) (U := UR sig nD τ) (Lvl := ℕ) (Val := Elt F) spec0 c)
      ⊢ ((dat0 V c).Φ 0 : sProp 𝕄) := by
  rw [Gen.scopedRest0_eq]
  show _ ⊢ iprop(scratchAt V c 0 ∗ rest0 c)
  unfold scratchAt rest0
  simp only [owns_whole]
  iintro ⟨Hr, ⟨%f0, H0⟩, ⟨%f1, H1⟩, ⟨%f2, H2⟩, ⟨%f3, H3⟩, G0, G1, G2, G3, G4, G5⟩
  isplitl [H0 H1 H2 H3]
  · iexists ((f0, f1, f2, f3) : Sc F)
    isplitr; · ipureintro; intro h; exact absurd rfl h
    isplitl [H0]; · iexact H0
    isplitl [H1]; · iexact H1
    isplitl [H2]; · iexact H2
    iexact H3
  isplitl [G0]; · iexact G0
  isplitl [G1]; · iexact G1
  isplitl [G2]; · iexact G2
  isplitl [G3]; · iexact G3
  isplitl [G4]; · iexact G4
  isplitl [G5]; · iexact G5
  iexact Hr

/-- The invariant after the last point gives the register and those scoped buffers back. -/
theorem hout0 (c : Dev nD) :
    ((dat0 V c).Φ (Fin.last cfg0.N) : sProp 𝕄)
      ⊢ iprop((∃ r, prngReg c r) ∗ Pipeline.scopedRest (Ix := Unit) (Name := ℕ) (U := UR sig nD τ) (Lvl := ℕ) (Val := Elt F) spec0 c) := by
  rw [Gen.scopedRest0_eq]
  show iprop(scratchAt V c (Fin.last cfg0.N).val ∗ rest0 c) ⊢ _
  unfold scratchAt rest0
  simp only [owns_whole]
  iintro ⟨⟨%s, -, H0, H1, H2, H3⟩, G0, G1, G2, G3, G4, G5, Hr⟩
  isplitl [Hr]; · iexact Hr
  isplitl [H0]; · iexists _; iexact H0
  isplitl [H1]; · iexists _; iexact H1
  isplitl [H2]; · iexists _; iexact H2
  isplitl [H3]; · iexists _; iexact H3
  isplitl [G0]; · iexact G0
  isplitl [G1]; · iexact G1
  isplitl [G2]; · iexact G2
  isplitl [G3]; · iexact G3
  isplitl [G4]; · iexact G4
  iexact G5

/-! ## The body obligation -/

/-- The kernel's two conditions over the grid, in closed form: the first holds at the first point only, the second
    at the last point only. -/
theorem cond1_iff : ∀ t : Fin cfg0.N, cond1 (cfg0.grid.coords t) = 1#1 ↔ t.val = 0 :=
  (by decide +kernel : ∀ t : Fin grid0.N, cond1 (grid0.coords t) = 1#1 ↔ t.val = 0)
theorem cond2_iff : ∀ t : Fin cfg0.N, k0_cond2 (cfg0.grid.coords t) = 1#1 ↔ t.val = 122 :=
  (by decide +kernel : ∀ t : Fin grid0.N, k0_cond2 (grid0.coords t) = 1#1 ↔ t.val = 122)

/-- The output windows are idle exactly off the last point, -/
theorem idle0_4_of_ne (t : Fin cfg0.N) (h : t.val ≠ 122) : cfg0.idle 4 (cfg0.grid.coords t) = true := by
  have hc : ¬ k0_cond2 (grid0.coords t) = 1#1 := fun e => h ((cond2_iff t).mp e)
  show (!(k0_cond2 (grid0.coords t) == 1#1)) = true
  rw [Bool.not_eq_true', beq_eq_false_iff_ne]; exact hc
theorem idle0_5_of_ne (t : Fin cfg0.N) (h : t.val ≠ 122) : cfg0.idle 5 (cfg0.grid.coords t) = true := by
  have hc : ¬ k0_cond2 (grid0.coords t) = 1#1 := fun e => h ((cond2_iff t).mp e)
  show (!(k0_cond2 (grid0.coords t) == 1#1)) = true
  rw [Bool.not_eq_true', beq_eq_false_iff_ne]; exact hc
theorem idle0_4_of_eq (t : Fin cfg0.N) (h : t.val = 122) : cfg0.idle 4 (cfg0.grid.coords t) = false := by
  show (!(k0_cond2 (grid0.coords t) == 1#1)) = false
  rw [(cond2_iff t).mpr h]; rfl
theorem idle0_5_of_eq (t : Fin cfg0.N) (h : t.val = 122) : cfg0.idle 5 (cfg0.grid.coords t) = false := by
  show (!(k0_cond2 (grid0.coords t) == 1#1)) = false
  rw [(cond2_iff t).mpr h]; rfl

/-- and there they are not written back. -/
theorem flush0_4_of_ne (t : Fin cfg0.N) (h : t.val ≠ 122) : (cfg0.win 4).flush t = false :=
  Bool.eq_false_iff.mpr fun hf => by
    have hN : cfg0.N = 123 := Gen.N_0
    have := (Gen.flush0_4 t).mp hf; have := t.isLt; omega
theorem flush0_5_of_ne (t : Fin cfg0.N) (h : t.val ≠ 122) : (cfg0.win 5).flush t = false :=
  Bool.eq_false_iff.mpr fun hf => by
    have hN : cfg0.N = 123 := Gen.N_0
    have := (Gen.flush0_5 t).mp hf; have := t.isLt; omega

/-- Each input window is fetched at every point, so its current buffer holds its block there. -/
theorem before0_0 (c : Dev nD) (t : Fin cfg0.N) (d) : (dat0 V c).before 0 t d = iblk0 V c 0 t := by
  rw [(dat0 V c).before_fetched 0 t (Gen.fetch0_0 t) d]
  unfold Dat.fetched Dat.blockOf iblk0; rw [A_eq0]; try rfl
theorem before0_1 (c : Dev nD) (t : Fin cfg0.N) (d) : (dat0 V c).before 1 t d = iblk0 V c 1 t := by
  rw [(dat0 V c).before_fetched 1 t (Gen.fetch0_1 t) d]
  unfold Dat.fetched Dat.blockOf iblk0; rw [A_eq0]; try rfl
theorem before0_2 (c : Dev nD) (t : Fin cfg0.N) (d) : (dat0 V c).before 2 t d = iblk0 V c 2 t := by
  rw [(dat0 V c).before_fetched 2 t (Gen.fetch0_2 t) d]
  unfold Dat.fetched Dat.blockOf iblk0; rw [A_eq0]; try rfl
theorem before0_3 (c : Dev nD) (t : Fin cfg0.N) (d) : (dat0 V c).before 3 t d = iblk0 V c 3 t := by
  rw [(dat0 V c).before_fetched 3 t (Gen.fetch0_3 t) d]
  unfold Dat.fetched Dat.blockOf iblk0; rw [A_eq0]; try rfl

/-- The invariant before and after a point, opened. -/
theorem Φ0_castSucc (c : Dev nD) (t : Fin cfg0.N) : (dat0 V c).Φ t.castSucc = iprop(scratchAt V c t.val ∗ rest0 c) := rfl
theorem Φ0_succ (c : Dev nD) (t : Fin cfg0.N) : (dat0 V c).Φ t.succ = iprop(scratchAt V c (t.val + 1) ∗ rest0 c) := rfl

/-- At a point live for a window its post is the plain one: the buffer at what the body leaves. -/
theorem leavesExact_live {cfg : Cfg sig Λ₀} {c : Dev nD} (dat : Dat τ (Elt F) Unit ℕ (UR sig nD τ) ℕ cfg c)
    (w : Fin cfg.W) (t : Fin cfg.N) (hi : cfg.idle w (cfg.grid.coords t) = false) :
    dat.leavesExact w t = owns (c : Thread nD τ) ((cfg.win w).stage (cfg.slots t w)) fullShare (dat.after w t) := by
  unfold Dat.leavesExact; rw [hi]

/-- What the body is called with at point t: the invariant, what the core owes, and every window's current buffer; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns: the invariant one point on, and each buffer at what the body leaves in it (an output
    window's, off the last point, as it was found). -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ (dat0 V c).leavesExact 4 t ∗ (dat0 V c).leavesExact 5 t)

/-- The first point: the accumulators are found at anything, reset, and go one step on from zero, which is the
    accumulation below the second point. The output windows are idle and handed back as found. -/
theorem sound_body0_first (c : Dev nD) (t : Fin cfg0.N) (h0 : t.val = 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [Φ0_castSucc, Φ0_succ, show (dat0 V c).owesAt () t.succ = (dat0 V c).owesAt () t.castSucc from rfl,
    after0_0, after0_1, after0_2, after0_3,
    (dat0 V c).leavesExact_idle 4 t (idle0_4_of_ne t (by omega)) (flush0_4_of_ne t (by omega)),
    (dat0 V c).leavesExact_idle 5 t (idle0_5_of_ne t (by omega)) (flush0_5_of_ne t (by omega))]
  unfold scratchAt
  iintro ⟨⟨⟨%s, -, S0, S1, S2, S3⟩, HR⟩, Ho, ⟨%d0, H0⟩, ⟨%d1, H1⟩, ⟨%d2, H2⟩, ⟨%d3, H3⟩, H4, H5⟩
  iapply (sound_kernel0_first c Set.univ (grid0.coords t) ((cond1_iff t).mpr h0) (fun e => by have := (cond2_iff t).mp e; omega)
    _ _ _ _ _ _ _ _ _ _ _ _ _ _ _ _ _ _ _ _ (xhB V c t) (bhB V c t) (xgB V c t) (bgB V c t) _)
  isplitl [H0]; · iexact H0
  isplitl [H1]; · iexact H1
  isplitl [H2]; · iexact H2
  isplitl [H3]; · iexact H3
  isplitl [S0]; · iexists _; iexact S0
  isplitl [S1]; · iexists _; iexact S1
  isplitl [S2]; · iexists _; iexact S2
  isplitl [S3]; · iexists _; iexact S3
  iintro ⟨H0, H1, H2, H3, S0, S1, S2, S3⟩
  isplitl [S0 S1 S2 S3 HR]
  · isplitl [S0 S1 S2 S3]
    · iexists (scStep (xhB V c t) (bhB V c t) (xgB V c t) (bgB V c t) (sc0 (F := F)))
      isplitr
      · ipureintro; intro _; rw [acc_succ V c t, h0, acc_zero]
      isplitl [S0]; · iexact S0
      isplitl [S1]; · iexact S1
      isplitl [S2]; · iexact S2
      iexact S3
    · iexact HR
  isplitl [Ho]; · iexact Ho
  isplitl [H0]; · iexact H0
  isplitl [H1]; · iexact H1
  isplitl [H2]; · iexact H2
  isplitl [H3]; · iexact H3
  isplitl [H4]; · iexact H4
  iexact H5

/-- A middle point: the accumulators are found at the accumulation below the point and go one step on. The output
    windows are idle and handed back as found. -/
theorem sound_body0_mid (c : Dev nD) (t : Fin cfg0.N) (h0 : t.val ≠ 0) (hl : t.val ≠ 122) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [Φ0_castSucc, Φ0_succ, show (dat0 V c).owesAt () t.succ = (dat0 V c).owesAt () t.castSucc from rfl,
    after0_0, after0_1, after0_2, after0_3,
    (dat0 V c).leavesExact_idle 4 t (idle0_4_of_ne t hl) (flush0_4_of_ne t hl),
    (dat0 V c).leavesExact_idle 5 t (idle0_5_of_ne t hl) (flush0_5_of_ne t hl)]
  unfold scratchAt
  iintro ⟨⟨⟨%s, %hs, S0, S1, S2, S3⟩, HR⟩, Ho, ⟨%d0, H0⟩, ⟨%d1, H1⟩, ⟨%d2, H2⟩, ⟨%d3, H3⟩, H4, H5⟩
  obtain rfl : s = acc V c t.val := hs h0
  iapply (sound_kernel0_mid c Set.univ (grid0.coords t) (fun e => h0 ((cond1_iff t).mp e)) (fun e => hl ((cond2_iff t).mp e))
    _ _ _ _ _ _ _ _ _ _ _ _ _ _ _ _ _ _ _ _ (xhB V c t) (bhB V c t) (xgB V c t) (bgB V c t) (acc V c t.val) _)
  isplitl [H0]; · iexact H0
  isplitl [H1]; · iexact H1
  isplitl [H2]; · iexact H2
  isplitl [H3]; · iexact H3
  isplitl [S0]; · iexact S0
  isplitl [S1]; · iexact S1
  isplitl [S2]; · iexact S2
  isplitl [S3]; · iexact S3
  iintro ⟨H0, H1, H2, H3, S0, S1, S2, S3⟩
  isplitl [S0 S1 S2 S3 HR]
  · isplitl [S0 S1 S2 S3]
    · iexists (scStep (xhB V c t) (bhB V c t) (xgB V c t) (bgB V c t) (acc V c t.val))
      isplitr
      · ipureintro; intro _; exact (acc_succ V c t).symm
      isplitl [S0]; · iexact S0
      isplitl [S1]; · iexact S1
      isplitl [S2]; · iexact S2
      iexact S3
    · iexact HR
  isplitl [Ho]; · iexact Ho
  isplitl [H0]; · iexact H0
  isplitl [H1]; · iexact H1
  isplitl [H2]; · iexact H2
  isplitl [H3]; · iexact H3
  isplitl [H4]; · iexact H4
  iexact H5

/-- The last point: the accumulators go one step on, and each output window, live here, takes its mean of the
    stepped accumulators: what the proof data says the body leaves there. -/
theorem sound_body0_last (c : Dev nD) (t : Fin cfg0.N) (hl : t.val = 122) :
    bodyPre0 V c t ⊢ wp frame (wpE (defs₀ (F := F)) Variants.none c none) Set.univ (bodyAt0 t) (fun _ => bodyPost0 V c t) := by
  have h0 : t.val ≠ 0 := by omega
  unfold bodyPre0 bodyPost0 bodyAt0
  simp only [before0_0, before0_1, before0_2, before0_3]
  rw [Φ0_castSucc, Φ0_succ, show (dat0 V c).owesAt () t.succ = (dat0 V c).owesAt () t.castSucc from rfl,
    after0_0, after0_1, after0_2, after0_3,
    leavesExact_live (dat0 V c) 4 t (idle0_4_of_eq t hl), leavesExact_live (dat0 V c) 5 t (idle0_5_of_eq t hl),
    after0_4, after0_5, acc_succ V c t]
  unfold scratchAt
  iintro ⟨⟨⟨%s, %hs, S0, S1, S2, S3⟩, HR⟩, Ho, ⟨%d0, H0⟩, ⟨%d1, H1⟩, ⟨%d2, H2⟩, ⟨%d3, H3⟩, ⟨%d4, H4⟩, ⟨%d5, H5⟩⟩
  obtain rfl : s = acc V c t.val := hs h0
  iapply (sound_kernel0_last c Set.univ (grid0.coords t) (fun e => h0 ((cond1_iff t).mp e)) ((cond2_iff t).mpr hl)
    _ _ _ _ _ _ _ _ _ _ _ _ _ _ _ _ _ _ _ _ (xhB V c t) (bhB V c t) (xgB V c t) (bgB V c t) (acc V c t.val) _)
  isplitl [H0]; · iexact H0
  isplitl [H1]; · iexact H1
  isplitl [H2]; · iexact H2
  isplitl [H3]; · iexact H3
  isplitl [H4]; · iexists _; iexact H4
  isplitl [H5]; · iexists _; iexact H5
  isplitl [S0]; · iexact S0
  isplitl [S1]; · iexact S1
  isplitl [S2]; · iexact S2
  isplitl [S3]; · iexact S3
  iintro ⟨H0, H1, H2, H3, H4, H5, S0, S1, S2, S3⟩
  isplitl [S0 S1 S2 S3 HR]
  · isplitl [S0 S1 S2 S3]
    · iexists (scStep (xhB V c t) (bhB V c t) (xgB V c t) (bgB V c t) (acc V c t.val))
      isplitr
      · ipureintro; intro _; exact (acc_succ V c t).symm
      isplitl [S0]; · iexact S0
      isplitl [S1]; · iexact S1
      isplitl [S2]; · iexact S2
      iexact S3
    · iexact HR
  isplitl [Ho]; · iexact Ho
  isplitl [H0]; · iexact H0
  isplitl [H1]; · iexact H1
  isplitl [H2]; · iexact H2
  isplitl [H3]; · iexact H3
  isplitl [H4]; · iexact H4
  iexact H5

/-- The body at any point, by its place in the grid. -/
theorem sound_body0 (c : Dev nD) (t : Fin cfg0.N) :
    bodyPre0 V c t ⊢ wp frame (wpE (defs₀ (F := F)) Variants.none c none) Set.univ (bodyAt0 t) (fun _ => bodyPost0 V c t) := by
  by_cases h0 : t.val = 0
  · exact sound_body0_first V c t h0
  by_cases hl : t.val = 122
  · exact sound_body0_last V c t hl
  exact sound_body0_mid V c t h0 hl

/-- The body obligation at every point. -/
theorem body_obligation0 (c : Dev nD) : BodyObligation (dat0 (F := F) V c) (defs₀ (F := F)) Variants.none () Set.univ := fun t => by
  rw [Gen.bigSep_W0, Gen.bigSep_W0]
  exact sound_body0 V c t

/-- After the region each input array is as entered, -/
theorem arrAt0_in (c : Dev nD) (w : Fin cfg0.W) (hw : w.val < 4) : (dat0 V c).arrAt w cfg0.N = V c (Pipeline.arrRef spec0 w) := by
  have hin : (cfg0.win w).isOut = false := by
    match w, hw with
    | ⟨0, _⟩, _ => rfl
    | ⟨1, _⟩, _ => rfl
    | ⟨2, _⟩, _ => rfl
    | ⟨3, _⟩, _ => rfl
    | ⟨n + 4, _⟩, h => exact absurd h (by simp)
  exact ((dat0 V c).arrAt_in w hin _).trans (A_eq0 V c w)

/-- and each output array holds its mean: the last point's block, which is the whole array. -/
theorem arrAt0_4 (c : Dev nD) :
    ((dat0 V c).arrAt 4 cfg0.N : S64x128.Idx → Elt F .f32) = k0_pay3 (acc V c 123).1 (acc V c 123).2.1 := by
  refine (arrAt_last_flush_only (dat0 V c) 4 tLast0 Gen.N_0.symm ((Gen.flush0_4 tLast0).mpr rfl) (noflush0_4)).trans ?_
  show ((cfg0.win 4).blk tLast0).view.write (Elt F) _ ((cfg0.win 4).cut (grid0.coords tLast0) ((dat0 V c).after 4 tLast0)) Finset.univ = _
  rw [after0_4]
  have hz : (fun a => win0_4.index tLast0 a * main_v4_0.ty.shape.size a) = fun _ => 0 := funext fun a => by fin_cases a <;> decide +kernel
  exact Memref.write_access_unit_zero_univ (Elt F) main_v4_0 hz (fun a => by rw [congrFun hz a]; simp) _ _
theorem arrAt0_5 (c : Dev nD) :
    ((dat0 V c).arrAt 5 cfg0.N : S64x128.Idx → Elt F .f32) = k0_pay4 (acc V c 123).2.2.1 (acc V c 123).2.2.2 := by
  refine (arrAt_last_flush_only (dat0 V c) 5 tLast0 Gen.N_0.symm ((Gen.flush0_5 tLast0).mpr rfl) (noflush0_5)).trans ?_
  show ((cfg0.win 5).blk tLast0).view.write (Elt F) _ ((cfg0.win 5).cut (grid0.coords tLast0) ((dat0 V c).after 5 tLast0)) Finset.univ = _
  rw [after0_5]
  have hz : (fun a => win0_5.index tLast0 a * main_v4_1.ty.shape.size a) = fun _ => 0 := funext fun a => by fin_cases a <;> decide +kernel
  exact Memref.write_access_unit_zero_univ (Elt F) main_v4_1 hz (fun a => by rw [congrFun hz a]; simp) _ _

end Cert.Kernel.Hand

end
-- ==== Proof.KR1.lean ====
/-
  The two-layer network's region: one grid point, every window one block that is its whole array. The five input
  windows hold their arrays; the output window takes the network's value of them and is written back.
-/
import proofs.«406569_j31748398252730_1_alg».proof.Proof.Gen.Kernel.Skeleton
import proofs.«406569_j31748398252730_1_alg».proof.Proof.Gen.Kernel.Launch
import proofs.«406569_j31748398252730_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The region's proof data on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay1 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

/-- The zero offsets of a rank-one and of a rank-two rectangle, as constant functions. -/
theorem off1_zero : (![0] : Fin 1 → Nat) = fun _ => 0 := funext fun a => by fin_cases a; rfl
theorem off2_zero : (![0, 0] : Fin 2 → Nat) = fun _ => 0 := funext fun a => by fin_cases a <;> rfl

/-! ## What the body leaves, window by window -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = k1_pay1 (iblk1 V c 0 t) (iblk1 V c 1 t) (iblk1 V c 2 t) (iblk1 V c 3 t) (iblk1 V c 4 t) := by
  dsimp only [dat1]

/-! ## The input windows' buffers when the body runs

Each input window is uncut and never idle, and the body leaves its block in place; so its current buffer holds
its block of the entry array at the point, fetched there or not. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## The body's triple -/

set_option maxHeartbeats 1000000 in
/-- The network's body on whole staging memrefs: the five inputs at read contents, the output at anything. It reads
    each input whole, stores the network's value of them over the whole output, and leaves the inputs as they were. -/
theorem sound_kernel1 (c : Dev nD) (E : Set ℕ) (i : grid1.Coords)
    (arg1 : Memref sig .tc .vmem S64x384 .f32) (harg1 : arg1.IsWhole) (arg2 : Memref sig .tc .vmem S384x128 .f32) (harg2 : arg2.IsWhole)
    (arg3 : Memref sig .tc .vmem S128 .f32) (harg3 : arg3.IsWhole) (arg4 : Memref sig .tc .vmem S128x128 .f32) (harg4 : arg4.IsWhole)
    (arg5 : Memref sig .tc .vmem S128 .f32) (harg5 : arg5.IsWhole) (arg6 : Memref sig .tc .vmem S64x128 .f32) (harg6 : arg6.IsWhole)
    (x0 : Vec F S64x384 .f32) (x1 : Vec F S384x128 .f32) (x2 : Vec F S128 .f32) (x3 : Vec F S128x128 .f32) (x4 : Vec F S128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k1_pay1 x0 x1 x2 x3 x4)) -∗ K ⟨⟩))
      ⊢ wp frame (wpE (defs₀ (F := F)) Variants.none c none) E (cc1__mlp_kernel i arg1 harg1 arg2 harg2 arg3 harg3 arg4 harg4 arg5 harg5 arg6 harg6) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (fun y => ⟨_, List.mem_singleton_self _, View.mem_set_unit_zero off2_zero inb_S64x128_S64x128_0_0 y⟩)).trans ?_
  rw [View.canon_unit_zero off2_zero]
  simp only [View.readAt_eq_ld, View.ld_unit_zero (S := S64x384) off2_zero, View.ld_unit_zero (S := S384x128) off2_zero,
    View.ld_unit_zero (S := S128x128) off2_zero, View.ld_unit_zero (S := S128) off1_zero]

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at the one point. -/
theorem body_obligation1 (c : Dev nD) : BodyObligation (dat1 (F := F) V c) (defs₀ (F := F)) Variants.none () Set.univ := fun t => by
  rw [bigSep_W1, bigSep_W1]
  exact sound_body1 V c t

/-- After the region each input array is as entered, -/
theorem arrAt1_in (c : Dev nD) (w : Fin cfg1.W) (hw : w.val < 5) : (dat1 V c).arrAt w cfg1.N = V c (Pipeline.arrRef spec1 w) := by
  have hin : (cfg1.win w).isOut = false := by
    match w, hw with
    | ⟨0, _⟩, _ => rfl
    | ⟨1, _⟩, _ => rfl
    | ⟨2, _⟩, _ => rfl
    | ⟨3, _⟩, _ => rfl
    | ⟨4, _⟩, _ => rfl
  exact ((dat1 V c).arrAt_in w hin _).trans (A_eq1 V c w)

/-! ## Every block is its whole array

The grid has one point and every index map is constantly zero, so a block's coordinate in its array, block index
times block size plus the coordinate inside the block, is the coordinate itself. -/

theorem emb1_0 (t : Fin cfg1.N) (j : S64x384.Idx) : (((cfg1.win 0).blk t).view.emb j : S64x384.Idx) = j := by
  funext a; apply Fin.ext
  match a with
  | ⟨0, _⟩ => show win1_0.index t (0 : Fin 2) * 64 + 1 * (j 0).val = (j 0).val; rw [show win1_0.index t (0 : Fin 2) = 0 from rfl]; omega
  | ⟨1, _⟩ => show win1_0.index t (1 : Fin 2) * 384 + 1 * (j 1).val = (j 1).val; rw [show win1_0.index t (1 : Fin 2) = 0 from rfl]; omega
theorem emb1_1 (t : Fin cfg1.N) (j : S384x128.Idx) : (((cfg1.win 1).blk t).view.emb j : S384x128.Idx) = j := by
  funext a; apply Fin.ext
  match a with
  | ⟨0, _⟩ => show win1_1.index t (0 : Fin 2) * 384 + 1 * (j 0).val = (j 0).val; rw [show win1_1.index t (0 : Fin 2) = 0 from rfl]; omega
  | ⟨1, _⟩ => show win1_1.index t (1 : Fin 2) * 128 + 1 * (j 1).val = (j 1).val; rw [show win1_1.index t (1 : Fin 2) = 0 from rfl]; omega
theorem emb1_2 (t : Fin cfg1.N) (j : S128.Idx) : (((cfg1.win 2).blk t).view.emb j : S128.Idx) = j := by
  funext a; apply Fin.ext
  match a with
  | ⟨0, _⟩ => show win1_2.index t (0 : Fin 1) * 128 + 1 * (j 0).val = (j 0).val; rw [show win1_2.index t (0 : Fin 1) = 0 from rfl]; omega
theorem emb1_3 (t : Fin cfg1.N) (j : S128x128.Idx) : (((cfg1.win 3).blk t).view.emb j : S128x128.Idx) = j := by
  funext a; apply Fin.ext
  match a with
  | ⟨0, _⟩ => show win1_3.index t (0 : Fin 2) * 128 + 1 * (j 0).val = (j 0).val; rw [show win1_3.index t (0 : Fin 2) = 0 from rfl]; omega
  | ⟨1, _⟩ => show win1_3.index t (1 : Fin 2) * 128 + 1 * (j 1).val = (j 1).val; rw [show win1_3.index t (1 : Fin 2) = 0 from rfl]; omega
theorem emb1_4 (t : Fin cfg1.N) (j : S128.Idx) : (((cfg1.win 4).blk t).view.emb j : S128.Idx) = j := by
  funext a; apply Fin.ext
  match a with
  | ⟨0, _⟩ => show win1_4.index t (0 : Fin 1) * 128 + 1 * (j 0).val = (j 0).val; rw [show win1_4.index t (0 : Fin 1) = 0 from rfl]; omega
theorem emb1_5 (t : Fin cfg1.N) (j : S64x128.Idx) : (((cfg1.win 5).blk t).view.emb j : S64x128.Idx) = j := by
  funext a; apply Fin.ext
  match a with
  | ⟨0, _⟩ => show win1_5.index t (0 : Fin 2) * 64 + 1 * (j 0).val = (j 0).val; rw [show win1_5.index t (0 : Fin 2) = 0 from rfl]; omega
  | ⟨1, _⟩ => show win1_5.index t (1 : Fin 2) * 128 + 1 * (j 1).val = (j 1).val; rw [show win1_5.index t (1 : Fin 2) = 0 from rfl]; omega

/-- So an input window's block reads its array. -/
theorem iblk1_0_eq (c : Dev nD) (t : Fin cfg1.N) : (iblk1 V c 0 t : S64x384.Idx → Elt F .f32) = (V c main_v5 : S64x384.Idx → Elt F .f32) := by
  funext j
  show V c main_v5 (((cfg1.win 0).blk t).view.emb j) = V c main_v5 j
  exact congrArg _ (emb1_0 t j)
theorem iblk1_1_eq (c : Dev nD) (t : Fin cfg1.N) : (iblk1 V c 1 t : S384x128.Idx → Elt F .f32) = (V c main_arg7 : S384x128.Idx → Elt F .f32) := by
  funext j
  show V c main_arg7 (((cfg1.win 1).blk t).view.emb j) = V c main_arg7 j
  exact congrArg _ (emb1_1 t j)
theorem iblk1_2_eq (c : Dev nD) (t : Fin cfg1.N) : (iblk1 V c 2 t : S128.Idx → Elt F .f32) = (V c main_arg8 : S128.Idx → Elt F .f32) := by
  funext j
  show V c main_arg8 (((cfg1.win 2).blk t).view.emb j) = V c main_arg8 j
  exact congrArg _ (emb1_2 t j)
theorem iblk1_3_eq (c : Dev nD) (t : Fin cfg1.N) : (iblk1 V c 3 t : S128x128.Idx → Elt F .f32) = (V c main_arg9 : S128x128.Idx → Elt F .f32) := by
  funext j
  show V c main_arg9 (((cfg1.win 3).blk t).view.emb j) = V c main_arg9 j
  exact congrArg _ (emb1_3 t j)
theorem iblk1_4_eq (c : Dev nD) (t : Fin cfg1.N) : (iblk1 V c 4 t : S128.Idx → Elt F .f32) = (V c main_arg10 : S128.Idx → Elt F .f32) := by
  funext j
  show V c main_arg10 (((cfg1.win 4).blk t).view.emb j) = V c main_arg10 j
  exact congrArg _ (emb1_4 t j)

/-- and the output array holds the network's value of the five input arrays. -/
theorem arrAt1_5 (c : Dev nD) :
    ((dat1 V c).arrAt 5 cfg1.N : S64x128.Idx → Elt F .f32)
      = k1_pay1 (V c main_v5 : S64x384.Idx → Elt F .f32) (V c main_arg7 : S384x128.Idx → Elt F .f32) (V c main_arg8 : S128.Idx → Elt F .f32)
          (V c main_arg9 : S128x128.Idx → Elt F .f32) (V c main_arg10 : S128.Idx → Elt F .f32) := by
  refine (dat1 V c).arrAt_eq_of_cover 5
    (k1_pay1 (V c main_v5 : S64x384.Idx → Elt F .f32) (V c main_arg7 : S384x128.Idx → Elt F .f32) (V c main_arg8 : S128.Idx → Elt F .f32)
      (V c main_arg9 : S128x128.Idx → Elt F .f32) (V c main_arg10 : S128.Idx → Elt F .f32))
    (fun t _ => ?_) (fun i => ⟨t1_0, flush1_5 _, ?_⟩)
  · show (cfg1.win 5).cut (grid1.coords t) ((dat1 V c).after 5 t) = _
    rw [after1_5, iblk1_0_eq, iblk1_1_eq, iblk1_2_eq, iblk1_3_eq, iblk1_4_eq]
    funext j
    show k1_pay1 (V c main_v5 : S64x384.Idx → Elt F .f32) (V c main_arg7 : S384x128.Idx → Elt F .f32) (V c main_arg8 : S128.Idx → Elt F .f32)
        (V c main_arg9 : S128x128.Idx → Elt F .f32) (V c main_arg10 : S128.Idx → Elt F .f32) j
      = k1_pay1 (V c main_v5 : S64x384.Idx → Elt F .f32) (V c main_arg7 : S384x128.Idx → Elt F .f32) (V c main_arg8 : S128.Idx → Elt F .f32)
        (V c main_arg9 : S128x128.Idx → Elt F .f32) (V c main_arg10 : S128.Idx → Elt F .f32) (((cfg1.win 5).blk t).view.emb j)
    exact (congrArg _ (emb1_5 t j)).symm
  · have h := ((cfg1.win 5).blk t1_0).view.emb_mem_set i
    rwa [emb1_5] at h

end Cert.Kernel.Hand

end
-- ==== Proof.KRun.lean ====
/-
  The kernel program's run from launch to return. @main is eight stretches of host operations (the constants and
  the four paddings), the scatter-mean region, one host operation (the three pieces side by side), and the
  network's region. Between segments a core holds every unscoped buffer at named contents: the launch memory
  folded through the host stretches, each region's arrays replaced by what its write-backs leave. Every weakly
  fair execution terminates; the result buffer ends at the network's value of the pieces, and no segment
  writes an argument array.
-/
import proofs.«406569_j31748398252730_1_alg».proof.Proof.KR0Dat
import proofs.«406569_j31748398252730_1_alg».proof.Proof.KR1
import proofs.«406569_j31748398252730_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-! ## The buffers' contents at each segment boundary -/

/-- Before the scatter-mean region: the launch memory folded through the eight host stretches. -/
abbrev W8 : Dev nD → Valuation τ sig (Elt F) := fun c => Gen.V8 m c
abbrev V8r : (c : Dev nD) → (b : Ref sig .tc) → Buf (Elt F) ((c : Thread nD τ).loc b) := fun c b => W8 m c b

/-- After it: its arrays at what its write-backs leave, every other buffer as entered. -/
def W9 (c : Dev nD) : Valuation τ sig (Elt F) :=
  Pipeline.withArrays spec0 c (W8 m c) fun w => (dat0 (V8r m) c).arrAt w cfg0.N
theorem W9_arr (c : Dev nD) (w : Fin cfg0.W) :
    W9 m c (Proc.devRef .tc (Pipeline.arrRef spec0 w)) = (dat0 (V8r m) c).arrAt w cfg0.N := by
  unfold W9; exact Pipeline.withArrays_arr spec0 launch0.win.arr_inj c _ _ w
theorem W9_of_ne (c : Dev nD) (b : Ref sig .tc) (hb : ∀ w, Pipeline.arrRef spec0 w ≠ b) :
    W9 m c (Proc.devRef .tc b) = W8 m c (Proc.devRef .tc b) := by
  unfold W9; exact Pipeline.withArrays_of_ne spec0 c _ _ b hb
abbrev V9r : (c : Dev nD) → (b : Ref sig .tc) → Buf (Elt F) ((c : Thread nD τ).loc b) := fun c b => W9 m c b
theorem hF0 (c : Dev nD) (w : Fin cfg0.W) : (dat0 (V8r m) c).arrAt w cfg0.N = V9r m c (Pipeline.arrRef spec0 w) :=
  (W9_arr m c w).symm
theorem hrest0 (c : Dev nD) : ∀ b, b ∉ Finset.univ.image (Pipeline.arrRef spec0) → V9r m c b = V8r m c b :=
  fun b hb => W9_of_ne m c b fun w e => hb (Finset.mem_image.mpr ⟨w, Finset.mem_univ _, e⟩)

/-- After the one host operation between the regions. -/
abbrev W10 : Dev nD → Valuation τ sig (Elt F) := fun c => StableHlo.after hostOps1 (W9 m c)
abbrev V10r : (c : Dev nD) → (b : Ref sig .tc) → Buf (Elt F) ((c : Thread nD τ).loc b) := fun c b => W10 m c b

/-- After the network's region. -/
def W11 (c : Dev nD) : Valuation τ sig (Elt F) :=
  Pipeline.withArrays spec1 c (W10 m c) fun w => (dat1 (V10r m) c).arrAt w cfg1.N
theorem W11_arr (c : Dev nD) (w : Fin cfg1.W) :
    W11 m c (Proc.devRef .tc (Pipeline.arrRef spec1 w)) = (dat1 (V10r m) c).arrAt w cfg1.N := by
  unfold W11; exact Pipeline.withArrays_arr spec1 launch1.win.arr_inj c _ _ w
theorem W11_of_ne (c : Dev nD) (b : Ref sig .tc) (hb : ∀ w, Pipeline.arrRef spec1 w ≠ b) :
    W11 m c (Proc.devRef .tc b) = W10 m c (Proc.devRef .tc b) := by
  unfold W11; exact Pipeline.withArrays_of_ne spec1 c _ _ b hb
abbrev V11r : (c : Dev nD) → (b : Ref sig .tc) → Buf (Elt F) ((c : Thread nD τ).loc b) := fun c b => W11 m c b
theorem hF1 (c : Dev nD) (w : Fin cfg1.W) : (dat1 (V10r m) c).arrAt w cfg1.N = V11r m c (Pipeline.arrRef spec1 w) :=
  (W11_arr m c w).symm
theorem hrest1 (c : Dev nD) : ∀ b, b ∉ Finset.univ.image (Pipeline.arrRef spec1) → V11r m c b = V10r m c b :=
  fun b hb => W11_of_ne m c b fun w e => hb (Finset.mem_image.mpr ⟨w, Finset.mem_univ _, e⟩)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (V8r m) c
  | ⟨1, _⟩ => fun c => dat1 (V10r m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R (F := F) c

/-- The host operation between the regions as a segment. -/
def seg9 : HostSeg (Ix := Unit) (Name := ℕ) (U := UR sig nD τ) (Lvl := ℕ) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp Gen.hostOps1_fresh) op h) (W9 m) (E 1)

/-- The last thread state without the owes. -/
abbrev Tₙ (c : Dev nD) : sProp 𝕄 := iprop(StableHlo.held (c : Thread nD τ) (Pipeline.ucRefs τ sig) (W11 m c) ∗ ∃ r, prngReg c r)

/-! ## The regions as segments -/

set_option backward.isDefEq.respectTransparency.types false in
/-- The scatter-mean region: entered from every unscoped buffer at W8, left at W9. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V8r m) c).loose
  hwaits := Pipeline.hwaits_of_owed_zero _ _ _ _ L lv 0 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec0 c (V8r m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (V8r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V8r m) c).Φ 0 from rfl]
    iintro ⟨Hp, -, Hr⟩
    iapply (hin0 (V8r m) c)
    isplitl [Hp]; · iexact Hp
    iexact Hr
  hout c := by
    rw [Pipeline.ownSems0_none, show (pdats m 0 c).Φ (Fin.last _) = (dat0 (V8r m) c).Φ (Fin.last cfg0.N) from rfl]
    refine (hout0 (V8r m) c).trans ?_
    iintro ⟨Hp, Hr⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (V8r m c) (V9r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The network's region: entered from every unscoped buffer at W10, left at W11. -/
def reg1 : RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V10r m) c).loose
  hwaits := Pipeline.hwaits_of_owed_zero _ _ _ _ L lv 1 fun _ _ => rfl
  pre c := iprop(StableHlo.held (c : Thread nD τ) (Pipeline.ucRefs τ sig) (W10 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V10r m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (V10r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (V10r m c) (V11r m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eleven segments in order. -/
abbrev segs (c : Dev nD) : List (Seg (pcfgs (F := F)) Gen.adm (pdats m) () defs₀ 𝒱₀ L lv) :=
  [.host (Gen.seg0 m 𝒱₀ L lv E), .host (Gen.seg1 m 𝒱₀ L lv E), .host (Gen.seg2 m 𝒱₀ L lv E), .host (Gen.seg3 m 𝒱₀ L lv E),
   .host (Gen.seg4 m 𝒱₀ L lv E), .host (Gen.seg5 m 𝒱₀ L lv E), .host (Gen.seg6 m 𝒱₀ L lv E), .host (Gen.seg7 m 𝒱₀ L lv E),
   .region (reg0 m), .host (seg9 m), .region (reg1 m)]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of @main from memory m with zero counters terminates, and in every final state each
    core's unscoped buffers hold the last boundary's contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W11 m c b) := by
  refine Pipeline.θ_run_regions_kit_dev (pcfgs (F := F)) Gen.adm (pdats m) () cellOf_inj emb₁ defs₀ 𝒱₀ L lv m ρ main
    (segs m)
    (fun c Q => by
      rewrite [main_chain c, Seg.run_eq_chain,
        show (segs m c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := Tₙ m)
    (hch := fun c => ⟨.rfl, .rfl, .rfl, .rfl, .rfl, .rfl, .rfl, .rfl, .rfl, .rfl, .rfl, .rfl⟩)
    (hinit := ?_)
    (QY := fun c s => ∀ b ∈ Pipeline.ucRefs τ sig, s.mem (((c : Thread nD τ)).1, b) = W11 m c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · iintro ⟨⟨Hh, -⟩, HSI⟩
    unfold StableHlo.held
    imodintro
    iapply (pointsTo_read_all (Pipeline.ucRefs τ sig) (fun b => (((c : Thread nD τ)).1, b)) (W11 m c) s')
    isplitl [Hh] <;> iassumption

end Cert.Kernel.Hand

end
-- ==== Proof.KRunVal.lean ====
/-
  What the boundary contents hold where the claims read them. The padded node rows and ids the scatter-mean region
  enters with are the paddings of the argument arrays; the network's region enters with the three pieces side by
  side (the first an argument, the other two the scatter-mean region's results) and four argument arrays; its
  result is the network's value of them; and every argument array reaches the end as launched. The run, stated
  with the result buffer and the eleven argument arrays in its post.
-/
import proofs.«406569_j31748398252730_1_alg».proof.Proof.KRun

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)
open Cert.Kernel.Facts₀

variable (m : (ℓ : Loc nD τ sig) → Buf (Elt F) ℓ)

/-! ## The scatter-mean region's entry arrays -/

theorem W8_v0 (c : Dev nD) : (V8r m c main_v0 : S503808x128.Idx → Elt F .f32)
    = pad S503808x128 ![0, 0] ![3808, 0] ![0, 0] (m ((c.tc : Thread nD τ).loc main_arg0)) (sitofp .f32 (constantI S_ 32 0#32)) Facts₀.pads_S500000x128_S503808x128_038080_000 Facts₀.h_S_ :=
  ((Gen.V8_of m c main_v0 (by decide)).trans <| (Gen.V7_of m c main_v0 (by decide)).trans <| (Gen.V6_of m c main_v0 (by decide)).trans <| (Gen.V5_of m c main_v0 (by decide)).trans <| (Gen.V4_of m c main_v0 (by decide)).trans <| (Gen.V3_of m c main_v0 (by decide))).trans (by
    show StableHlo.after hostOps0_1 (Gen.V1 m c) (Proc.devRef .tc main_v0) = _
    after_results
    rfl)

theorem W8_v1 (c : Dev nD) : (V8r m c main_v1 : S503808x128.Idx → Elt F .f32)
    = pad S503808x128 ![0, 0] ![3808, 0] ![0, 0] (m ((c.tc : Thread nD τ).loc main_arg1)) (sitofp .f32 (constantI S_ 32 0#32)) Facts₀.pads_S500000x128_S503808x128_038080_000 Facts₀.h_S_ :=
  ((Gen.V8_of m c main_v1 (by decide)).trans <| (Gen.V7_of m c main_v1 (by decide)).trans <| (Gen.V6_of m c main_v1 (by decide)).trans <| (Gen.V5_of m c main_v1 (by decide))).trans (by
    show StableHlo.after hostOps0_3 (Gen.V3 m c) (Proc.devRef .tc main_v1) = _
    after_results
    rfl)

theorem W8_v2 (c : Dev nD) : (V8r m c main_v2 : S503808.Idx → BitVec 32)
    = pad S503808 ![0] ![3808] ![0] (m ((c.tc : Thread nD τ).loc main_arg5)) (id (constantI S_ 32 4294967295#32)) Facts₀.pads_S500000_S503808_038080 Facts₀.h_S_ :=
  ((Gen.V8_of m c main_v2 (by decide)).trans <| (Gen.V7_of m c main_v2 (by decide))).trans (by
    show StableHlo.after hostOps0_5 (Gen.V5 m c) (Proc.devRef .tc main_v2) = _
    after_results
    rfl)

theorem W8_v3 (c : Dev nD) : (V8r m c main_v3 : S503808.Idx → BitVec 32)
    = pad S503808 ![0] ![3808] ![0] (m ((c.tc : Thread nD τ).loc main_arg6)) (id (constantI S_ 32 4294967295#32)) Facts₀.pads_S500000_S503808_038080 Facts₀.h_S_ := by
  show StableHlo.after hostOps0_7 (Gen.V7 m c) (Proc.devRef .tc main_v3) = _
  after_results
  rfl

/-- No host stretch before the scatter-mean region writes an argument array. -/
theorem W8_arg (c : Dev nD) (b : Ref sig .tc)
    (h0 : b ∉ Gen.hostOps0_W) (h1 : b ∉ Gen.hostOps0_1_W) (h2 : b ∉ Gen.hostOps0_2_W) (h3 : b ∉ Gen.hostOps0_3_W)
    (h4 : b ∉ Gen.hostOps0_4_W) (h5 : b ∉ Gen.hostOps0_5_W) (h6 : b ∉ Gen.hostOps0_6_W) (h7 : b ∉ Gen.hostOps0_7_W) :
    W8 m c (Proc.devRef .tc b) = m ((c.tc : Thread nD τ).loc b) :=
  (Gen.V8_of m c b h7).trans <| (Gen.V7_of m c b h6).trans <| (Gen.V6_of m c b h5).trans <| (Gen.V5_of m c b h4).trans <|
    (Gen.V4_of m c b h3).trans <| (Gen.V3_of m c b h2).trans <| (Gen.V2_of m c b h1).trans <| (Gen.V1_of m c b h0).trans rfl

/-- Nor does the host operation between the regions, and the scatter-mean region writes only its two results. -/
theorem W10_of (c : Dev nD) (b : Ref sig .tc) (hb : b ∉ Gen.hostOps1_W) (hw : ∀ w, Pipeline.arrRef spec0 w ≠ b) :
    W10 m c (Proc.devRef .tc b) = W8 m c (Proc.devRef .tc b) :=
  (StableHlo.after_of_writes_sub hostOps1 _ Gen.hostOps1_writes hb).trans (W9_of_ne m c b hw)

/-! ## The result -/

/-- The kernel program's result on core c, from the launch memory. -/
def kres (c : Dev nD) : S64x128.Idx → Elt F .f32 :=
  k1_pay1
    (concatenate S64x384 1 [⟨S64x128, m ((c.tc : Thread nD τ).loc main_arg4)⟩,
        ⟨S64x128, k0_pay3 (acc (V8r m) c 123).1 (acc (V8r m) c 123).2.1⟩,
        ⟨S64x128, k0_pay4 (acc (V8r m) c 123).2.2.1 (acc (V8r m) c 123).2.2.2⟩] Facts₀.concatenates_S64x128_S64x128_S64x128_S64x384_d1)
    (m ((c.tc : Thread nD τ).loc main_arg7)) (m ((c.tc : Thread nD τ).loc main_arg8)) (m ((c.tc : Thread nD τ).loc main_arg9)) (m ((c.tc : Thread nD τ).loc main_arg10))

theorem W11_v6 (c : Dev nD) : (W11 m c (Proc.devRef .tc main_v6) : S64x128.Idx → Elt F .f32) = kres m c := by
  have e4 : W9 m c (Proc.devRef .tc main_arg4) = m ((c.tc : Thread nD τ).loc main_arg4) :=
    (W9_of_ne m c main_arg4 (by decide)).trans (W8_arg m c main_arg4 (by decide) (by decide) (by decide) (by decide) (by decide) (by decide) (by decide) (by decide))
  have e40 : (W9 m c (Proc.devRef .tc main_v4_0) : S64x128.Idx → Elt F .f32) = k0_pay3 (acc (V8r m) c 123).1 (acc (V8r m) c 123).2.1 :=
    (W9_arr m c 4).trans (arrAt0_4 (V8r m) c)
  have e41 : (W9 m c (Proc.devRef .tc main_v4_1) : S64x128.Idx → Elt F .f32) = k0_pay4 (acc (V8r m) c 123).2.2.1 (acc (V8r m) c 123).2.2.2 :=
    (W9_arr m c 5).trans (arrAt0_5 (V8r m) c)
  have e5 : (W10 m c (Proc.devRef .tc main_v5) : S64x384.Idx → Elt F .f32)
      = concatenate S64x384 1 [⟨S64x128, m ((c.tc : Thread nD τ).loc main_arg4)⟩,
          ⟨S64x128, k0_pay3 (acc (V8r m) c 123).1 (acc (V8r m) c 123).2.1⟩,
          ⟨S64x128, k0_pay4 (acc (V8r m) c 123).2.2.1 (acc (V8r m) c 123).2.2.2⟩] Facts₀.concatenates_S64x128_S64x128_S64x128_S64x384_d1 := by
    show StableHlo.after hostOps1 (W9 m c) (Proc.devRef .tc main_v5) = _
    after_results
    show concatenate S64x384 1 [⟨S64x128, W9 m c (Proc.devRef .tc main_arg4)⟩, ⟨S64x128, W9 m c (Proc.devRef .tc main_v4_0)⟩,
        ⟨S64x128, W9 m c (Proc.devRef .tc main_v4_1)⟩] _ = _
    rw [e4, e40, e41]
  have e7 : W10 m c (Proc.devRef .tc main_arg7) = m ((c.tc : Thread nD τ).loc main_arg7) := (W10_of m c main_arg7 (by decide) (by decide)).trans (W8_arg m c main_arg7 (by decide) (by decide) (by decide) (by decide) (by decide) (by decide) (by decide) (by decide))
  have e8 : W10 m c (Proc.devRef .tc main_arg8) = m ((c.tc : Thread nD τ).loc main_arg8) := (W10_of m c main_arg8 (by decide) (by decide)).trans (W8_arg m c main_arg8 (by decide) (by decide) (by decide) (by decide) (by decide) (by decide) (by decide) (by decide))
  have e9 : W10 m c (Proc.devRef .tc main_arg9) = m ((c.tc : Thread nD τ).loc main_arg9) := (W10_of m c main_arg9 (by decide) (by decide)).trans (W8_arg m c main_arg9 (by decide) (by decide) (by decide) (by decide) (by decide) (by decide) (by decide) (by decide))
  have e10 : W10 m c (Proc.devRef .tc main_arg10) = m ((c.tc : Thread nD τ).loc main_arg10) := (W10_of m c main_arg10 (by decide) (by decide)).trans (W8_arg m c main_arg10 (by decide) (by decide) (by decide) (by decide) (by decide) (by decide) (by decide) (by decide))
  refine ((W11_arr m c 5).trans (arrAt1_5 (V10r m) c)).trans ?_
  unfold kres
  show k1_pay1 (W10 m c (Proc.devRef .tc main_v5)) (W10 m c (Proc.devRef .tc main_arg7)) (W10 m c (Proc.devRef .tc main_arg8))
      (W10 m c (Proc.devRef .tc main_arg9)) (W10 m c (Proc.devRef .tc main_arg10)) = _
  rw [e5, e7, e8, e9, e10]

/-! ## The arguments -/

theorem W11_arg (c : Dev nD) :
    W11 m c (Proc.devRef .tc main_arg0) = m ((c.tc : Thread nD τ).loc main_arg0) ∧
    W11 m c (Proc.devRef .tc main_arg1) = m ((c.tc : Thread nD τ).loc main_arg1) ∧
    W11 m c (Proc.devRef .tc main_arg2) = m ((c.tc : Thread nD τ).loc main_arg2) ∧
    W11 m c (Proc.devRef .tc main_arg3) = m ((c.tc : Thread nD τ).loc main_arg3) ∧
    W11 m c (Proc.devRef .tc main_arg4) = m ((c.tc : Thread nD τ).loc main_arg4) ∧
    W11 m c (Proc.devRef .tc main_arg5) = m ((c.tc : Thread nD τ).loc main_arg5) ∧
    W11 m c (Proc.devRef .tc main_arg6) = m ((c.tc : Thread nD τ).loc main_arg6) ∧
    W11 m c (Proc.devRef .tc main_arg7) = m ((c.tc : Thread nD τ).loc main_arg7) ∧
    W11 m c (Proc.devRef .tc main_arg8) = m ((c.tc : Thread nD τ).loc main_arg8) ∧
    W11 m c (Proc.devRef .tc main_arg9) = m ((c.tc : Thread nD τ).loc main_arg9) ∧
    W11 m c (Proc.devRef .tc main_arg10) = m ((c.tc : Thread nD τ).loc main_arg10) :=
  ⟨(W11_of_ne m c main_arg0 (by decide)).trans ((W10_of m c main_arg0 (by decide) (by decide)).trans (W8_arg m c main_arg0 (by decide) (by decide) (by decide) (by decide) (by decide) (by decide) (by decide) (by decide))),
   (W11_of_ne m c main_arg1 (by decide)).trans ((W10_of m c main_arg1 (by decide) (by decide)).trans (W8_arg m c main_arg1 (by decide) (by decide) (by decide) (by decide) (by decide) (by decide) (by decide) (by decide))),
   (W11_of_ne m c main_arg2 (by decide)).trans ((W10_of m c main_arg2 (by decide) (by decide)).trans (W8_arg m c main_arg2 (by decide) (by decide) (by decide) (by decide) (by decide) (by decide) (by decide) (by decide))),
   (W11_of_ne m c main_arg3 (by decide)).trans ((W10_of m c main_arg3 (by decide) (by decide)).trans (W8_arg m c main_arg3 (by decide) (by decide) (by decide) (by decide) (by decide) (by decide) (by decide) (by decide))),
   (W11_of_ne m c main_arg4 (by decide)).trans ((W10_of m c main_arg4 (by decide) (by decide)).trans (W8_arg m c main_arg4 (by decide) (by decide) (by decide) (by decide) (by decide) (by decide) (by decide) (by decide))),
   (W11_of_ne m c main_arg5 (by decide)).trans ((W10_of m c main_arg5 (by decide) (by decide)).trans (W8_arg m c main_arg5 (by decide) (by decide) (by decide) (by decide) (by decide) (by decide) (by decide) (by decide))),
   (W11_of_ne m c main_arg6 (by decide)).trans ((W10_of m c main_arg6 (by decide) (by decide)).trans (W8_arg m c main_arg6 (by decide) (by decide) (by decide) (by decide) (by decide) (by decide) (by decide) (by decide))),
   (W11_arr m c 1).trans ((arrAt1_in (V10r m) c 1 (by decide)).trans ((W10_of m c main_arg7 (by decide) (by decide)).trans (W8_arg m c main_arg7 (by decide) (by decide) (by decide) (by decide) (by decide) (by decide) (by decide) (by decide)))),
   (W11_arr m c 2).trans ((arrAt1_in (V10r m) c 2 (by decide)).trans ((W10_of m c main_arg8 (by decide) (by decide)).trans (W8_arg m c main_arg8 (by decide) (by decide) (by decide) (by decide) (by decide) (by decide) (by decide) (by decide)))),
   (W11_arr m c 3).trans ((arrAt1_in (V10r m) c 3 (by decide)).trans ((W10_of m c main_arg9 (by decide) (by decide)).trans (W8_arg m c main_arg9 (by decide) (by decide) (by decide) (by decide) (by decide) (by decide) (by decide) (by decide)))),
   (W11_arr m c 4).trans ((arrAt1_in (V10r m) c 4 (by decide)).trans ((W10_of m c main_arg10 (by decide) (by decide)).trans (W8_arg m c main_arg10 (by decide) (by decide) (by decide) (by decide) (by decide) (by decide) (by decide) (by decide))))⟩

/-! ## The run -/

theorem run_main (ρ : Dev nD → PrngReg) :
    θ_run defs (onTc (τ := τ) (main (F := F))) ⟨m, fun _ => 0, ρ⟩ (fun r => ∀ c : Dev nD,
      r.2.mem ((c.tc : Thread nD τ).loc main_v6) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine (θ_run defs _ _).mono (fun r h c => ?_) (run_all m ρ)
  have hv := h c _ (mem_uc main_v6 (by decide))
  obtain ⟨a0, a1, a2, a3, a4, a5, a6, a7, a8, a9, a10⟩ := W11_arg m c
  exact ⟨hv.trans (W11_v6 m c),
    (h c _ (mem_uc main_arg0 (by decide))).trans a0, (h c _ (mem_uc main_arg1 (by decide))).trans a1,
    (h c _ (mem_uc main_arg2 (by decide))).trans a2, (h c _ (mem_uc main_arg3 (by decide))).trans a3,
    (h c _ (mem_uc main_arg4 (by decide))).trans a4, (h c _ (mem_uc main_arg5 (by decide))).trans a5,
    (h c _ (mem_uc main_arg6 (by decide))).trans a6, (h c _ (mem_uc main_arg7 (by decide))).trans a7,
    (h c _ (mem_uc main_arg8 (by decide))).trans a8, (h c _ (mem_uc main_arg9 (by decide))).trans a9,
    (h c _ (mem_uc main_arg10 (by decide))).trans a10⟩

end Cert.Kernel.Hand

end
-- ==== Proof.R0Body.lean ====
/-
  The scatter-mean kernel's body at one grid point, as a separation-logic triple, in the three control cases the
  grid meets: the first point (the four accumulators are reset, then the point's block is added), a middle point
  (the block is added), the last point (the block is added, then the two means are stored).

  The four accumulators (segment sums and segment counts of the two node sets) are carried as one tuple; one
  point's step adds, to each, what the point's block of node rows and segment ids contributes.
-/
import proofs.«406569_j31748398252730_1_alg».proof.Proof.Gen.KernelIdeal.Skeleton
import proofs.«406569_j31748398252730_1_alg».proof.Proof.Gen.KernelIdeal.Launch
import proofs.«406569_j31748398252730_1_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The four accumulators: segment sums and counts of the first node set, then of the second. -/
abbrev Sc (F : FTy → Type) [FloatOps F] : Type :=
  Vec F S64x128 .f32 × Vec F S64x1 .f32 × Vec F S64x128 .f32 × Vec F S64x1 .f32

/-- The accumulators after the reset: all zero. -/
def sc0 : Sc F := (k0_pay5 (F := F), k0_pay6 (F := F), k0_pay7 (F := F), k0_pay8 (F := F))

/-- One point's step: each accumulator plus what the point's block of rows and ids contributes. -/
def scStep (xh : Vec F S4096x128 .f32) (bh : Vec F S4096 .i32) (xg : Vec F S4096x128 .f32) (bg : Vec F S4096 .i32)
    (s : Sc F) : Sc F :=
  (k0_pay11 bh xh s.1, k0_pay1 (k0_pay9 bh) s.2.1, k0_pay12 bg xg s.2.2.1, k0_pay2 (k0_pay10 bg) s.2.2.2)

/-- The first branch's condition (the point is the first), as the kernel computes it. -/
def cond1 (i : grid0.Coords) : BitVec 1 :=
  Scalar.cmpi .ne (Scalar.extui (Scalar.cmpi .eq (BitVec.ofNat 32 (i 0).val) 0#32)) 0#32

/-- The zero offsets of a whole-buffer access of rank one, and of rank two. -/
theorem hz1 : (![0] : Fin 1 → Nat) = fun _ => 0 := funext fun a => by fin_cases a <;> rfl
theorem hz2 : (![0, 0] : Fin 2 → Nat) = fun _ => 0 := funext fun a => by fin_cases a <;> rfl

section Whole

variable {sg : RefSig} {κ : Kind} {sp : Space} {S : Shape} {e : EltTy} {Val : EltTy → Type} [∀ e, Nonempty (Val e)]

/-- A store of the whole buffer, made last, is what the buffer reads afterwards, whatever was stored before it:
    the last piece covers every index, and under it the contents are its payload. -/
theorem read_writes_whole (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

/-- A load of the whole buffer reads its contents. -/
theorem readAt_whole (v : View sg κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f _).trans (View.ld_unit_zero h inb _)

end Whole

set_option maxHeartbeats 1000000 in
/-- A middle point: the inputs' blocks are read, the accumulators go one step on; the output buffers are not touched. -/
theorem sound_kernel0_mid (c : Dev nD) (E : Set ℕ) (i : grid0.Coords) (h1 : ¬ cond1 i = 1#1) (h2 : ¬ k0_cond2 i = 1#1)
    (arg1 : Memref sig .tc .vmem S4096x128 .f32) (harg1 : arg1.IsWhole) (arg2 : Memref sig .tc .vmem S4096 .i32) (harg2 : arg2.IsWhole)
    (arg3 : Memref sig .tc .vmem S4096x128 .f32) (harg3 : arg3.IsWhole) (arg4 : Memref sig .tc .vmem S4096 .i32) (harg4 : arg4.IsWhole)
    (arg5 : Memref sig .tc .vmem S64x128 .f32) (harg5 : arg5.IsWhole) (arg6 : Memref sig .tc .vmem S64x128 .f32) (harg6 : arg6.IsWhole)
    (arg7 : Memref sig .tc .vmem S64x128 .f32) (harg7 : arg7.IsWhole) (arg8 : Memref sig .tc .vmem S64x1 .f32) (harg8 : arg8.IsWhole)
    (arg9 : Memref sig .tc .vmem S64x128 .f32) (harg9 : arg9.IsWhole) (arg10 : Memref sig .tc .vmem S64x1 .f32) (harg10 : arg10.IsWhole)
    (xh : Vec F S4096x128 .f32) (bh : Vec F S4096 .i32) (xg : Vec F S4096x128 .f32) (bg : Vec F S4096 .i32) (s : Sc F)
    (K : PUnit → sProp 𝕄) :
    iprop(owns (c : Thread nD τ) arg1 fullShare xh ∗ owns (c : Thread nD τ) arg2 fullShare bh
        ∗ owns (c : Thread nD τ) arg3 fullShare xg ∗ owns (c : Thread nD τ) arg4 fullShare bg
        ∗ owns (c : Thread nD τ) arg7 fullShare s.1 ∗ owns (c : Thread nD τ) arg8 fullShare s.2.1
        ∗ owns (c : Thread nD τ) arg9 fullShare s.2.2.1 ∗ owns (c : Thread nD τ) arg10 fullShare s.2.2.2
        ∗ (iprop(owns (c : Thread nD τ) arg1 fullShare xh ∗ owns (c : Thread nD τ) arg2 fullShare bh
            ∗ owns (c : Thread nD τ) arg3 fullShare xg ∗ owns (c : Thread nD τ) arg4 fullShare bg
            ∗ owns (c : Thread nD τ) arg7 fullShare (scStep xh bh xg bg s).1 ∗ owns (c : Thread nD τ) arg8 fullShare (scStep xh bh xg bg s).2.1
            ∗ owns (c : Thread nD τ) arg9 fullShare (scStep xh bh xg bg s).2.2.1 ∗ owns (c : Thread nD τ) arg10 fullShare (scStep xh bh xg bg s).2.2.2) -∗ K ⟨⟩))
      ⊢ wp frame (wpE (defs₀ (F := F)) Variants.none c none) E
          (cc0__scatter_mean_kernel i arg1 harg1 arg2 harg2 arg3 harg3 arg4 harg4 arg5 harg5 arg6 harg6 arg7 harg7 arg8 harg8 arg9 harg9 arg10 harg10) K := by
  -- the four accumulators by name
  obtain ⟨s1, s2, s3, s4⟩ := s
  -- the body is its sequence of whole-buffer loads and stores over the named payloads
  simp only [cc0__scatter_mean_kernel_eq_skeleton]; unfold cc0__scatter_mean_kernel_skel
  simp only [k0_part1_eq_skeleton]; unfold k0_part1_skel
  -- each buffer is held at some contents that read as stated
  unfold owns
  iintro ⟨⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, ⟨%f10, %hf10, H10⟩, Hk⟩
  subst hf1 hf2 hf3 hf4 hf7 hf8 hf9 hf10
  -- the first condition as the kernel computes it; the two conditions decide the two branches
  unfold cond1 at h1
  sl_exec (disch := first | sl_exact h1 | sl_exact h2)
  sl_step
  iapply Hk
  -- the four inputs are as they were
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  -- each buffer stored into: its last store covers it, so it reads that store's payload; a load of a whole buffer read
  -- the buffer's contents, or, after a store in this run, that store's payload; what is left is the step by definition
  isplitl [H7]
  · iexists _; isplitr
    swap; · iexact H7
    ipureintro
    sl_unfold_run_names
    rw [read_writes_whole _ _ hz2]
    simp only [readAt_whole (S := S4096) _ _ hz1, readAt_whole (S := S4096x128) _ _ hz2, readAt_whole (S := S64x128) _ _ hz2, readAt_whole (S := S64x1) _ _ hz2, View.readCov_unit_zero (S := S64x128) _ hz2, View.readCov_unit_zero (S := S64x1) _ hz2]
    rfl
  isplitl [H8]
  · iexists _; isplitr
    swap; · iexact H8
    ipureintro
    sl_unfold_run_names
    rw [read_writes_whole _ _ hz2]
    simp only [readAt_whole (S := S4096) _ _ hz1, readAt_whole (S := S4096x128) _ _ hz2, readAt_whole (S := S64x128) _ _ hz2, readAt_whole (S := S64x1) _ _ hz2, View.readCov_unit_zero (S := S64x128) _ hz2, View.readCov_unit_zero (S := S64x1) _ hz2]
    rfl
  isplitl [H9]
  · iexists _; isplitr
    swap; · iexact H9
    ipureintro
    sl_unfold_run_names
    rw [read_writes_whole _ _ hz2]
    simp only [readAt_whole (S := S4096) _ _ hz1, readAt_whole (S := S4096x128) _ _ hz2, readAt_whole (S := S64x128) _ _ hz2, readAt_whole (S := S64x1) _ _ hz2, View.readCov_unit_zero (S := S64x128) _ hz2, View.readCov_unit_zero (S := S64x1) _ hz2]
    rfl
  iexists _; isplitr
  swap; · iexact H10
  ipureintro
  sl_unfold_run_names
  rw [read_writes_whole _ _ hz2]
  simp only [readAt_whole (S := S4096) _ _ hz1, readAt_whole (S := S4096x128) _ _ hz2, readAt_whole (S := S64x128) _ _ hz2, readAt_whole (S := S64x1) _ _ hz2, View.readCov_unit_zero (S := S64x128) _ hz2, View.readCov_unit_zero (S := S64x1) _ hz2]
  rfl

set_option maxHeartbeats 1000000 in
/-- The first point: whatever the accumulators held, they are reset and then go one step on from zero. -/
theorem sound_kernel0_first (c : Dev nD) (E : Set ℕ) (i : grid0.Coords) (h1 : cond1 i = 1#1) (h2 : ¬ k0_cond2 i = 1#1)
    (arg1 : Memref sig .tc .vmem S4096x128 .f32) (harg1 : arg1.IsWhole) (arg2 : Memref sig .tc .vmem S4096 .i32) (harg2 : arg2.IsWhole)
    (arg3 : Memref sig .tc .vmem S4096x128 .f32) (harg3 : arg3.IsWhole) (arg4 : Memref sig .tc .vmem S4096 .i32) (harg4 : arg4.IsWhole)
    (arg5 : Memref sig .tc .vmem S64x128 .f32) (harg5 : arg5.IsWhole) (arg6 : Memref sig .tc .vmem S64x128 .f32) (harg6 : arg6.IsWhole)
    (arg7 : Memref sig .tc .vmem S64x128 .f32) (harg7 : arg7.IsWhole) (arg8 : Memref sig .tc .vmem S64x1 .f32) (harg8 : arg8.IsWhole)
    (arg9 : Memref sig .tc .vmem S64x128 .f32) (harg9 : arg9.IsWhole) (arg10 : Memref sig .tc .vmem S64x1 .f32) (harg10 : arg10.IsWhole)
    (xh : Vec F S4096x128 .f32) (bh : Vec F S4096 .i32) (xg : Vec F S4096x128 .f32) (bg : Vec F S4096 .i32)
    (K : PUnit → sProp 𝕄) :
    iprop(owns (c : Thread nD τ) arg1 fullShare xh ∗ owns (c : Thread nD τ) arg2 fullShare bh
        ∗ owns (c : Thread nD τ) arg3 fullShare xg ∗ owns (c : Thread nD τ) arg4 fullShare bg
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare xh ∗ owns (c : Thread nD τ) arg2 fullShare bh
            ∗ owns (c : Thread nD τ) arg3 fullShare xg ∗ owns (c : Thread nD τ) arg4 fullShare bg
            ∗ owns (c : Thread nD τ) arg7 fullShare (scStep xh bh xg bg (sc0 (F := F))).1 ∗ owns (c : Thread nD τ) arg8 fullShare (scStep xh bh xg bg (sc0 (F := F))).2.1
            ∗ owns (c : Thread nD τ) arg9 fullShare (scStep xh bh xg bg (sc0 (F := F))).2.2.1 ∗ owns (c : Thread nD τ) arg10 fullShare (scStep xh bh xg bg (sc0 (F := F))).2.2.2) -∗ K ⟨⟩))
      ⊢ wp frame (wpE (defs₀ (F := F)) Variants.none c none) E
          (cc0__scatter_mean_kernel i arg1 harg1 arg2 harg2 arg3 harg3 arg4 harg4 arg5 harg5 arg6 harg6 arg7 harg7 arg8 harg8 arg9 harg9 arg10 harg10) K := by
  -- the body is its sequence of whole-buffer loads and stores over the named payloads
  simp only [cc0__scatter_mean_kernel_eq_skeleton]; unfold cc0__scatter_mean_kernel_skel
  simp only [k0_part1_eq_skeleton]; unfold k0_part1_skel
  -- each buffer is held at some contents that read as stated
  unfold owns
  iintro ⟨⟨%f1, %hf1, H1⟩, ⟨%f2, %hf2, H2⟩, ⟨%f3, %hf3, H3⟩, ⟨%f4, %hf4, H4⟩, ⟨%d7, %f7, -, H7⟩, ⟨%d8, %f8, -, H8⟩, ⟨%d9, %f9, -, H9⟩, ⟨%d10, %f10, -, H10⟩, Hk⟩
  subst hf1 hf2 hf3 hf4
  -- the first condition as the kernel computes it; the two conditions decide the two branches
  unfold cond1 at h1
  sl_exec (disch := first | sl_exact h1 | sl_exact h2)
  sl_step
  iapply Hk
  -- the four inputs are as they were
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  -- each buffer stored into: its last store covers it, so it reads that store's payload; a load of a whole buffer read
  -- the buffer's contents, or, after a store in this run, that store's payload; what is left is the step by definition
  isplitl [H7]
  · iexists _; isplitr
    swap; · iexact H7
    ipureintro
    sl_unfold_run_names
    rw [read_writes_whole _ _ hz2]
    simp only [readAt_whole (S := S4096) _ _ hz1, readAt_whole (S := S4096x128) _ _ hz2, readAt_whole (S := S64x128) _ _ hz2, readAt_whole (S := S64x1) _ _ hz2, View.readCov_unit_zero (S := S64x128) _ hz2, View.readCov_unit_zero (S := S64x1) _ hz2]
    rfl
  isplitl [H8]
  · iexists _; isplitr
    swap; · iexact H8
    ipureintro
    sl_unfold_run_names
    rw [read_writes_whole _ _ hz2]
    simp only [readAt_whole (S := S4096) _ _ hz1, readAt_whole (S := S4096x128) _ _ hz2, readAt_whole (S := S64x128) _ _ hz2, readAt_whole (S := S64x1) _ _ hz2, View.readCov_unit_zero (S := S64x128) _ hz2, View.readCov_unit_zero (S := S64x1) _ hz2]
    rfl
  isplitl [H9]
  · iexists _; isplitr
    swap; · iexact H9
    ipureintro
    sl_unfold_run_names
    rw [read_writes_whole _ _ hz2]
    simp only [readAt_whole (S := S4096) _ _ hz1, readAt_whole (S := S4096x128) _ _ hz2, readAt_whole (S := S64x128) _ _ hz2, readAt_whole (S := S64x1) _ _ hz2, View.readCov_unit_zero (S := S64x128) _ hz2, View.readCov_unit_zero (S := S64x1) _ hz2]
    rfl
  iexists _; isplitr
  swap; · iexact H10
  ipureintro
  sl_unfold_run_names
  rw [read_writes_whole _ _ hz2]
  simp only [readAt_whole (S := S4096) _ _ hz1, readAt_whole (S := S4096x128) _ _ hz2, readAt_whole (S := S64x128) _ _ hz2, readAt_whole (S := S64x1) _ _ hz2, View.readCov_unit_zero (S := S64x128) _ hz2, View.readCov_unit_zero (S := S64x1) _ hz2]
  rfl

set_option maxHeartbeats 1000000 in
/-- The last point: the accumulators go one step on, and each mean (sum over count, the count at least one) is
    stored into its output buffer. -/
theorem sound_kernel0_last (c : Dev nD) (E : Set ℕ) (i : grid0.Coords) (h1 : ¬ cond1 i = 1#1) (h2 : k0_cond2 i = 1#1)
    (arg1 : Memref sig .tc .vmem S4096x128 .f32) (harg1 : arg1.IsWhole) (arg2 : Memref sig .tc .vmem S4096 .i32) (harg2 : arg2.IsWhole)
    (arg3 : Memref sig .tc .vmem S4096x128 .f32) (harg3 : arg3.IsWhole) (arg4 : Memref sig .tc .vmem S4096 .i32) (harg4 : arg4.IsWhole)
    (arg5 : Memref sig .tc .vmem S64x128 .f32) (harg5 : arg5.IsWhole) (arg6 : Memref sig .tc .vmem S64x128 .f32) (harg6 : arg6.IsWhole)
    (arg7 : Memref sig .tc .vmem S64x128 .f32) (harg7 : arg7.IsWhole) (arg8 : Memref sig .tc .vmem S64x1 .f32) (harg8 : arg8.IsWhole)
    (arg9 : Memref sig .tc .vmem S64x128 .f32) (harg9 : arg9.IsWhole) (arg10 : Memref sig .tc .vmem S64x1 .f32) (harg10 : arg10.IsWhole)
    (xh : Vec F S4096x128 .f32) (bh : Vec F S4096 .i32) (xg : Vec F S4096x128 .f32) (bg : Vec F S4096 .i32) (s : Sc F)
    (K : PUnit → sProp 𝕄) :
    iprop(owns (c : Thread nD τ) arg1 fullShare xh ∗ owns (c : Thread nD τ) arg2 fullShare bh
        ∗ owns (c : Thread nD τ) arg3 fullShare xg ∗ owns (c : Thread nD τ) arg4 fullShare bg
        ∗ (∃ d, owns (c : Thread nD τ) arg5 fullShare d) ∗ (∃ d, owns (c : Thread nD τ) arg6 fullShare d)
        ∗ owns (c : Thread nD τ) arg7 fullShare s.1 ∗ owns (c : Thread nD τ) arg8 fullShare s.2.1
        ∗ owns (c : Thread nD τ) arg9 fullShare s.2.2.1 ∗ owns (c : Thread nD τ) arg10 fullShare s.2.2.2
        ∗ (iprop(owns (c : Thread nD τ) arg1 fullShare xh ∗ owns (c : Thread nD τ) arg2 fullShare bh
            ∗ owns (c : Thread nD τ) arg3 fullShare xg ∗ owns (c : Thread nD τ) arg4 fullShare bg
            ∗ owns (c : Thread nD τ) arg5 fullShare (k0_pay3 (scStep xh bh xg bg s).1 (scStep xh bh xg bg s).2.1)
            ∗ owns (c : Thread nD τ) arg6 fullShare (k0_pay4 (scStep xh bh xg bg s).2.2.1 (scStep xh bh xg bg s).2.2.2)
            ∗ owns (c : Thread nD τ) arg7 fullShare (scStep xh bh xg bg s).1 ∗ owns (c : Thread nD τ) arg8 fullShare (scStep xh bh xg bg s).2.1
            ∗ owns (c : Thread nD τ) arg9 fullShare (scStep xh bh xg bg s).2.2.1 ∗ owns (c : Thread nD τ) arg10 fullShare (scStep xh bh xg bg s).2.2.2) -∗ K ⟨⟩))
      ⊢ wp frame (wpE (defs₀ (F := F)) Variants.none c none) E
          (cc0__scatter_mean_kernel i arg1 harg1 arg2 harg2 arg3 harg3 arg4 harg4 arg5 harg5 arg6 harg6 arg7 harg7 arg8 harg8 arg9 harg9 arg10 harg10) K := by
  -- the four accumulators by name
  obtain ⟨s1, s2, s3, s4⟩ := s
  -- the body is its sequence of whole-buffer loads and stores over the named payloads
  simp only [cc0__scatter_mean_kernel_eq_skeleton]; unfold cc0__scatter_mean_kernel_skel
  simp only [k0_part1_eq_skeleton]; unfold k0_part1_skel
  -- each buffer is held at some contents that read as stated
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%f9, %hf9, H9⟩, ⟨%f10, %hf10, H10⟩, Hk⟩
  subst hf1 hf2 hf3 hf4 hf7 hf8 hf9 hf10
  -- the first condition as the kernel computes it; the two conditions decide the two branches
  unfold cond1 at h1
  sl_exec (disch := first | sl_exact h1 | sl_exact h2)
  sl_step
  iapply Hk
  -- the four inputs are as they were
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  -- each buffer stored into: its last store covers it, so it reads that store's payload; a load of a whole buffer read
  -- the buffer's contents, or, after a store in this run, that store's payload; what is left is the step by definition
  isplitl [H5]
  · iexists _; isplitr
    swap; · iexact H5
    ipureintro
    sl_unfold_run_names
    rw [read_writes_whole _ _ hz2]
    simp only [readAt_whole (S := S4096) _ _ hz1, readAt_whole (S := S4096x128) _ _ hz2, readAt_whole (S := S64x128) _ _ hz2, readAt_whole (S := S64x1) _ _ hz2, View.readCov_unit_zero (S := S64x128) _ hz2, View.readCov_unit_zero (S := S64x1) _ hz2]
    rfl
  isplitl [H6]
  · iexists _; isplitr
    swap; · iexact H6
    ipureintro
    sl_unfold_run_names
    rw [read_writes_whole _ _ hz2]
    simp only [readAt_whole (S := S4096) _ _ hz1, readAt_whole (S := S4096x128) _ _ hz2, readAt_whole (S := S64x128) _ _ hz2, readAt_whole (S := S64x1) _ _ hz2, View.readCov_unit_zero (S := S64x128) _ hz2, View.readCov_unit_zero (S := S64x1) _ hz2]
    rfl
  isplitl [H7]
  · iexists _; isplitr
    swap; · iexact H7
    ipureintro
    sl_unfold_run_names
    rw [read_writes_whole _ _ hz2]
    simp only [readAt_whole (S := S4096) _ _ hz1, readAt_whole (S := S4096x128) _ _ hz2, readAt_whole (S := S64x128) _ _ hz2, readAt_whole (S := S64x1) _ _ hz2, View.readCov_unit_zero (S := S64x128) _ hz2, View.readCov_unit_zero (S := S64x1) _ hz2]
    rfl
  isplitl [H8]
  · iexists _; isplitr
    swap; · iexact H8
    ipureintro
    sl_unfold_run_names
    rw [read_writes_whole _ _ hz2]
    simp only [readAt_whole (S := S4096) _ _ hz1, readAt_whole (S := S4096x128) _ _ hz2, readAt_whole (S := S64x128) _ _ hz2, readAt_whole (S := S64x1) _ _ hz2, View.readCov_unit_zero (S := S64x128) _ hz2, View.readCov_unit_zero (S := S64x1) _ hz2]
    rfl
  isplitl [H9]
  · iexists _; isplitr
    swap; · iexact H9
    ipureintro
    sl_unfold_run_names
    rw [read_writes_whole _ _ hz2]
    simp only [readAt_whole (S := S4096) _ _ hz1, readAt_whole (S := S4096x128) _ _ hz2, readAt_whole (S := S64x128) _ _ hz2, readAt_whole (S := S64x1) _ _ hz2, View.readCov_unit_zero (S := S64x128) _ hz2, View.readCov_unit_zero (S := S64x1) _ hz2]
    rfl
  iexists _; isplitr
  swap; · iexact H10
  ipureintro
  sl_unfold_run_names
  rw [read_writes_whole _ _ hz2]
  simp only [readAt_whole (S := S4096) _ _ hz1, readAt_whole (S := S4096x128) _ _ hz2, readAt_whole (S := S64x128) _ _ hz2, readAt_whole (S := S64x1) _ _ hz2, View.readCov_unit_zero (S := S64x128) _ hz2, View.readCov_unit_zero (S := S64x1) _ hz2]
  rfl

end Cert.KernelIdeal.Hand

end
-- ==== Proof.R0Dat.lean ====
/-
  The scatter-mean region's proof data. Its four input windows hold their blocks of the two padded node arrays and
  the two padded id arrays; its four scratch accumulators are carried from point to point in the region's invariant:
  before the first point they hold anything, before a later point t what the points below t have accumulated
  (`acc t`, a fold of one point's step from the all-zero start); its two output windows are idle until the last point,
  where each takes its mean (sum over count) and is written back.
-/
import proofs.«406569_j31748398252730_1_alg».proof.Proof.R0Body
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The four input blocks at a point, at their literal types: 4096 node rows of each set, and their 4096 segment ids. -/
abbrev xhB (c : Dev nD) (t : Fin cfg0.N) : Vec F S4096x128 .f32 := iblk0 V c 0 t
abbrev bhB (c : Dev nD) (t : Fin cfg0.N) : Vec F S4096 .i32 := iblk0 V c 1 t
abbrev xgB (c : Dev nD) (t : Fin cfg0.N) : Vec F S4096x128 .f32 := iblk0 V c 2 t
abbrev bgB (c : Dev nD) (t : Fin cfg0.N) : Vec F S4096 .i32 := iblk0 V c 3 t

/-- The accumulators after the points below n: zero, then one step per point. -/
def acc (c : Dev nD) : ℕ → Sc F
  | 0 => sc0
  | n + 1 => if h : n < cfg0.N then scStep (xhB V c ⟨n, h⟩) (bhB V c ⟨n, h⟩) (xgB V c ⟨n, h⟩) (bgB V c ⟨n, h⟩) (acc c n) else acc c n

theorem acc_zero (c : Dev nD) : acc V c 0 = sc0 := rfl
theorem acc_succ (c : Dev nD) (t : Fin cfg0.N) :
    acc V c (t.val + 1) = scStep (xhB V c t) (bhB V c t) (xgB V c t) (bgB V c t) (acc V c t.val) := by
  show (if h : t.val < cfg0.N then _ else _) = _
  rw [dif_pos t.isLt]

/-- The scratch accumulators before point t: anything before the first point, acc t before a later one. -/
def scratchAt (c : Dev nD) (t : ℕ) : sProp 𝕄 :=
  iprop(∃ s : Sc F, ⌜t ≠ 0 → s = acc V c t⌝
    ∗ owns (c : Thread nD τ) (Memref.whole cc0_scratch0) fullShare s.1 ∗ owns (c : Thread nD τ) (Memref.whole cc0_scratch1) fullShare s.2.1
    ∗ owns (c : Thread nD τ) (Memref.whole cc0_scratch2) fullShare s.2.2.1 ∗ owns (c : Thread nD τ) (Memref.whole cc0_scratch3) fullShare s.2.2.2)

/-- What else the region's invariant keeps, untouched: the other region's staging buffers at some contents, and the generator register. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ ∃ r, prngReg c r)

/-- The region's proof data on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay3 (acc V c (t.val + 1)).1 (acc V c (t.val + 1)).2.1
    | ⟨5, _⟩ => k0_pay4 (acc V c (t.val + 1)).2.2.1 (acc V c (t.val + 1)).2.2.2
  Φ t := iprop(scratchAt V c t.val ∗ rest0 c)
  q _ := fullShare
  owed _ := 0

theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = k0_pay3 (acc V c (t.val + 1)).1 (acc V c (t.val + 1)).2.1 := by dsimp only [dat0]
theorem after0_5 (c : Dev nD) (t : Fin cfg0.N) :
    (dat0 V c).after 5 t = k0_pay4 (acc V c (t.val + 1)).2.2.1 (acc V c (t.val + 1)).2.2.2 := by dsimp only [dat0]

/-! ## An array written back at the last point only

The array after the write-backs below a count is a recursion on the count. Below the first point that writes the
window back nothing has been overwritten, so the array is as at entry; a window whose only write-back is at the last
point therefore ends as the entry contents with that one block overwritten. Both at a variable configuration, so that
the recursion is unfolded here and not at a point count that is a numeral. -/

section LastFlush

variable {cfg : Cfg sig Λ₀} {c : Dev nD} (dat : Dat τ (Elt F) Unit ℕ (UR sig nD τ) ℕ cfg c)

/-- If no point below `n` writes window `w` back, the array after the write-backs below `n` is the entry contents. -/
theorem arrAt_of_no_flush_below (w : Fin cfg.W) :
    ∀ n : ℕ, (∀ t : Fin cfg.N, t.val < n → (cfg.win w).flush t = false) → dat.arrAt w n = dat.A w
  | 0, _ => rfl
  | n + 1, h => by
    have ih := arrAt_of_no_flush_below w n fun t ht => h t (Nat.lt_succ_of_lt ht)
    by_cases hn : n < cfg.N
    · have e := dat.arrAt_succ w ⟨n, hn⟩
      rw [h ⟨n, hn⟩ (Nat.lt_succ_self n), if_neg Bool.false_ne_true] at e
      exact e.trans ih
    · show (if h : n < cfg.N then _ else dat.arrAt w n) = _
      rw [dif_neg hn]; exact ih

/-- A window written back at the last point only: its array ends as the entry contents with the last point's block
    overwritten by what the body left there. -/
theorem arrAt_last_flush_only (w : Fin cfg.W) (t : Fin cfg.N) (ht : t.val + 1 = cfg.N) (hfl : (cfg.win w).flush t = true)
    (hno : ∀ t' : Fin cfg.N, t'.val < t.val → (cfg.win w).flush t' = false) :
    dat.arrAt w cfg.N = ((cfg.win w).blk t).view.write (Elt F) (dat.A w) (dat.flushed w t) Finset.univ := by
  have e : dat.arrAt w cfg.N = dat.arrAt w (t.val + 1) := congrArg (dat.arrAt w) ht.symm
  rw [e, dat.arrAt_succ w t, if_pos hfl, arrAt_of_no_flush_below dat w t.val hno]

end LastFlush

/-- The last point of the grid. -/
def tLast0 : Fin cfg0.N := ⟨122, by have := Gen.N_0; show 122 < grid0.N; omega⟩

/-- Windows 4 and 5 are written back at no point below the last. -/
theorem noflush0_4 (t' : Fin cfg0.N) (h : t'.val < (tLast0).val) : (cfg0.win 4).flush t' = false :=
  Bool.eq_false_iff.mpr fun hf => by have := (Gen.flush0_4 t').mp hf; have : t'.val < 122 := h; omega
theorem noflush0_5 (t' : Fin cfg0.N) (h : t'.val < (tLast0).val) : (cfg0.win 5).flush t' = false :=
  Bool.eq_false_iff.mpr fun hf => by have := (Gen.flush0_5 t').mp hf; have : t'.val < 122 := h; omega

/-- The invariant before the first point, from the generator register and the scoped buffers no window stages. -/
theorem hin0 (c : Dev nD) :
    iprop((∃ r, prngReg c r) ∗ Pipeline.scopedRest (Ix := Unit) (Name := ℕ) (U := UR sig nD τ) (Lvl := ℕ) (Val := Elt F) spec0 c)
      ⊢ ((dat0 V c).Φ 0 : sProp 𝕄) := by
  rw [Gen.scopedRest0_eq]
  show _ ⊢ iprop(scratchAt V c 0 ∗ rest0 c)
  unfold scratchAt rest0
  simp only [owns_whole]
  iintro ⟨Hr, ⟨%f0, H0⟩, ⟨%f1, H1⟩, ⟨%f2, H2⟩, ⟨%f3, H3⟩, G0, G1, G2, G3, G4, G5⟩
  isplitl [H0 H1 H2 H3]
  · iexists ((f0, f1, f2, f3) : Sc F)
    isplitr; · ipureintro; intro h; exact absurd rfl h
    isplitl [H0]; · iexact H0
    isplitl [H1]; · iexact H1
    isplitl [H2]; · iexact H2
    iexact H3
  isplitl [G0]; · iexact G0
  isplitl [G1]; · iexact G1
  isplitl [G2]; · iexact G2
  isplitl [G3]; · iexact G3
  isplitl [G4]; · iexact G4
  isplitl [G5]; · iexact G5
  iexact Hr

/-- The invariant after the last point gives the register and those scoped buffers back. -/
theorem hout0 (c : Dev nD) :
    ((dat0 V c).Φ (Fin.last cfg0.N) : sProp 𝕄)
      ⊢ iprop((∃ r, prngReg c r) ∗ Pipeline.scopedRest (Ix := Unit) (Name := ℕ) (U := UR sig nD τ) (Lvl := ℕ) (Val := Elt F) spec0 c) := by
  rw [Gen.scopedRest0_eq]
  show iprop(scratchAt V c (Fin.last cfg0.N).val ∗ rest0 c) ⊢ _
  unfold scratchAt rest0
  simp only [owns_whole]
  iintro ⟨⟨%s, -, H0, H1, H2, H3⟩, G0, G1, G2, G3, G4, G5, Hr⟩
  isplitl [Hr]; · iexact Hr
  isplitl [H0]; · iexists _; iexact H0
  isplitl [H1]; · iexists _; iexact H1
  isplitl [H2]; · iexists _; iexact H2
  isplitl [H3]; · iexists _; iexact H3
  isplitl [G0]; · iexact G0
  isplitl [G1]; · iexact G1
  isplitl [G2]; · iexact G2
  isplitl [G3]; · iexact G3
  isplitl [G4]; · iexact G4
  iexact G5

/-! ## The body obligation -/

/-- The kernel's two conditions over the grid, in closed form: the first holds at the first point only, the second
    at the last point only. -/
theorem cond1_iff : ∀ t : Fin cfg0.N, cond1 (cfg0.grid.coords t) = 1#1 ↔ t.val = 0 :=
  (by decide +kernel : ∀ t : Fin grid0.N, cond1 (grid0.coords t) = 1#1 ↔ t.val = 0)
theorem cond2_iff : ∀ t : Fin cfg0.N, k0_cond2 (cfg0.grid.coords t) = 1#1 ↔ t.val = 122 :=
  (by decide +kernel : ∀ t : Fin grid0.N, k0_cond2 (grid0.coords t) = 1#1 ↔ t.val = 122)

/-- The output windows are idle exactly off the last point, -/
theorem idle0_4_of_ne (t : Fin cfg0.N) (h : t.val ≠ 122) : cfg0.idle 4 (cfg0.grid.coords t) = true := by
  have hc : ¬ k0_cond2 (grid0.coords t) = 1#1 := fun e => h ((cond2_iff t).mp e)
  show (!(k0_cond2 (grid0.coords t) == 1#1)) = true
  rw [Bool.not_eq_true', beq_eq_false_iff_ne]; exact hc
theorem idle0_5_of_ne (t : Fin cfg0.N) (h : t.val ≠ 122) : cfg0.idle 5 (cfg0.grid.coords t) = true := by
  have hc : ¬ k0_cond2 (grid0.coords t) = 1#1 := fun e => h ((cond2_iff t).mp e)
  show (!(k0_cond2 (grid0.coords t) == 1#1)) = true
  rw [Bool.not_eq_true', beq_eq_false_iff_ne]; exact hc
theorem idle0_4_of_eq (t : Fin cfg0.N) (h : t.val = 122) : cfg0.idle 4 (cfg0.grid.coords t) = false := by
  show (!(k0_cond2 (grid0.coords t) == 1#1)) = false
  rw [(cond2_iff t).mpr h]; rfl
theorem idle0_5_of_eq (t : Fin cfg0.N) (h : t.val = 122) : cfg0.idle 5 (cfg0.grid.coords t) = false := by
  show (!(k0_cond2 (grid0.coords t) == 1#1)) = false
  rw [(cond2_iff t).mpr h]; rfl

/-- and there they are not written back. -/
theorem flush0_4_of_ne (t : Fin cfg0.N) (h : t.val ≠ 122) : (cfg0.win 4).flush t = false :=
  Bool.eq_false_iff.mpr fun hf => by
    have hN : cfg0.N = 123 := Gen.N_0
    have := (Gen.flush0_4 t).mp hf; have := t.isLt; omega
theorem flush0_5_of_ne (t : Fin cfg0.N) (h : t.val ≠ 122) : (cfg0.win 5).flush t = false :=
  Bool.eq_false_iff.mpr fun hf => by
    have hN : cfg0.N = 123 := Gen.N_0
    have := (Gen.flush0_5 t).mp hf; have := t.isLt; omega

/-- Each input window is fetched at every point, so its current buffer holds its block there. -/
theorem before0_0 (c : Dev nD) (t : Fin cfg0.N) (d) : (dat0 V c).before 0 t d = iblk0 V c 0 t := by
  rw [(dat0 V c).before_fetched 0 t (Gen.fetch0_0 t) d]
  unfold Dat.fetched Dat.blockOf iblk0; rw [A_eq0]; try rfl
theorem before0_1 (c : Dev nD) (t : Fin cfg0.N) (d) : (dat0 V c).before 1 t d = iblk0 V c 1 t := by
  rw [(dat0 V c).before_fetched 1 t (Gen.fetch0_1 t) d]
  unfold Dat.fetched Dat.blockOf iblk0; rw [A_eq0]; try rfl
theorem before0_2 (c : Dev nD) (t : Fin cfg0.N) (d) : (dat0 V c).before 2 t d = iblk0 V c 2 t := by
  rw [(dat0 V c).before_fetched 2 t (Gen.fetch0_2 t) d]
  unfold Dat.fetched Dat.blockOf iblk0; rw [A_eq0]; try rfl
theorem before0_3 (c : Dev nD) (t : Fin cfg0.N) (d) : (dat0 V c).before 3 t d = iblk0 V c 3 t := by
  rw [(dat0 V c).before_fetched 3 t (Gen.fetch0_3 t) d]
  unfold Dat.fetched Dat.blockOf iblk0; rw [A_eq0]; try rfl

/-- The invariant before and after a point, opened. -/
theorem Φ0_castSucc (c : Dev nD) (t : Fin cfg0.N) : (dat0 V c).Φ t.castSucc = iprop(scratchAt V c t.val ∗ rest0 c) := rfl
theorem Φ0_succ (c : Dev nD) (t : Fin cfg0.N) : (dat0 V c).Φ t.succ = iprop(scratchAt V c (t.val + 1) ∗ rest0 c) := rfl

/-- At a point live for a window its post is the plain one: the buffer at what the body leaves. -/
theorem leavesExact_live {cfg : Cfg sig Λ₀} {c : Dev nD} (dat : Dat τ (Elt F) Unit ℕ (UR sig nD τ) ℕ cfg c)
    (w : Fin cfg.W) (t : Fin cfg.N) (hi : cfg.idle w (cfg.grid.coords t) = false) :
    dat.leavesExact w t = owns (c : Thread nD τ) ((cfg.win w).stage (cfg.slots t w)) fullShare (dat.after w t) := by
  unfold Dat.leavesExact; rw [hi]

/-- What the body is called with at point t: the invariant, what the core owes, and every window's current buffer; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns: the invariant one point on, and each buffer at what the body leaves in it (an output
    window's, off the last point, as it was found). -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ (dat0 V c).leavesExact 4 t ∗ (dat0 V c).leavesExact 5 t)

/-- The first point: the accumulators are found at anything, reset, and go one step on from zero, which is the
    accumulation below the second point. The output windows are idle and handed back as found. -/
theorem sound_body0_first (c : Dev nD) (t : Fin cfg0.N) (h0 : t.val = 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [Φ0_castSucc, Φ0_succ, show (dat0 V c).owesAt () t.succ = (dat0 V c).owesAt () t.castSucc from rfl,
    after0_0, after0_1, after0_2, after0_3,
    (dat0 V c).leavesExact_idle 4 t (idle0_4_of_ne t (by omega)) (flush0_4_of_ne t (by omega)),
    (dat0 V c).leavesExact_idle 5 t (idle0_5_of_ne t (by omega)) (flush0_5_of_ne t (by omega))]
  unfold scratchAt
  iintro ⟨⟨⟨%s, -, S0, S1, S2, S3⟩, HR⟩, Ho, ⟨%d0, H0⟩, ⟨%d1, H1⟩, ⟨%d2, H2⟩, ⟨%d3, H3⟩, H4, H5⟩
  iapply (sound_kernel0_first c Set.univ (grid0.coords t) ((cond1_iff t).mpr h0) (fun e => by have := (cond2_iff t).mp e; omega)
    _ _ _ _ _ _ _ _ _ _ _ _ _ _ _ _ _ _ _ _ (xhB V c t) (bhB V c t) (xgB V c t) (bgB V c t) _)
  isplitl [H0]; · iexact H0
  isplitl [H1]; · iexact H1
  isplitl [H2]; · iexact H2
  isplitl [H3]; · iexact H3
  isplitl [S0]; · iexists _; iexact S0
  isplitl [S1]; · iexists _; iexact S1
  isplitl [S2]; · iexists _; iexact S2
  isplitl [S3]; · iexists _; iexact S3
  iintro ⟨H0, H1, H2, H3, S0, S1, S2, S3⟩
  isplitl [S0 S1 S2 S3 HR]
  · isplitl [S0 S1 S2 S3]
    · iexists (scStep (xhB V c t) (bhB V c t) (xgB V c t) (bgB V c t) (sc0 (F := F)))
      isplitr
      · ipureintro; intro _; rw [acc_succ V c t, h0, acc_zero]
      isplitl [S0]; · iexact S0
      isplitl [S1]; · iexact S1
      isplitl [S2]; · iexact S2
      iexact S3
    · iexact HR
  isplitl [Ho]; · iexact Ho
  isplitl [H0]; · iexact H0
  isplitl [H1]; · iexact H1
  isplitl [H2]; · iexact H2
  isplitl [H3]; · iexact H3
  isplitl [H4]; · iexact H4
  iexact H5

/-- A middle point: the accumulators are found at the accumulation below the point and go one step on. The output
    windows are idle and handed back as found. -/
theorem sound_body0_mid (c : Dev nD) (t : Fin cfg0.N) (h0 : t.val ≠ 0) (hl : t.val ≠ 122) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [Φ0_castSucc, Φ0_succ, show (dat0 V c).owesAt () t.succ = (dat0 V c).owesAt () t.castSucc from rfl,
    after0_0, after0_1, after0_2, after0_3,
    (dat0 V c).leavesExact_idle 4 t (idle0_4_of_ne t hl) (flush0_4_of_ne t hl),
    (dat0 V c).leavesExact_idle 5 t (idle0_5_of_ne t hl) (flush0_5_of_ne t hl)]
  unfold scratchAt
  iintro ⟨⟨⟨%s, %hs, S0, S1, S2, S3⟩, HR⟩, Ho, ⟨%d0, H0⟩, ⟨%d1, H1⟩, ⟨%d2, H2⟩, ⟨%d3, H3⟩, H4, H5⟩
  obtain rfl : s = acc V c t.val := hs h0
  iapply (sound_kernel0_mid c Set.univ (grid0.coords t) (fun e => h0 ((cond1_iff t).mp e)) (fun e => hl ((cond2_iff t).mp e))
    _ _ _ _ _ _ _ _ _ _ _ _ _ _ _ _ _ _ _ _ (xhB V c t) (bhB V c t) (xgB V c t) (bgB V c t) (acc V c t.val) _)
  isplitl [H0]; · iexact H0
  isplitl [H1]; · iexact H1
  isplitl [H2]; · iexact H2
  isplitl [H3]; · iexact H3
  isplitl [S0]; · iexact S0
  isplitl [S1]; · iexact S1
  isplitl [S2]; · iexact S2
  isplitl [S3]; · iexact S3
  iintro ⟨H0, H1, H2, H3, S0, S1, S2, S3⟩
  isplitl [S0 S1 S2 S3 HR]
  · isplitl [S0 S1 S2 S3]
    · iexists (scStep (xhB V c t) (bhB V c t) (xgB V c t) (bgB V c t) (acc V c t.val))
      isplitr
      · ipureintro; intro _; exact (acc_succ V c t).symm
      isplitl [S0]; · iexact S0
      isplitl [S1]; · iexact S1
      isplitl [S2]; · iexact S2
      iexact S3
    · iexact HR
  isplitl [Ho]; · iexact Ho
  isplitl [H0]; · iexact H0
  isplitl [H1]; · iexact H1
  isplitl [H2]; · iexact H2
  isplitl [H3]; · iexact H3
  isplitl [H4]; · iexact H4
  iexact H5

/-- The last point: the accumulators go one step on, and each output window, live here, takes its mean of the
    stepped accumulators: what the proof data says the body leaves there. -/
theorem sound_body0_last (c : Dev nD) (t : Fin cfg0.N) (hl : t.val = 122) :
    bodyPre0 V c t ⊢ wp frame (wpE (defs₀ (F := F)) Variants.none c none) Set.univ (bodyAt0 t) (fun _ => bodyPost0 V c t) := by
  have h0 : t.val ≠ 0 := by omega
  unfold bodyPre0 bodyPost0 bodyAt0
  simp only [before0_0, before0_1, before0_2, before0_3]
  rw [Φ0_castSucc, Φ0_succ, show (dat0 V c).owesAt () t.succ = (dat0 V c).owesAt () t.castSucc from rfl,
    after0_0, after0_1, after0_2, after0_3,
    leavesExact_live (dat0 V c) 4 t (idle0_4_of_eq t hl), leavesExact_live (dat0 V c) 5 t (idle0_5_of_eq t hl),
    after0_4, after0_5, acc_succ V c t]
  unfold scratchAt
  iintro ⟨⟨⟨%s, %hs, S0, S1, S2, S3⟩, HR⟩, Ho, ⟨%d0, H0⟩, ⟨%d1, H1⟩, ⟨%d2, H2⟩, ⟨%d3, H3⟩, ⟨%d4, H4⟩, ⟨%d5, H5⟩⟩
  obtain rfl : s = acc V c t.val := hs h0
  iapply (sound_kernel0_last c Set.univ (grid0.coords t) (fun e => h0 ((cond1_iff t).mp e)) ((cond2_iff t).mpr hl)
    _ _ _ _ _ _ _ _ _ _ _ _ _ _ _ _ _ _ _ _ (xhB V c t) (bhB V c t) (xgB V c t) (bgB V c t) (acc V c t.val) _)
  isplitl [H0]; · iexact H0
  isplitl [H1]; · iexact H1
  isplitl [H2]; · iexact H2
  isplitl [H3]; · iexact H3
  isplitl [H4]; · iexists _; iexact H4
  isplitl [H5]; · iexists _; iexact H5
  isplitl [S0]; · iexact S0
  isplitl [S1]; · iexact S1
  isplitl [S2]; · iexact S2
  isplitl [S3]; · iexact S3
  iintro ⟨H0, H1, H2, H3, H4, H5, S0, S1, S2, S3⟩
  isplitl [S0 S1 S2 S3 HR]
  · isplitl [S0 S1 S2 S3]
    · iexists (scStep (xhB V c t) (bhB V c t) (xgB V c t) (bgB V c t) (acc V c t.val))
      isplitr
      · ipureintro; intro _; exact (acc_succ V c t).symm
      isplitl [S0]; · iexact S0
      isplitl [S1]; · iexact S1
      isplitl [S2]; · iexact S2
      iexact S3
    · iexact HR
  isplitl [Ho]; · iexact Ho
  isplitl [H0]; · iexact H0
  isplitl [H1]; · iexact H1
  isplitl [H2]; · iexact H2
  isplitl [H3]; · iexact H3
  isplitl [H4]; · iexact H4
  iexact H5

/-- The body at any point, by its place in the grid. -/
theorem sound_body0 (c : Dev nD) (t : Fin cfg0.N) :
    bodyPre0 V c t ⊢ wp frame (wpE (defs₀ (F := F)) Variants.none c none) Set.univ (bodyAt0 t) (fun _ => bodyPost0 V c t) := by
  by_cases h0 : t.val = 0
  · exact sound_body0_first V c t h0
  by_cases hl : t.val = 122
  · exact sound_body0_last V c t hl
  exact sound_body0_mid V c t h0 hl

/-- The body obligation at every point. -/
theorem body_obligation0 (c : Dev nD) : BodyObligation (dat0 (F := F) V c) (defs₀ (F := F)) Variants.none () Set.univ := fun t => by
  rw [Gen.bigSep_W0, Gen.bigSep_W0]
  exact sound_body0 V c t

/-- After the region each input array is as entered, -/
theorem arrAt0_in (c : Dev nD) (w : Fin cfg0.W) (hw : w.val < 4) : (dat0 V c).arrAt w cfg0.N = V c (Pipeline.arrRef spec0 w) := by
  have hin : (cfg0.win w).isOut = false := by
    match w, hw with
    | ⟨0, _⟩, _ => rfl
    | ⟨1, _⟩, _ => rfl
    | ⟨2, _⟩, _ => rfl
    | ⟨3, _⟩, _ => rfl
    | ⟨n + 4, _⟩, h => exact absurd h (by simp)
  exact ((dat0 V c).arrAt_in w hin _).trans (A_eq0 V c w)

/-- and each output array holds its mean: the last point's block, which is the whole array. -/
theorem arrAt0_4 (c : Dev nD) :
    ((dat0 V c).arrAt 4 cfg0.N : S64x128.Idx → Elt F .f32) = k0_pay3 (acc V c 123).1 (acc V c 123).2.1 := by
  refine (arrAt_last_flush_only (dat0 V c) 4 tLast0 Gen.N_0.symm ((Gen.flush0_4 tLast0).mpr rfl) (noflush0_4)).trans ?_
  show ((cfg0.win 4).blk tLast0).view.write (Elt F) _ ((cfg0.win 4).cut (grid0.coords tLast0) ((dat0 V c).after 4 tLast0)) Finset.univ = _
  rw [after0_4]
  have hz : (fun a => win0_4.index tLast0 a * main_v4_0.ty.shape.size a) = fun _ => 0 := funext fun a => by fin_cases a <;> decide +kernel
  exact Memref.write_access_unit_zero_univ (Elt F) main_v4_0 hz (fun a => by rw [congrFun hz a]; simp) _ _
theorem arrAt0_5 (c : Dev nD) :
    ((dat0 V c).arrAt 5 cfg0.N : S64x128.Idx → Elt F .f32) = k0_pay4 (acc V c 123).2.2.1 (acc V c 123).2.2.2 := by
  refine (arrAt_last_flush_only (dat0 V c) 5 tLast0 Gen.N_0.symm ((Gen.flush0_5 tLast0).mpr rfl) (noflush0_5)).trans ?_
  show ((cfg0.win 5).blk tLast0).view.write (Elt F) _ ((cfg0.win 5).cut (grid0.coords tLast0) ((dat0 V c).after 5 tLast0)) Finset.univ = _
  rw [after0_5]
  have hz : (fun a => win0_5.index tLast0 a * main_v4_1.ty.shape.size a) = fun _ => 0 := funext fun a => by fin_cases a <;> decide +kernel
  exact Memref.write_access_unit_zero_univ (Elt F) main_v4_1 hz (fun a => by rw [congrFun hz a]; simp) _ _

end Cert.KernelIdeal.Hand

end
-- ==== Proof.R1.lean ====
/-
  The two-layer network's region: one grid point, every window one block that is its whole array. The five input
  windows hold their arrays; the output window takes the network's value of them and is written back.
-/
import proofs.«406569_j31748398252730_1_alg».proof.Proof.Gen.KernelIdeal.Skeleton
import proofs.«406569_j31748398252730_1_alg».proof.Proof.Gen.KernelIdeal.Launch
import proofs.«406569_j31748398252730_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The region's proof data on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay1 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

/-- The zero offsets of a rank-one and of a rank-two rectangle, as constant functions. -/
theorem off1_zero : (![0] : Fin 1 → Nat) = fun _ => 0 := funext fun a => by fin_cases a; rfl
theorem off2_zero : (![0, 0] : Fin 2 → Nat) = fun _ => 0 := funext fun a => by fin_cases a <;> rfl

/-! ## What the body leaves, window by window -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = k1_pay1 (iblk1 V c 0 t) (iblk1 V c 1 t) (iblk1 V c 2 t) (iblk1 V c 3 t) (iblk1 V c 4 t) := by
  dsimp only [dat1]

/-! ## The input windows' buffers when the body runs

Each input window is uncut and never idle, and the body leaves its block in place; so its current buffer holds
its block of the entry array at the point, fetched there or not. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## The body's triple -/

set_option maxHeartbeats 1000000 in
/-- The network's body on whole staging memrefs: the five inputs at read contents, the output at anything. It reads
    each input whole, stores the network's value of them over the whole output, and leaves the inputs as they were. -/
theorem sound_kernel1 (c : Dev nD) (E : Set ℕ) (i : grid1.Coords)
    (arg1 : Memref sig .tc .vmem S64x384 .f32) (harg1 : arg1.IsWhole) (arg2 : Memref sig .tc .vmem S384x128 .f32) (harg2 : arg2.IsWhole)
    (arg3 : Memref sig .tc .vmem S128 .f32) (harg3 : arg3.IsWhole) (arg4 : Memref sig .tc .vmem S128x128 .f32) (harg4 : arg4.IsWhole)
    (arg5 : Memref sig .tc .vmem S128 .f32) (harg5 : arg5.IsWhole) (arg6 : Memref sig .tc .vmem S64x128 .f32) (harg6 : arg6.IsWhole)
    (x0 : Vec F S64x384 .f32) (x1 : Vec F S384x128 .f32) (x2 : Vec F S128 .f32) (x3 : Vec F S128x128 .f32) (x4 : Vec F S128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k1_pay1 x0 x1 x2 x3 x4)) -∗ K ⟨⟩))
      ⊢ wp frame (wpE (defs₀ (F := F)) Variants.none c none) E (cc1__mlp_kernel i arg1 harg1 arg2 harg2 arg3 harg3 arg4 harg4 arg5 harg5 arg6 harg6) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (fun y => ⟨_, List.mem_singleton_self _, View.mem_set_unit_zero off2_zero inb_S64x128_S64x128_0_0 y⟩)).trans ?_
  rw [View.canon_unit_zero off2_zero]
  simp only [View.readAt_eq_ld, View.ld_unit_zero (S := S64x384) off2_zero, View.ld_unit_zero (S := S384x128) off2_zero,
    View.ld_unit_zero (S := S128x128) off2_zero, View.ld_unit_zero (S := S128) off1_zero]

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at the one point. -/
theorem body_obligation1 (c : Dev nD) : BodyObligation (dat1 (F := F) V c) (defs₀ (F := F)) Variants.none () Set.univ := fun t => by
  rw [bigSep_W1, bigSep_W1]
  exact sound_body1 V c t

/-- After the region each input array is as entered, -/
theorem arrAt1_in (c : Dev nD) (w : Fin cfg1.W) (hw : w.val < 5) : (dat1 V c).arrAt w cfg1.N = V c (Pipeline.arrRef spec1 w) := by
  have hin : (cfg1.win w).isOut = false := by
    match w, hw with
    | ⟨0, _⟩, _ => rfl
    | ⟨1, _⟩, _ => rfl
    | ⟨2, _⟩, _ => rfl
    | ⟨3, _⟩, _ => rfl
    | ⟨4, _⟩, _ => rfl
  exact ((dat1 V c).arrAt_in w hin _).trans (A_eq1 V c w)

/-! ## Every block is its whole array

The grid has one point and every index map is constantly zero, so a block's coordinate in its array, block index
times block size plus the coordinate inside the block, is the coordinate itself. -/

theorem emb1_0 (t : Fin cfg1.N) (j : S64x384.Idx) : (((cfg1.win 0).blk t).view.emb j : S64x384.Idx) = j := by
  funext a; apply Fin.ext
  match a with
  | ⟨0, _⟩ => show win1_0.index t (0 : Fin 2) * 64 + 1 * (j 0).val = (j 0).val; rw [show win1_0.index t (0 : Fin 2) = 0 from rfl]; omega
  | ⟨1, _⟩ => show win1_0.index t (1 : Fin 2) * 384 + 1 * (j 1).val = (j 1).val; rw [show win1_0.index t (1 : Fin 2) = 0 from rfl]; omega
theorem emb1_1 (t : Fin cfg1.N) (j : S384x128.Idx) : (((cfg1.win 1).blk t).view.emb j : S384x128.Idx) = j := by
  funext a; apply Fin.ext
  match a with
  | ⟨0, _⟩ => show win1_1.index t (0 : Fin 2) * 384 + 1 * (j 0).val = (j 0).val; rw [show win1_1.index t (0 : Fin 2) = 0 from rfl]; omega
  | ⟨1, _⟩ => show win1_1.index t (1 : Fin 2) * 128 + 1 * (j 1).val = (j 1).val; rw [show win1_1.index t (1 : Fin 2) = 0 from rfl]; omega
theorem emb1_2 (t : Fin cfg1.N) (j : S128.Idx) : (((cfg1.win 2).blk t).view.emb j : S128.Idx) = j := by
  funext a; apply Fin.ext
  match a with
  | ⟨0, _⟩ => show win1_2.index t (0 : Fin 1) * 128 + 1 * (j 0).val = (j 0).val; rw [show win1_2.index t (0 : Fin 1) = 0 from rfl]; omega
theorem emb1_3 (t : Fin cfg1.N) (j : S128x128.Idx) : (((cfg1.win 3).blk t).view.emb j : S128x128.Idx) = j := by
  funext a; apply Fin.ext
  match a with
  | ⟨0, _⟩ => show win1_3.index t (0 : Fin 2) * 128 + 1 * (j 0).val = (j 0).val; rw [show win1_3.index t (0 : Fin 2) = 0 from rfl]; omega
  | ⟨1, _⟩ => show win1_3.index t (1 : Fin 2) * 128 + 1 * (j 1).val = (j 1).val; rw [show win1_3.index t (1 : Fin 2) = 0 from rfl]; omega
theorem emb1_4 (t : Fin cfg1.N) (j : S128.Idx) : (((cfg1.win 4).blk t).view.emb j : S128.Idx) = j := by
  funext a; apply Fin.ext
  match a with
  | ⟨0, _⟩ => show win1_4.index t (0 : Fin 1) * 128 + 1 * (j 0).val = (j 0).val; rw [show win1_4.index t (0 : Fin 1) = 0 from rfl]; omega
theorem emb1_5 (t : Fin cfg1.N) (j : S64x128.Idx) : (((cfg1.win 5).blk t).view.emb j : S64x128.Idx) = j := by
  funext a; apply Fin.ext
  match a with
  | ⟨0, _⟩ => show win1_5.index t (0 : Fin 2) * 64 + 1 * (j 0).val = (j 0).val; rw [show win1_5.index t (0 : Fin 2) = 0 from rfl]; omega
  | ⟨1, _⟩ => show win1_5.index t (1 : Fin 2) * 128 + 1 * (j 1).val = (j 1).val; rw [show win1_5.index t (1 : Fin 2) = 0 from rfl]; omega

/-- So an input window's block reads its array. -/
theorem iblk1_0_eq (c : Dev nD) (t : Fin cfg1.N) : (iblk1 V c 0 t : S64x384.Idx → Elt F .f32) = (V c main_v5 : S64x384.Idx → Elt F .f32) := by
  funext j
  show V c main_v5 (((cfg1.win 0).blk t).view.emb j) = V c main_v5 j
  exact congrArg _ (emb1_0 t j)
theorem iblk1_1_eq (c : Dev nD) (t : Fin cfg1.N) : (iblk1 V c 1 t : S384x128.Idx → Elt F .f32) = (V c main_arg7 : S384x128.Idx → Elt F .f32) := by
  funext j
  show V c main_arg7 (((cfg1.win 1).blk t).view.emb j) = V c main_arg7 j
  exact congrArg _ (emb1_1 t j)
theorem iblk1_2_eq (c : Dev nD) (t : Fin cfg1.N) : (iblk1 V c 2 t : S128.Idx → Elt F .f32) = (V c main_arg8 : S128.Idx → Elt F .f32) := by
  funext j
  show V c main_arg8 (((cfg1.win 2).blk t).view.emb j) = V c main_arg8 j
  exact congrArg _ (emb1_2 t j)
theorem iblk1_3_eq (c : Dev nD) (t : Fin cfg1.N) : (iblk1 V c 3 t : S128x128.Idx → Elt F .f32) = (V c main_arg9 : S128x128.Idx → Elt F .f32) := by
  funext j
  show V c main_arg9 (((cfg1.win 3).blk t).view.emb j) = V c main_arg9 j
  exact congrArg _ (emb1_3 t j)
theorem iblk1_4_eq (c : Dev nD) (t : Fin cfg1.N) : (iblk1 V c 4 t : S128.Idx → Elt F .f32) = (V c main_arg10 : S128.Idx → Elt F .f32) := by
  funext j
  show V c main_arg10 (((cfg1.win 4).blk t).view.emb j) = V c main_arg10 j
  exact congrArg _ (emb1_4 t j)

/-- and the output array holds the network's value of the five input arrays. -/
theorem arrAt1_5 (c : Dev nD) :
    ((dat1 V c).arrAt 5 cfg1.N : S64x128.Idx → Elt F .f32)
      = k1_pay1 (V c main_v5 : S64x384.Idx → Elt F .f32) (V c main_arg7 : S384x128.Idx → Elt F .f32) (V c main_arg8 : S128.Idx → Elt F .f32)
          (V c main_arg9 : S128x128.Idx → Elt F .f32) (V c main_arg10 : S128.Idx → Elt F .f32) := by
  refine (dat1 V c).arrAt_eq_of_cover 5
    (k1_pay1 (V c main_v5 : S64x384.Idx → Elt F .f32) (V c main_arg7 : S384x128.Idx → Elt F .f32) (V c main_arg8 : S128.Idx → Elt F .f32)
      (V c main_arg9 : S128x128.Idx → Elt F .f32) (V c main_arg10 : S128.Idx → Elt F .f32))
    (fun t _ => ?_) (fun i => ⟨t1_0, flush1_5 _, ?_⟩)
  · show (cfg1.win 5).cut (grid1.coords t) ((dat1 V c).after 5 t) = _
    rw [after1_5, iblk1_0_eq, iblk1_1_eq, iblk1_2_eq, iblk1_3_eq, iblk1_4_eq]
    funext j
    show k1_pay1 (V c main_v5 : S64x384.Idx → Elt F .f32) (V c main_arg7 : S384x128.Idx → Elt F .f32) (V c main_arg8 : S128.Idx → Elt F .f32)
        (V c main_arg9 : S128x128.Idx → Elt F .f32) (V c main_arg10 : S128.Idx → Elt F .f32) j
      = k1_pay1 (V c main_v5 : S64x384.Idx → Elt F .f32) (V c main_arg7 : S384x128.Idx → Elt F .f32) (V c main_arg8 : S128.Idx → Elt F .f32)
        (V c main_arg9 : S128x128.Idx → Elt F .f32) (V c main_arg10 : S128.Idx → Elt F .f32) (((cfg1.win 5).blk t).view.emb j)
    exact (congrArg _ (emb1_5 t j)).symm
  · have h := ((cfg1.win 5).blk t1_0).view.emb_mem_set i
    rwa [emb1_5] at h

end Cert.KernelIdeal.Hand

end
-- ==== Proof.Run.lean ====
/-
  The kernel program's run from launch to return. @main is eight stretches of host operations (the constants and
  the four paddings), the scatter-mean region, one host operation (the three pieces side by side), and the
  network's region. Between segments a core holds every unscoped buffer at named contents: the launch memory
  folded through the host stretches, each region's arrays replaced by what its write-backs leave. Every weakly
  fair execution terminates; the result buffer ends at the network's value of the pieces, and no segment
  writes an argument array.
-/
import proofs.«406569_j31748398252730_1_alg».proof.Proof.R0Dat
import proofs.«406569_j31748398252730_1_alg».proof.Proof.R1
import proofs.«406569_j31748398252730_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-! ## The buffers' contents at each segment boundary -/

/-- Before the scatter-mean region: the launch memory folded through the eight host stretches. -/
abbrev W8 : Dev nD → Valuation τ sig (Elt F) := fun c => Gen.V8 m c
abbrev V8r : (c : Dev nD) → (b : Ref sig .tc) → Buf (Elt F) ((c : Thread nD τ).loc b) := fun c b => W8 m c b

/-- After it: its arrays at what its write-backs leave, every other buffer as entered. -/
def W9 (c : Dev nD) : Valuation τ sig (Elt F) :=
  Pipeline.withArrays spec0 c (W8 m c) fun w => (dat0 (V8r m) c).arrAt w cfg0.N
theorem W9_arr (c : Dev nD) (w : Fin cfg0.W) :
    W9 m c (Proc.devRef .tc (Pipeline.arrRef spec0 w)) = (dat0 (V8r m) c).arrAt w cfg0.N := by
  unfold W9; exact Pipeline.withArrays_arr spec0 launch0.win.arr_inj c _ _ w
theorem W9_of_ne (c : Dev nD) (b : Ref sig .tc) (hb : ∀ w, Pipeline.arrRef spec0 w ≠ b) :
    W9 m c (Proc.devRef .tc b) = W8 m c (Proc.devRef .tc b) := by
  unfold W9; exact Pipeline.withArrays_of_ne spec0 c _ _ b hb
abbrev V9r : (c : Dev nD) → (b : Ref sig .tc) → Buf (Elt F) ((c : Thread nD τ).loc b) := fun c b => W9 m c b
theorem hF0 (c : Dev nD) (w : Fin cfg0.W) : (dat0 (V8r m) c).arrAt w cfg0.N = V9r m c (Pipeline.arrRef spec0 w) :=
  (W9_arr m c w).symm
theorem hrest0 (c : Dev nD) : ∀ b, b ∉ Finset.univ.image (Pipeline.arrRef spec0) → V9r m c b = V8r m c b :=
  fun b hb => W9_of_ne m c b fun w e => hb (Finset.mem_image.mpr ⟨w, Finset.mem_univ _, e⟩)

/-- After the one host operation between the regions. -/
abbrev W10 : Dev nD → Valuation τ sig (Elt F) := fun c => StableHlo.after hostOps1 (W9 m c)
abbrev V10r : (c : Dev nD) → (b : Ref sig .tc) → Buf (Elt F) ((c : Thread nD τ).loc b) := fun c b => W10 m c b

/-- After the network's region. -/
def W11 (c : Dev nD) : Valuation τ sig (Elt F) :=
  Pipeline.withArrays spec1 c (W10 m c) fun w => (dat1 (V10r m) c).arrAt w cfg1.N
theorem W11_arr (c : Dev nD) (w : Fin cfg1.W) :
    W11 m c (Proc.devRef .tc (Pipeline.arrRef spec1 w)) = (dat1 (V10r m) c).arrAt w cfg1.N := by
  unfold W11; exact Pipeline.withArrays_arr spec1 launch1.win.arr_inj c _ _ w
theorem W11_of_ne (c : Dev nD) (b : Ref sig .tc) (hb : ∀ w, Pipeline.arrRef spec1 w ≠ b) :
    W11 m c (Proc.devRef .tc b) = W10 m c (Proc.devRef .tc b) := by
  unfold W11; exact Pipeline.withArrays_of_ne spec1 c _ _ b hb
abbrev V11r : (c : Dev nD) → (b : Ref sig .tc) → Buf (Elt F) ((c : Thread nD τ).loc b) := fun c b => W11 m c b
theorem hF1 (c : Dev nD) (w : Fin cfg1.W) : (dat1 (V10r m) c).arrAt w cfg1.N = V11r m c (Pipeline.arrRef spec1 w) :=
  (W11_arr m c w).symm
theorem hrest1 (c : Dev nD) : ∀ b, b ∉ Finset.univ.image (Pipeline.arrRef spec1) → V11r m c b = V10r m c b :=
  fun b hb => W11_of_ne m c b fun w e => hb (Finset.mem_image.mpr ⟨w, Finset.mem_univ _, e⟩)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (V8r m) c
  | ⟨1, _⟩ => fun c => dat1 (V10r m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R (F := F) c

/-- The host operation between the regions as a segment. -/
def seg9 : HostSeg (Ix := Unit) (Name := ℕ) (U := UR sig nD τ) (Lvl := ℕ) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp Gen.hostOps1_fresh) op h) (W9 m) (E 1)

/-- The last thread state without the owes. -/
abbrev Tₙ (c : Dev nD) : sProp 𝕄 := iprop(StableHlo.held (c : Thread nD τ) (Pipeline.ucRefs τ sig) (W11 m c) ∗ ∃ r, prngReg c r)

/-! ## The regions as segments -/

set_option backward.isDefEq.respectTransparency.types false in
/-- The scatter-mean region: entered from every unscoped buffer at W8, left at W9. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V8r m) c).loose
  hwaits := Pipeline.hwaits_of_owed_zero _ _ _ _ L lv 0 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec0 c (V8r m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (V8r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V8r m) c).Φ 0 from rfl]
    iintro ⟨Hp, -, Hr⟩
    iapply (hin0 (V8r m) c)
    isplitl [Hp]; · iexact Hp
    iexact Hr
  hout c := by
    rw [Pipeline.ownSems0_none, show (pdats m 0 c).Φ (Fin.last _) = (dat0 (V8r m) c).Φ (Fin.last cfg0.N) from rfl]
    refine (hout0 (V8r m) c).trans ?_
    iintro ⟨Hp, Hr⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (V8r m c) (V9r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The network's region: entered from every unscoped buffer at W10, left at W11. -/
def reg1 : RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V10r m) c).loose
  hwaits := Pipeline.hwaits_of_owed_zero _ _ _ _ L lv 1 fun _ _ => rfl
  pre c := iprop(StableHlo.held (c : Thread nD τ) (Pipeline.ucRefs τ sig) (W10 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V10r m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (V10r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (V10r m c) (V11r m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eleven segments in order. -/
abbrev segs (c : Dev nD) : List (Seg (pcfgs (F := F)) Gen.adm (pdats m) () defs₀ 𝒱₀ L lv) :=
  [.host (Gen.seg0 m 𝒱₀ L lv E), .host (Gen.seg1 m 𝒱₀ L lv E), .host (Gen.seg2 m 𝒱₀ L lv E), .host (Gen.seg3 m 𝒱₀ L lv E),
   .host (Gen.seg4 m 𝒱₀ L lv E), .host (Gen.seg5 m 𝒱₀ L lv E), .host (Gen.seg6 m 𝒱₀ L lv E), .host (Gen.seg7 m 𝒱₀ L lv E),
   .region (reg0 m), .host (seg9 m), .region (reg1 m)]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of @main from memory m with zero counters terminates, and in every final state each
    core's unscoped buffers hold the last boundary's contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W11 m c b) := by
  refine Pipeline.θ_run_regions_kit_dev (pcfgs (F := F)) Gen.adm (pdats m) () cellOf_inj emb₁ defs₀ 𝒱₀ L lv m ρ main
    (segs m)
    (fun c Q => by
      rewrite [main_chain c, Seg.run_eq_chain,
        show (segs m c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := Tₙ m)
    (hch := fun c => ⟨.rfl, .rfl, .rfl, .rfl, .rfl, .rfl, .rfl, .rfl, .rfl, .rfl, .rfl, .rfl⟩)
    (hinit := ?_)
    (QY := fun c s => ∀ b ∈ Pipeline.ucRefs τ sig, s.mem (((c : Thread nD τ)).1, b) = W11 m c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · iintro ⟨⟨Hh, -⟩, HSI⟩
    unfold StableHlo.held
    imodintro
    iapply (pointsTo_read_all (Pipeline.ucRefs τ sig) (fun b => (((c : Thread nD τ)).1, b)) (W11 m c) s')
    isplitl [Hh] <;> iassumption

end Cert.KernelIdeal.Hand

end
-- ==== Proof.RunVal.lean ====
/-
  What the boundary contents hold where the claims read them. The padded node rows and ids the scatter-mean region
  enters with are the paddings of the argument arrays; the network's region enters with the three pieces side by
  side (the first an argument, the other two the scatter-mean region's results) and four argument arrays; its
  result is the network's value of them; and every argument array reaches the end as launched. The run, stated
  with the result buffer and the eleven argument arrays in its post.
-/
import proofs.«406569_j31748398252730_1_alg».proof.Proof.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)
open Cert.KernelIdeal.Facts₀

variable (m : (ℓ : Loc nD τ sig) → Buf (Elt F) ℓ)

/-! ## The scatter-mean region's entry arrays -/

theorem W8_v0 (c : Dev nD) : (V8r m c main_v0 : S503808x128.Idx → Elt F .f32)
    = pad S503808x128 ![0, 0] ![3808, 0] ![0, 0] (m ((c.tc : Thread nD τ).loc main_arg0)) (sitofp .f32 (constantI S_ 32 0#32)) Facts₀.pads_S500000x128_S503808x128_038080_000 Facts₀.h_S_ :=
  ((Gen.V8_of m c main_v0 (by decide)).trans <| (Gen.V7_of m c main_v0 (by decide)).trans <| (Gen.V6_of m c main_v0 (by decide)).trans <| (Gen.V5_of m c main_v0 (by decide)).trans <| (Gen.V4_of m c main_v0 (by decide)).trans <| (Gen.V3_of m c main_v0 (by decide))).trans (by
    show StableHlo.after hostOps0_1 (Gen.V1 m c) (Proc.devRef .tc main_v0) = _
    after_results
    rfl)

theorem W8_v1 (c : Dev nD) : (V8r m c main_v1 : S503808x128.Idx → Elt F .f32)
    = pad S503808x128 ![0, 0] ![3808, 0] ![0, 0] (m ((c.tc : Thread nD τ).loc main_arg1)) (sitofp .f32 (constantI S_ 32 0#32)) Facts₀.pads_S500000x128_S503808x128_038080_000 Facts₀.h_S_ :=
  ((Gen.V8_of m c main_v1 (by decide)).trans <| (Gen.V7_of m c main_v1 (by decide)).trans <| (Gen.V6_of m c main_v1 (by decide)).trans <| (Gen.V5_of m c main_v1 (by decide))).trans (by
    show StableHlo.after hostOps0_3 (Gen.V3 m c) (Proc.devRef .tc main_v1) = _
    after_results
    rfl)

theorem W8_v2 (c : Dev nD) : (V8r m c main_v2 : S503808.Idx → BitVec 32)
    = pad S503808 ![0] ![3808] ![0] (m ((c.tc : Thread nD τ).loc main_arg5)) (id (constantI S_ 32 4294967295#32)) Facts₀.pads_S500000_S503808_038080 Facts₀.h_S_ :=
  ((Gen.V8_of m c main_v2 (by decide)).trans <| (Gen.V7_of m c main_v2 (by decide))).trans (by
    show StableHlo.after hostOps0_5 (Gen.V5 m c) (Proc.devRef .tc main_v2) = _
    after_results
    rfl)

theorem W8_v3 (c : Dev nD) : (V8r m c main_v3 : S503808.Idx → BitVec 32)
    = pad S503808 ![0] ![3808] ![0] (m ((c.tc : Thread nD τ).loc main_arg6)) (id (constantI S_ 32 4294967295#32)) Facts₀.pads_S500000_S503808_038080 Facts₀.h_S_ := by
  show StableHlo.after hostOps0_7 (Gen.V7 m c) (Proc.devRef .tc main_v3) = _
  after_results
  rfl

/-- No host stretch before the scatter-mean region writes an argument array. -/
theorem W8_arg (c : Dev nD) (b : Ref sig .tc)
    (h0 : b ∉ Gen.hostOps0_W) (h1 : b ∉ Gen.hostOps0_1_W) (h2 : b ∉ Gen.hostOps0_2_W) (h3 : b ∉ Gen.hostOps0_3_W)
    (h4 : b ∉ Gen.hostOps0_4_W) (h5 : b ∉ Gen.hostOps0_5_W) (h6 : b ∉ Gen.hostOps0_6_W) (h7 : b ∉ Gen.hostOps0_7_W) :
    W8 m c (Proc.devRef .tc b) = m ((c.tc : Thread nD τ).loc b) :=
  (Gen.V8_of m c b h7).trans <| (Gen.V7_of m c b h6).trans <| (Gen.V6_of m c b h5).trans <| (Gen.V5_of m c b h4).trans <|
    (Gen.V4_of m c b h3).trans <| (Gen.V3_of m c b h2).trans <| (Gen.V2_of m c b h1).trans <| (Gen.V1_of m c b h0).trans rfl

/-- Nor does the host operation between the regions, and the scatter-mean region writes only its two results. -/
theorem W10_of (c : Dev nD) (b : Ref sig .tc) (hb : b ∉ Gen.hostOps1_W) (hw : ∀ w, Pipeline.arrRef spec0 w ≠ b) :
    W10 m c (Proc.devRef .tc b) = W8 m c (Proc.devRef .tc b) :=
  (StableHlo.after_of_writes_sub hostOps1 _ Gen.hostOps1_writes hb).trans (W9_of_ne m c b hw)

/-! ## The result -/

/-- The kernel program's result on core c, from the launch memory. -/
def kres (c : Dev nD) : S64x128.Idx → Elt F .f32 :=
  k1_pay1
    (concatenate S64x384 1 [⟨S64x128, m ((c.tc : Thread nD τ).loc main_arg4)⟩,
        ⟨S64x128, k0_pay3 (acc (V8r m) c 123).1 (acc (V8r m) c 123).2.1⟩,
        ⟨S64x128, k0_pay4 (acc (V8r m) c 123).2.2.1 (acc (V8r m) c 123).2.2.2⟩] Facts₀.concatenates_S64x128_S64x128_S64x128_S64x384_d1)
    (m ((c.tc : Thread nD τ).loc main_arg7)) (m ((c.tc : Thread nD τ).loc main_arg8)) (m ((c.tc : Thread nD τ).loc main_arg9)) (m ((c.tc : Thread nD τ).loc main_arg10))

theorem W11_v6 (c : Dev nD) : (W11 m c (Proc.devRef .tc main_v6) : S64x128.Idx → Elt F .f32) = kres m c := by
  have e4 : W9 m c (Proc.devRef .tc main_arg4) = m ((c.tc : Thread nD τ).loc main_arg4) :=
    (W9_of_ne m c main_arg4 (by decide)).trans (W8_arg m c main_arg4 (by decide) (by decide) (by decide) (by decide) (by decide) (by decide) (by decide) (by decide))
  have e40 : (W9 m c (Proc.devRef .tc main_v4_0) : S64x128.Idx → Elt F .f32) = k0_pay3 (acc (V8r m) c 123).1 (acc (V8r m) c 123).2.1 :=
    (W9_arr m c 4).trans (arrAt0_4 (V8r m) c)
  have e41 : (W9 m c (Proc.devRef .tc main_v4_1) : S64x128.Idx → Elt F .f32) = k0_pay4 (acc (V8r m) c 123).2.2.1 (acc (V8r m) c 123).2.2.2 :=
    (W9_arr m c 5).trans (arrAt0_5 (V8r m) c)
  have e5 : (W10 m c (Proc.devRef .tc main_v5) : S64x384.Idx → Elt F .f32)
      = concatenate S64x384 1 [⟨S64x128, m ((c.tc : Thread nD τ).loc main_arg4)⟩,
          ⟨S64x128, k0_pay3 (acc (V8r m) c 123).1 (acc (V8r m) c 123).2.1⟩,
          ⟨S64x128, k0_pay4 (acc (V8r m) c 123).2.2.1 (acc (V8r m) c 123).2.2.2⟩] Facts₀.concatenates_S64x128_S64x128_S64x128_S64x384_d1 := by
    show StableHlo.after hostOps1 (W9 m c) (Proc.devRef .tc main_v5) = _
    after_results
    show concatenate S64x384 1 [⟨S64x128, W9 m c (Proc.devRef .tc main_arg4)⟩, ⟨S64x128, W9 m c (Proc.devRef .tc main_v4_0)⟩,
        ⟨S64x128, W9 m c (Proc.devRef .tc main_v4_1)⟩] _ = _
    rw [e4, e40, e41]
  have e7 : W10 m c (Proc.devRef .tc main_arg7) = m ((c.tc : Thread nD τ).loc main_arg7) := (W10_of m c main_arg7 (by decide) (by decide)).trans (W8_arg m c main_arg7 (by decide) (by decide) (by decide) (by decide) (by decide) (by decide) (by decide) (by decide))
  have e8 : W10 m c (Proc.devRef .tc main_arg8) = m ((c.tc : Thread nD τ).loc main_arg8) := (W10_of m c main_arg8 (by decide) (by decide)).trans (W8_arg m c main_arg8 (by decide) (by decide) (by decide) (by decide) (by decide) (by decide) (by decide) (by decide))
  have e9 : W10 m c (Proc.devRef .tc main_arg9) = m ((c.tc : Thread nD τ).loc main_arg9) := (W10_of m c main_arg9 (by decide) (by decide)).trans (W8_arg m c main_arg9 (by decide) (by decide) (by decide) (by decide) (by decide) (by decide) (by decide) (by decide))
  have e10 : W10 m c (Proc.devRef .tc main_arg10) = m ((c.tc : Thread nD τ).loc main_arg10) := (W10_of m c main_arg10 (by decide) (by decide)).trans (W8_arg m c main_arg10 (by decide) (by decide) (by decide) (by decide) (by decide) (by decide) (by decide) (by decide))
  refine ((W11_arr m c 5).trans (arrAt1_5 (V10r m) c)).trans ?_
  unfold kres
  show k1_pay1 (W10 m c (Proc.devRef .tc main_v5)) (W10 m c (Proc.devRef .tc main_arg7)) (W10 m c (Proc.devRef .tc main_arg8))
      (W10 m c (Proc.devRef .tc main_arg9)) (W10 m c (Proc.devRef .tc main_arg10)) = _
  rw [e5, e7, e8, e9, e10]

/-! ## The arguments -/

theorem W11_arg (c : Dev nD) :
    W11 m c (Proc.devRef .tc main_arg0) = m ((c.tc : Thread nD τ).loc main_arg0) ∧
    W11 m c (Proc.devRef .tc main_arg1) = m ((c.tc : Thread nD τ).loc main_arg1) ∧
    W11 m c (Proc.devRef .tc main_arg2) = m ((c.tc : Thread nD τ).loc main_arg2) ∧
    W11 m c (Proc.devRef .tc main_arg3) = m ((c.tc : Thread nD τ).loc main_arg3) ∧
    W11 m c (Proc.devRef .tc main_arg4) = m ((c.tc : Thread nD τ).loc main_arg4) ∧
    W11 m c (Proc.devRef .tc main_arg5) = m ((c.tc : Thread nD τ).loc main_arg5) ∧
    W11 m c (Proc.devRef .tc main_arg6) = m ((c.tc : Thread nD τ).loc main_arg6) ∧
    W11 m c (Proc.devRef .tc main_arg7) = m ((c.tc : Thread nD τ).loc main_arg7) ∧
    W11 m c (Proc.devRef .tc main_arg8) = m ((c.tc : Thread nD τ).loc main_arg8) ∧
    W11 m c (Proc.devRef .tc main_arg9) = m ((c.tc : Thread nD τ).loc main_arg9) ∧
    W11 m c (Proc.devRef .tc main_arg10) = m ((c.tc : Thread nD τ).loc main_arg10) :=
  ⟨(W11_of_ne m c main_arg0 (by decide)).trans ((W10_of m c main_arg0 (by decide) (by decide)).trans (W8_arg m c main_arg0 (by decide) (by decide) (by decide) (by decide) (by decide) (by decide) (by decide) (by decide))),
   (W11_of_ne m c main_arg1 (by decide)).trans ((W10_of m c main_arg1 (by decide) (by decide)).trans (W8_arg m c main_arg1 (by decide) (by decide) (by decide) (by decide) (by decide) (by decide) (by decide) (by decide))),
   (W11_of_ne m c main_arg2 (by decide)).trans ((W10_of m c main_arg2 (by decide) (by decide)).trans (W8_arg m c main_arg2 (by decide) (by decide) (by decide) (by decide) (by decide) (by decide) (by decide) (by decide))),
   (W11_of_ne m c main_arg3 (by decide)).trans ((W10_of m c main_arg3 (by decide) (by decide)).trans (W8_arg m c main_arg3 (by decide) (by decide) (by decide) (by decide) (by decide) (by decide) (by decide) (by decide))),
   (W11_of_ne m c main_arg4 (by decide)).trans ((W10_of m c main_arg4 (by decide) (by decide)).trans (W8_arg m c main_arg4 (by decide) (by decide) (by decide) (by decide) (by decide) (by decide) (by decide) (by decide))),
   (W11_of_ne m c main_arg5 (by decide)).trans ((W10_of m c main_arg5 (by decide) (by decide)).trans (W8_arg m c main_arg5 (by decide) (by decide) (by decide) (by decide) (by decide) (by decide) (by decide) (by decide))),
   (W11_of_ne m c main_arg6 (by decide)).trans ((W10_of m c main_arg6 (by decide) (by decide)).trans (W8_arg m c main_arg6 (by decide) (by decide) (by decide) (by decide) (by decide) (by decide) (by decide) (by decide))),
   (W11_arr m c 1).trans ((arrAt1_in (V10r m) c 1 (by decide)).trans ((W10_of m c main_arg7 (by decide) (by decide)).trans (W8_arg m c main_arg7 (by decide) (by decide) (by decide) (by decide) (by decide) (by decide) (by decide) (by decide)))),
   (W11_arr m c 2).trans ((arrAt1_in (V10r m) c 2 (by decide)).trans ((W10_of m c main_arg8 (by decide) (by decide)).trans (W8_arg m c main_arg8 (by decide) (by decide) (by decide) (by decide) (by decide) (by decide) (by decide) (by decide)))),
   (W11_arr m c 3).trans ((arrAt1_in (V10r m) c 3 (by decide)).trans ((W10_of m c main_arg9 (by decide) (by decide)).trans (W8_arg m c main_arg9 (by decide) (by decide) (by decide) (by decide) (by decide) (by decide) (by decide) (by decide)))),
   (W11_arr m c 4).trans ((arrAt1_in (V10r m) c 4 (by decide)).trans ((W10_of m c main_arg10 (by decide) (by decide)).trans (W8_arg m c main_arg10 (by decide) (by decide) (by decide) (by decide) (by decide) (by decide) (by decide) (by decide))))⟩

/-! ## The run -/

theorem run_main (ρ : Dev nD → PrngReg) :
    θ_run defs (onTc (τ := τ) (main (F := F))) ⟨m, fun _ => 0, ρ⟩ (fun r => ∀ c : Dev nD,
      r.2.mem ((c.tc : Thread nD τ).loc main_v6) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine (θ_run defs _ _).mono (fun r h c => ?_) (run_all m ρ)
  have hv := h c _ (mem_uc main_v6 (by decide))
  obtain ⟨a0, a1, a2, a3, a4, a5, a6, a7, a8, a9, a10⟩ := W11_arg m c
  exact ⟨hv.trans (W11_v6 m c),
    (h c _ (mem_uc main_arg0 (by decide))).trans a0, (h c _ (mem_uc main_arg1 (by decide))).trans a1,
    (h c _ (mem_uc main_arg2 (by decide))).trans a2, (h c _ (mem_uc main_arg3 (by decide))).trans a3,
    (h c _ (mem_uc main_arg4 (by decide))).trans a4, (h c _ (mem_uc main_arg5 (by decide))).trans a5,
    (h c _ (mem_uc main_arg6 (by decide))).trans a6, (h c _ (mem_uc main_arg7 (by decide))).trans a7,
    (h c _ (mem_uc main_arg8 (by decide))).trans a8, (h c _ (mem_uc main_arg9 (by decide))).trans a9,
    (h c _ (mem_uc main_arg10 (by decide))).trans a10⟩

end Cert.KernelIdeal.Hand

end
-- ==== Proof.RefTerm.lean ====
/-
  The reference's result as one term of its argument arrays, stage by stage as its host program computes it:
  each node set's segment mean (the rows scattered and added into 64 segments by their ids, over the segment's
  count, the count at least one), the three 128-column pieces side by side, and the two-layer network with the
  leaky rectifier between the layers.
-/
import proofs.«406569_j31748398252730_1_alg».proof.Proof.Gen.ReferenceIdeal

noncomputable section

namespace Cert.ReferenceIdeal.Hand

open Idealize.ShloMosaic Idealize.SL.Sem
open Cert.ReferenceIdeal
open Cert.ReferenceIdeal.Facts₀

variable {F : FTy → Type} [FloatOps F]

/-- One node set's segment mean: the rows added into their segments, over the segments' counts (at least one). -/
def refMean (x : FVec F S500000x128 .f32) (ids : IVec S500000 32) : FVec F S64x128 .f32 :=
  Host.divf
    (Host.scatterAdd scatter_S64x128_S500000x1_S500000x128_1_0_0_1
      (broadcastInDim S64x128 ![] bcast_S_S64x128 (constant S_ .f32 0x00000000#32))
      (broadcastInDim S500000x1 ![0] bcast_S500000_S500000x1_0 ids) x)
    (broadcastInDim S64x128 ![0, 1] bcast_S64x1_S64x128_0_1
      (broadcastInDim S64x1 ![0] bcast_S64_S64x1_0
        (maximumf
          (Host.scatterAdd scatter_S64_S500000x1_S500000_n_0_0_1
            (broadcastInDim S64 ![] bcast_S_S64 (constant S_ .f32 0x00000000#32))
            (broadcastInDim S500000x1 ![0] bcast_S500000_S500000x1_0 ids)
            (broadcastInDim S500000 ![] bcast_S_S500000 (constant S_ .f32 0x3F800000#32)))
          (broadcastInDim S64 ![] bcast_S_S64 (constant S_ .f32 0x3F800000#32)))))

/-- The three pieces side by side. -/
def refCat (u a b : FVec F S64x128 .f32) : FVec F S64x384 .f32 :=
  concatenate S64x384 1 [⟨S64x128, u⟩, ⟨S64x128, a⟩, ⟨S64x128, b⟩] concatenates_S64x128_S64x128_S64x128_S64x384_d1

/-- The first layer before the rectifier: the product with the weights plus the bias along rows. -/
def refLin1 (x : FVec F S64x384 .f32) (W1 : FVec F S384x128 .f32) (b1 : FVec F S128 .f32) : FVec F S64x128 .f32 :=
  addf (Host.dotGeneral dot_S64x384_S384x128_S64x128_1_0_0_1_n_n none x W1)
    (broadcastInDim S64x128 ![0, 1] bcast_S1x128_S64x128_0_1 (broadcastInDim S1x128 ![1] bcast_S128_S1x128_1 b1))

/-- The leaky rectifier: the value where it is at least zero, a tenth of it (the f32 nearest 0.1) elsewhere. -/
def refLeaky (h : FVec F S64x128 .f32) : FVec F S64x128 .f32 :=
  select (cmpf .oge h (broadcastInDim S64x128 ![] bcast_S_S64x128 (constant S_ .f32 0x00000000#32))) h
    (mulf (broadcastInDim S64x128 ![] bcast_S_S64x128 (id (constant S_ .f32 0x3DCCCCCD#32))) h)

/-- The second layer. -/
def refLin2 (a : FVec F S64x128 .f32) (W2 : FVec F S128x128 .f32) (b2 : FVec F S128 .f32) : FVec F S64x128 .f32 :=
  addf (Host.dotGeneral dot_S64x128_S128x128_S64x128_1_0_0_1_n_n none a W2)
    (broadcastInDim S64x128 ![0, 1] bcast_S1x128_S64x128_0_1 (broadcastInDim S1x128 ![1] bcast_S128_S1x128_1 b2))

/-- The reference's result. -/
def refVal (xh xg : FVec F S500000x128 .f32) (u : FVec F S64x128 .f32) (bh bg : IVec S500000 32)
    (W1 : FVec F S384x128 .f32) (b1 : FVec F S128 .f32) (W2 : FVec F S128x128 .f32) (b2 : FVec F S128 .f32) : FVec F S64x128 .f32 :=
  refLin2 (refLeaky (refLin1 (refCat u (refMean xh bh) (refMean xg bg)) W1 b1)) W2 b2

end Cert.ReferenceIdeal.Hand

end
-- ==== Proof.RefRun.lean ====
/-
  The reference's host program run to its end: a straight line of host operations (the leaky rectifier's and its
  select's lines standing at their call), so every weakly fair execution terminates with each buffer at the
  operations' fold over the launch contents; the result buffer's fold is the reference's term of the argument
  arrays, and no operation writes an argument.
-/
import proofs.«406569_j31748398252730_1_alg».proof.Proof.RefTerm
import Idealize.ShloMosaic.Lib.StableHlo.Run

noncomputable section

namespace Cert.ReferenceIdeal.Hand

open Idealize.ShloMosaic Idealize.SL.Sem
open Cert.ReferenceIdeal
open Cert.ReferenceIdeal.Facts₀

variable {F : FTy → Type} [FloatOps F]

section Line

open Idealize.ShloMosaic.StableHlo Idealize.ShloMosaic.TcCoe

/-- @main's operations in order. The leaky rectifier's call stands as its body's six lines over the call's
    buffers followed by its select's one line, whose result buffer is the call's. -/
abbrev ops : List (HloOp τ sig (Elt F)) :=
  [ StableHlo.nullary main_cst (constant S_ .f32 0x00000000#32),
    StableHlo.unary main_cst main_v0 (broadcastInDim S64x128 ![] bcast_S_S64x128 : (⟨S_, .f32⟩ : BufTy).Contents (Elt F) → (⟨S64x128, .f32⟩ : BufTy).Contents (Elt F)),
    StableHlo.unary main_arg5 main_v1 (broadcastInDim S500000x1 ![0] bcast_S500000_S500000x1_0 : (⟨S500000, .i32⟩ : BufTy).Contents (Elt F) → (⟨S500000x1, .i32⟩ : BufTy).Contents (Elt F)),
    StableHlo.ternary main_v0 main_v1 main_arg0 main_v2 ((fun x i u => Host.scatterAdd scatter_S64x128_S500000x1_S500000x128_1_0_0_1 x i u) : (⟨S64x128, .f32⟩ : BufTy).Contents (Elt F) → (⟨S500000x1, .i32⟩ : BufTy).Contents (Elt F) → (⟨S500000x128, .f32⟩ : BufTy).Contents (Elt F) → (⟨S64x128, .f32⟩ : BufTy).Contents (Elt F)),
    StableHlo.nullary main_cst_0 (constant S_ .f32 0x3F800000#32),
    StableHlo.unary main_cst_0 main_v3 (broadcastInDim S500000 ![] bcast_S_S500000 : (⟨S_, .f32⟩ : BufTy).Contents (Elt F) → (⟨S500000, .f32⟩ : BufTy).Contents (Elt F)),
    StableHlo.nullary main_cst_1 (constant S_ .f32 0x00000000#32),
    StableHlo.unary main_cst_1 main_v4 (broadcastInDim S64 ![] bcast_S_S64 : (⟨S_, .f32⟩ : BufTy).Contents (Elt F) → (⟨S64, .f32⟩ : BufTy).Contents (Elt F)),
    StableHlo.unary main_arg5 main_v5 (broadcastInDim S500000x1 ![0] bcast_S500000_S500000x1_0 : (⟨S500000, .i32⟩ : BufTy).Contents (Elt F) → (⟨S500000x1, .i32⟩ : BufTy).Contents (Elt F)),
    StableHlo.ternary main_v4 main_v5 main_v3 main_v6 ((fun x i u => Host.scatterAdd scatter_S64_S500000x1_S500000_n_0_0_1 x i u) : (⟨S64, .f32⟩ : BufTy).Contents (Elt F) → (⟨S500000x1, .i32⟩ : BufTy).Contents (Elt F) → (⟨S500000, .f32⟩ : BufTy).Contents (Elt F) → (⟨S64, .f32⟩ : BufTy).Contents (Elt F)),
    StableHlo.nullary main_cst_2 (constant S_ .f32 0x3F800000#32),
    StableHlo.unary main_cst_2 main_v7 (broadcastInDim S64 ![] bcast_S_S64 : (⟨S_, .f32⟩ : BufTy).Contents (Elt F) → (⟨S64, .f32⟩ : BufTy).Contents (Elt F)),
    StableHlo.binary main_v6 main_v7 main_v8 (maximumf : (⟨S64, .f32⟩ : BufTy).Contents (Elt F) → (⟨S64, .f32⟩ : BufTy).Contents (Elt F) → (⟨S64, .f32⟩ : BufTy).Contents (Elt F)),
    StableHlo.unary main_v8 main_v9 (broadcastInDim S64x1 ![0] bcast_S64_S64x1_0 : (⟨S64, .f32⟩ : BufTy).Contents (Elt F) → (⟨S64x1, .f32⟩ : BufTy).Contents (Elt F)),
    StableHlo.unary main_v9 main_v10 (broadcastInDim S64x128 ![0, 1] bcast_S64x1_S64x128_0_1 : (⟨S64x1, .f32⟩ : BufTy).Contents (Elt F) → (⟨S64x128, .f32⟩ : BufTy).Contents (Elt F)),
    StableHlo.binary main_v2 main_v10 main_v11 (Host.divf : (⟨S64x128, .f32⟩ : BufTy).Contents (Elt F) → (⟨S64x128, .f32⟩ : BufTy).Contents (Elt F) → (⟨S64x128, .f32⟩ : BufTy).Contents (Elt F)),
    StableHlo.nullary main_cst_3 (constant S_ .f32 0x00000000#32),
    StableHlo.unary main_cst_3 main_v12 (broadcastInDim S64x128 ![] bcast_S_S64x128 : (⟨S_, .f32⟩ : BufTy).Contents (Elt F) → (⟨S64x128, .f32⟩ : BufTy).Contents (Elt F)),
    StableHlo.unary main_arg6 main_v13 (broadcastInDim S500000x1 ![0] bcast_S500000_S500000x1_0 : (⟨S500000, .i32⟩ : BufTy).Contents (Elt F) → (⟨S500000x1, .i32⟩ : BufTy).Contents (Elt F)),
    StableHlo.ternary main_v12 main_v13 main_arg1 main_v14 ((fun x i u => Host.scatterAdd scatter_S64x128_S500000x1_S500000x128_1_0_0_1 x i u) : (⟨S64x128, .f32⟩ : BufTy).Contents (Elt F) → (⟨S500000x1, .i32⟩ : BufTy).Contents (Elt F) → (⟨S500000x128, .f32⟩ : BufTy).Contents (Elt F) → (⟨S64x128, .f32⟩ : BufTy).Contents (Elt F)),
    StableHlo.nullary main_cst_4 (constant S_ .f32 0x3F800000#32),
    StableHlo.unary main_cst_4 main_v15 (broadcastInDim S500000 ![] bcast_S_S500000 : (⟨S_, .f32⟩ : BufTy).Contents (Elt F) → (⟨S500000, .f32⟩ : BufTy).Contents (Elt F)),
    StableHlo.nullary main_cst_5 (constant S_ .f32 0x00000000#32),
    StableHlo.unary main_cst_5 main_v16 (broadcastInDim S64 ![] bcast_S_S64 : (⟨S_, .f32⟩ : BufTy).Contents (Elt F) → (⟨S64, .f32⟩ : BufTy).Contents (Elt F)),
    StableHlo.unary main_arg6 main_v17 (broadcastInDim S500000x1 ![0] bcast_S500000_S500000x1_0 : (⟨S500000, .i32⟩ : BufTy).Contents (Elt F) → (⟨S500000x1, .i32⟩ : BufTy).Contents (Elt F)),
    StableHlo.ternary main_v16 main_v17 main_v15 main_v18 ((fun x i u => Host.scatterAdd scatter_S64_S500000x1_S500000_n_0_0_1 x i u) : (⟨S64, .f32⟩ : BufTy).Contents (Elt F) → (⟨S500000x1, .i32⟩ : BufTy).Contents (Elt F) → (⟨S500000, .f32⟩ : BufTy).Contents (Elt F) → (⟨S64, .f32⟩ : BufTy).Contents (Elt F)),
    StableHlo.nullary main_cst_6 (constant S_ .f32 0x3F800000#32),
    StableHlo.unary main_cst_6 main_v19 (broadcastInDim S64 ![] bcast_S_S64 : (⟨S_, .f32⟩ : BufTy).Contents (Elt F) → (⟨S64, .f32⟩ : BufTy).Contents (Elt F)),
    StableHlo.binary main_v18 main_v19 main_v20 (maximumf : (⟨S64, .f32⟩ : BufTy).Contents (Elt F) → (⟨S64, .f32⟩ : BufTy).Contents (Elt F) → (⟨S64, .f32⟩ : BufTy).Contents (Elt F)),
    StableHlo.unary main_v20 main_v21 (broadcastInDim S64x1 ![0] bcast_S64_S64x1_0 : (⟨S64, .f32⟩ : BufTy).Contents (Elt F) → (⟨S64x1, .f32⟩ : BufTy).Contents (Elt F)),
    StableHlo.unary main_v21 main_v22 (broadcastInDim S64x128 ![0, 1] bcast_S64x1_S64x128_0_1 : (⟨S64x1, .f32⟩ : BufTy).Contents (Elt F) → (⟨S64x128, .f32⟩ : BufTy).Contents (Elt F)),
    StableHlo.binary main_v14 main_v22 main_v23 (Host.divf : (⟨S64x128, .f32⟩ : BufTy).Contents (Elt F) → (⟨S64x128, .f32⟩ : BufTy).Contents (Elt F) → (⟨S64x128, .f32⟩ : BufTy).Contents (Elt F)),
    StableHlo.nary ![main_arg4, main_v11, main_v23] main_v24 (fun u => concatenate S64x384 1 [⟨S64x128, u 0⟩, ⟨S64x128, u 1⟩, ⟨S64x128, u 2⟩] concatenates_S64x128_S64x128_S64x128_S64x384_d1),
    StableHlo.binary main_v24 main_arg7 main_v25 ((fun l r => Host.dotGeneral dot_S64x384_S384x128_S64x128_1_0_0_1_n_n none l r) : (⟨S64x384, .f32⟩ : BufTy).Contents (Elt F) → (⟨S384x128, .f32⟩ : BufTy).Contents (Elt F) → (⟨S64x128, .f32⟩ : BufTy).Contents (Elt F)),
    StableHlo.unary main_arg8 main_v26 (broadcastInDim S1x128 ![1] bcast_S128_S1x128_1 : (⟨S128, .f32⟩ : BufTy).Contents (Elt F) → (⟨S1x128, .f32⟩ : BufTy).Contents (Elt F)),
    StableHlo.unary main_v26 main_v27 (broadcastInDim S64x128 ![0, 1] bcast_S1x128_S64x128_0_1 : (⟨S1x128, .f32⟩ : BufTy).Contents (Elt F) → (⟨S64x128, .f32⟩ : BufTy).Contents (Elt F)),
    StableHlo.binary main_v25 main_v27 main_v28 (addf : (⟨S64x128, .f32⟩ : BufTy).Contents (Elt F) → (⟨S64x128, .f32⟩ : BufTy).Contents (Elt F) → (⟨S64x128, .f32⟩ : BufTy).Contents (Elt F)),
    StableHlo.nullary main_cst_7 (constant S_ .f32 0x3DCCCCCD#32),
    StableHlo.TRef.nullary main_call0.cst (constant S_ .f32 0x00000000#32),
    StableHlo.TRef.unary main_call0.cst main_call0.v0 (broadcastInDim S64x128 ![] bcast_S_S64x128),
    StableHlo.TRef.binary (.of main_v28 : StableHlo.TRef sig ⟨S64x128, .f32⟩) main_call0.v0 main_call0.v1 (cmpf .oge),
    StableHlo.TRef.unary (.of main_cst_7 : StableHlo.TRef sig ⟨S_, .f32⟩) main_call0.v2 id,
    StableHlo.TRef.unary main_call0.v2 main_call0.v3 (broadcastInDim S64x128 ![] bcast_S_S64x128),
    StableHlo.TRef.binary main_call0.v3 (.of main_v28 : StableHlo.TRef sig ⟨S64x128, .f32⟩) main_call0.v4 mulf,
    StableHlo.TRef.ternary main_call0.v1 (.of main_v28 : StableHlo.TRef sig ⟨S64x128, .f32⟩) main_call0.v4 main_call0.call0.v0 select,
    StableHlo.binary main_v29 main_arg9 main_v30 ((fun l r => Host.dotGeneral dot_S64x128_S128x128_S64x128_1_0_0_1_n_n none l r) : (⟨S64x128, .f32⟩ : BufTy).Contents (Elt F) → (⟨S128x128, .f32⟩ : BufTy).Contents (Elt F) → (⟨S64x128, .f32⟩ : BufTy).Contents (Elt F)),
    StableHlo.unary main_arg10 main_v31 (broadcastInDim S1x128 ![1] bcast_S128_S1x128_1 : (⟨S128, .f32⟩ : BufTy).Contents (Elt F) → (⟨S1x128, .f32⟩ : BufTy).Contents (Elt F)),
    StableHlo.unary main_v31 main_v32 (broadcastInDim S64x128 ![0, 1] bcast_S1x128_S64x128_0_1 : (⟨S1x128, .f32⟩ : BufTy).Contents (Elt F) → (⟨S64x128, .f32⟩ : BufTy).Contents (Elt F)),
    StableHlo.binary main_v30 main_v32 main_v33 (addf : (⟨S64x128, .f32⟩ : BufTy).Contents (Elt F) → (⟨S64x128, .f32⟩ : BufTy).Contents (Elt F) → (⟨S64x128, .f32⟩ : BufTy).Contents (Elt F)) ]

-- one bind per line re-associated: the rewrite under the chain recurses once per statement
set_option maxRecDepth 2048 in
/-- @main is that straight line: the two functions' bodies unfolded at their calls, both sides are one chain of
    host steps once the sequencing is re-associated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., unary_bufs_sub .., binary_bufs_sub ..,
    nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., unary_bufs_sub .., binary_bufs_sub ..,
    nary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..,
    binary_bufs_sub .., unary_bufs_sub .., unary_bufs_sub .., binary_bufs_sub ..⟩

/-- Every weakly fair execution of @main terminates with each TensorCore buffer at the operations' fold over
    the launch contents. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.scatterAdd concatenate broadcastInDim in
set_option maxRecDepth 8192 in
/-- The fold at the result buffer is the reference's term by computation: each operation's result decides whether
    the buffer read is the one it writes, and the typed references' casts are the identity at these literal
    references. The scatters, the concatenation and the broadcasts stay folded meanwhile (the products are a field of
    the float values, folded by themselves): the equation never looks inside them. -/
theorem out_eq (V : Valuation τ sig (Elt F)) :
    after ops V (main_v33 : DevRef τ sig)
      = refVal (V (main_arg0 : DevRef τ sig)) (V (main_arg1 : DevRef τ sig)) (V (main_arg4 : DevRef τ sig))
          (V (main_arg5 : DevRef τ sig)) (V (main_arg6 : DevRef τ sig)) (V (main_arg7 : DevRef τ sig))
          (V (main_arg8 : DevRef τ sig)) (V (main_arg9 : DevRef τ sig)) (V (main_arg10 : DevRef τ sig)) := by
  simp only [after_cons, after_nil]
  rfl

/-! No operation writes an argument: the fold at an argument's buffer is what was there. -/

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

theorem arg5_eq (V : Valuation τ sig (Elt F)) :
    after ops V (main_arg5 : DevRef τ sig) = V (main_arg5 : DevRef τ sig) := by
  simp only [after_cons, after_nil]
  rfl

theorem arg6_eq (V : Valuation τ sig (Elt F)) :
    after ops V (main_arg6 : DevRef τ sig) = V (main_arg6 : DevRef τ sig) := by
  simp only [after_cons, after_nil]
  rfl

theorem arg7_eq (V : Valuation τ sig (Elt F)) :
    after ops V (main_arg7 : DevRef τ sig) = V (main_arg7 : DevRef τ sig) := by
  simp only [after_cons, after_nil]
  rfl

theorem arg8_eq (V : Valuation τ sig (Elt F)) :
    after ops V (main_arg8 : DevRef τ sig) = V (main_arg8 : DevRef τ sig) := by
  simp only [after_cons, after_nil]
  rfl

theorem arg9_eq (V : Valuation τ sig (Elt F)) :
    after ops V (main_arg9 : DevRef τ sig) = V (main_arg9 : DevRef τ sig) := by
  simp only [after_cons, after_nil]
  rfl

theorem arg10_eq (V : Valuation τ sig (Elt F)) :
    after ops V (main_arg10 : DevRef τ sig) = V (main_arg10 : DevRef τ sig) := by
  simp only [after_cons, after_nil]
  rfl

end Line

/-- Every weakly fair execution of the reference's @main from memory m with zero counters terminates, with the
    result buffer at the reference's term of the argument arrays and every argument array as launched. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v33) = refVal (F := F) (m ((c.tc : Thread nD τ).loc main_arg0)) (m ((c.tc : Thread nD τ).loc main_arg1)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run (defs (F := F)) _ _).mono (fun _ h c => ⟨(h c main_v33).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _), (h c main_arg8).trans (arg8_eq _),
      (h c main_arg9).trans (arg9_eq _), (h c main_arg10).trans (arg10_eq _)⟩)
    (run_all m ρ)

end Cert.ReferenceIdeal.Hand

end
-- ==== Proof.LibMatmulPlain.lean ====
/-
  A plain matrix product, read at an index.

  For dimension numbers that contract the left operand's axis 1 with the right operand's axis 0, keep the left operand's
  axis 0 and the right operand's axis 1, and have no batch axis, the product of `l : [M, K]` and `r : [K, N]` into a zero
  accumulator is, at `(p, q)`, the sum over `k < K` of `l (p, k) · r (k, q)` on the extended reals. The contraction
  index set has one axis of extent `K`; the sum over it is re-indexed by its one coordinate.
-/
import Idealize.ShloMosaic.PureOps.Ideal.Laws
import Idealize.ShloMosaic.Lib.ValueIdx

noncomputable section

namespace Cert.Lib.MatmulPlain

open Idealize.ShloMosaic Idealize.ShloMosaic.ValueIdx

variable {M K N : Nat} (d : DotDims ⟨2, ![M, K]⟩ ⟨2, ![K, N]⟩ ⟨2, ![M, N]⟩)

/-- The contraction index set has one axis. -/
theorem contr_rank (hlc : d.lhsContracting = [1]) : d.contr.rank = 1 := by
  rw [d.rank_contr, hlc]; rfl

/-- Its extent is the contracted extent `K`. -/
theorem contr_size (hlc : d.lhsContracting = [1]) :
    d.contr.size ⟨0, by rw [contr_rank d hlc]; exact Nat.one_pos⟩ = K := by
  have key : ∀ (L : List (Fin 2)) (h : L = [1]) (hp : 0 < (Shape.ofList (L.map (⟨2, ![M, K]⟩ : Shape).size)).rank),
      (Shape.ofList (L.map (⟨2, ![M, K]⟩ : Shape).size)).size ⟨0, hp⟩ = K := by
    intro L h hp; subst h; rfl
  exact key _ hlc _

/-- The left operand's row coordinate is the result's row. -/
theorem lhs_0 (hln : d.lhsNonContracting = [0]) (hlb : d.lhsBatch = []) (j : (⟨2, ![M, N]⟩ : Shape).Idx) (k : d.contr.Idx) :
    (d.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q →
      (j ⟨p, hp⟩).val = (j ⟨q, hq⟩).val := fun p q hp hq h => by subst h; rfl
  exact key _ _ _ _ (by simp [hlb, hln])

/-- The left operand's column coordinate is the contraction position. -/
theorem lhs_1 (hlc : d.lhsContracting = [1]) (j : (⟨2, ![M, N]⟩ : Shape).Idx) (k : d.contr.Idx) :
    (d.lhsIdx j k 1).val = (k ⟨0, by rw [contr_rank d hlc]; exact Nat.one_pos⟩).val :=
  d.lhsIdx_val_of_single hlc j k

/-- The right operand's row coordinate is the contraction position. -/
theorem rhs_0 (hlc : d.lhsContracting = [1]) (hrc : d.rhsContracting = [0]) (j : (⟨2, ![M, N]⟩ : Shape).Idx) (k : d.contr.Idx) :
    (d.rhsIdx j k 0).val = (k ⟨0, by rw [contr_rank d hlc]; exact Nat.one_pos⟩).val :=
  d.rhsIdx_val_of_single hrc j k

/-- The right operand's column coordinate is the result's column. -/
theorem rhs_1 (hrn : d.rhsNonContracting = [1]) (hln : d.lhsNonContracting = [0]) (hlb : d.lhsBatch = []) (hrb : d.rhsBatch = [])
    (j : (⟨2, ![M, N]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q →
      (j ⟨p, hp⟩).val = (j ⟨q, hq⟩).val := fun p q hp hq h => by subst h; rfl
  exact key _ _ _ _ (by simp [hlb, hln, hrn])

/-- THE PRODUCT AT `(p, q)`: the sum over the contracted coordinate of the operands' products. -/
theorem matmul_zero_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q)
      = ∑ k : Fin K, l (ix2 p k) * r (ix2 k q) := by
  rw [Ideal.matmul_constant_zero_apply]
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 p k := by
    funext a; apply Fin.ext
    match a with
    | ⟨0, _⟩ => exact lhs_0 d hln hlb _ _
    | ⟨1, _⟩ => exact (lhs_1 d hlc _ _).trans hk
  have er : d.rhsIdx (ix2 p q) ((contrEquiv1 d K (contr_rank d hlc) (contr_size d hlc)).symm k) = ix2 k q := by
    funext a; apply Fin.ext
    match a with
    | ⟨0, _⟩ => exact (rhs_0 d hlc hrc _ _).trans hk
    | ⟨1, _⟩ => exact rhs_1 d hrn hln hlb hrb _ _
  rw [el, er]

end Cert.Lib.MatmulPlain

end
-- ==== Proof.LibLaneSums.lean ====
/-
  Sums over the last axis, and a value kept along a new last axis, read at an index.

  On the extended reals a `vector.multi_reduction <add>` over the last axis of a rank-2 array `[a, b]` reads, at row `r`,
  the sum over `k` of the entries `(r, k)`; over the last axis of a rank-3 array `[a, b, c]` it reads, at `(p, q)`, the sum
  over `k` of the entries `(p, q, k)`. A rank-2 array `[a, b]` cast to `[a, b, 1]` and broadcast to `[a, b, c]` reads, at
  `(p, q, k)`, the array at `(p, q)`: a per-position quantity applied to every entry of the last axis.
-/
import Idealize.ShloMosaic.PureOps.Ideal.Laws
import Idealize.ShloMosaic.Lib.Pipeline.Value
import Idealize.ShloMosaic.Lib.ValueIdx

noncomputable section

namespace Cert.Lib.LaneSums

open Idealize.ShloMosaic Idealize.ShloMosaic.ValueIdx

/-- The sum over the columns of a rank-2 array, at row `r`. -/
theorem sum_axis1_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v _ h hφ hacc (ix1 r)).trans ?_
  refine Finset.sum_congr rfl fun k _ => congrArg v ?_
  funext c
  apply Fin.ext
  match c with
  | ⟨0, _⟩ => rfl
  | ⟨1, _⟩ => rfl

/-- The sum over the last axis of a rank-3 array, at `(p, q)`. -/
theorem sum_axis2_apply {a b c : ℕ} (v : FVec Ideal ⟨3, ![a, b, c]⟩ .f32)
    (h : (⟨3, ![a, b, c]⟩ : Shape).Reduces [2] ⟨2, ![a, b]⟩) (hφ : FKind.Formats .f32)
    (hacc : (0x00000000#32 : BitVec 32) = FKind.add.neutral .f32 hφ) (p : Fin a) (q : Fin b) :
    multiReduction .add [2] ⟨2, ![a, b]⟩ v 0x00000000#32 h hφ hacc (ix2 p q) = ∑ k : Fin c, v (ix3 p q k) := by
  refine (Ideal.multiReduction_add_single v _ h hφ hacc (ix2 p q)).trans ?_
  refine Finset.sum_congr rfl fun k _ => congrArg v ?_
  funext d
  apply Fin.ext
  match d with
  | ⟨0, _⟩ => rfl
  | ⟨1, _⟩ => rfl
  | ⟨2, _⟩ => rfl

variable {α : Type}

/-- An `[a, b]` array cast to `[a, b, 1]` and broadcast to `[a, b, c]` reads, at `(p, q, k)`, the array at `(p, q)`. -/
theorem broadcastTo_lastAxis_apply {a b c : ℕ} (x : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (p : Fin a) (q : Fin b) (k : Fin c) :
    broadcastTo ⟨3, ![a, b, c]⟩ (shapeCast ⟨3, ![a, b, 1]⟩ x h) h' (ix3 p q k) = x (ix2 p q) := by
  refine (broadcastTo_apply _ h' (ix3 p q k) (ix3 p q (0 : Fin 1)) fun ax => ?_).trans ?_
  · match ax with
    | ⟨0, _⟩ =>
      show p.val = if a = 1 then 0 else p.val
      split
      · have := p.isLt; omega
      · rfl
    | ⟨1, _⟩ =>
      show q.val = if b = 1 then 0 else q.val
      split
      · have := q.isLt; omega
      · rfl
    | ⟨2, _⟩ => rfl
  · refine shapeCast_apply x h _ _ ?_
    rw [Shape.rowMajor_val_two, Shape.rowMajor_val_three]
    show p.val * b + q.val = (p.val * b + q.val) * 1 + 0
    omega

end Cert.Lib.LaneSums

end
-- ==== Proof.LibColumn.lean ====
/-
  A column vector made from a vector, and broadcast along rows, read at an index.

  A vector `x : [a]` cast to the column `[a, 1]` reads, at `(i, u)`, `x i`; a column `v : [a, 1]` broadcast to `[a, b]`
  reads, at `(p, c)`, the column's entry of row `p`. Together: a per-row quantity (a row's maximum, a row's sum) kept as a
  column and subtracted from or divided into every entry of its row.
-/
import Idealize.ShloMosaic.Lib.Pipeline.Value
import Idealize.ShloMosaic.Lib.ValueIdx
import Idealize.ShloMosaic.Lib.ValueLayout

noncomputable section

namespace Cert.Lib.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and broadcast along the rows reads, at `(p, c)`, the vector at `p`. -/
theorem broadcastTo_column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) := by
  rw [broadcastTo_a1_ab_apply, shapeCast_a_a1_apply]

end Cert.Lib.Column

end
-- ==== Proof.Spec.lean ====
/-
  The mathematics both programs compute, as plain sums on the extended reals.

  A node row n belongs to segment b when its signed 32-bit id is b. The segment sum adds the rows of a segment,
  the segment count counts them, and the segment mean is the sum over the count, the count taken at least one
  (so an empty segment's mean is zero over one). Ids outside 0..63 belong to no segment.
-/
import Idealize.ShloMosaic.PureOps.Ideal
import Idealize.ShloMosaic.Lib.ValueIdx

noncomputable section

namespace Cert.Spec

open Idealize.ShloMosaic

abbrev T500000x128 : Shape := ⟨2, ![500000, 128]⟩
abbrev T500000 : Shape := ⟨1, ![500000]⟩

/-- Row ids: the signed reading of the id word is the segment's number. -/
def hits (w : BitVec 32) (b : Fin 64) : Prop := w.toInt = (b.val : ℤ)

instance (w : BitVec 32) (b : Fin 64) : Decidable (hits w b) := inferInstanceAs (Decidable (_ = _))

/-- The sum of the rows of segment b, at column d. -/
def segSum (x : T500000x128.Idx → EReal) (ids : T500000.Idx → BitVec 32) (b : Fin 64) (d : Fin 128) : EReal :=
  ∑ n : Fin 500000, if hits (ids (ValueIdx.ix1 n)) b then x (ValueIdx.ix2 n d) else 0

/-- The number of rows of segment b. -/
def segCnt (ids : T500000.Idx → BitVec 32) (b : Fin 64) : EReal :=
  ∑ n : Fin 500000, if hits (ids (ValueIdx.ix1 n)) b then (1 : EReal) else 0

/-- The mean of segment b at column d: the sum over the count, the count at least one. -/
def segMean (x : T500000x128.Idx → EReal) (ids : T500000.Idx → BitVec 32) (b : Fin 64) (d : Fin 128) : EReal :=
  Ideal.div (segSum x ids b d) (max (segCnt ids b) 1)

/-- The f32 word of 1.0 is the real one. -/
theorem ofBits_one : Ideal.ofBits .f32 0x3F800000#32 = (1 : EReal) := by
  simp [Ideal.ofBits, Ideal.ieee]
  rw [← EReal.coe_mul]
  norm_num

end Cert.Spec

end
-- ==== Proof.PayIdx.lean ====
/-
  The scatter-mean kernel's stored values read at an index, on the extended reals. A row's one-hot weight for
  segment b is one when its id word is b's and zero otherwise; a point's block adds to each accumulator the
  weighted sum of its 4096 rows (to the counts: the sum of the weights); the mean is the sum over the count, the
  count at least one; the reset values are zero.
-/
import proofs.«406569_j31748398252730_1_alg».proof.Proof.Gen.KernelIdeal.Skeleton
import proofs.«406569_j31748398252730_1_alg».proof.Proof.LibMatmulPlain
import proofs.«406569_j31748398252730_1_alg».proof.Proof.LibLaneSums
import proofs.«406569_j31748398252730_1_alg».proof.Proof.LibColumn
import proofs.«406569_j31748398252730_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.TcCoe Idealize.SL.Sem
open Cert.KernelIdeal Cert.KernelIdeal.Gen ValueIdx

/-- A row's weight for segment b: one when its id word is b's, else zero. -/
def oh (w : BitVec 32) (b : Fin 64) : EReal := if w = BitVec.ofNat 32 b.val then 1 else 0

/-- The one-bit comparison of two words, widened to 32 bits and read as a signed integer on the extended reals, is
    one when the words are equal and zero otherwise. -/
theorem sitofp_extui_cmpi_eq (x y : BitVec 32) :
    (FloatOps.sitofp (F := Ideal) .f32 ((IntOp.cmpi .eq x y).setWidth 32) : EReal) = if y = x then 1 else 0 := by
  show (((((IntOp.cmpi .eq x y).setWidth 32).toInt : ℤ) : ℝ) : EReal) = _
  by_cases h : y = x
  · subst h
    rw [if_pos rfl]
    have e : (IntOp.cmpi .eq y y).setWidth 32 = 1#32 := by simp [IntOp.cmpi]
    rw [e]
    norm_num
  · rw [if_neg h]
    have hne : (x == y) = false := beq_eq_false_iff_ne.mpr fun e => h e.symm
    have e : (IntOp.cmpi .eq x y).setWidth 32 = 0#32 := by simp [IntOp.cmpi, hne]
    rw [e]
    norm_num

/-- The first one-hot matrix at (b, k): the row number b as a word against row k's id word, so row k's weight for
    segment b. -/
theorem pay9_apply (B : Vec Ideal S4096 .i32) (b : Fin 64) (k : Fin 4096) :
    k0_pay9 (F := Ideal) B (ix2 b k) = oh (B (ix1 k)) b := by
  unfold k0_pay9
  rw [shapeCast_self]
  show FloatOps.sitofp .f32 ((IntOp.cmpi .eq (iota .tc S64x4096 32 [0] iota_S64x4096_d0_w32 (ix2 b k))
    (broadcastTo S64x4096 (shapeCast S1x4096 B shapeCasts_S4096_S1x4096) broadcasts_S1x4096_S64x4096 (ix2 b k))).setWidth 32) = _
  rw [iota_single_apply, broadcastTo_1b_ab_apply, shapeCast_a_1a_apply]
  exact sitofp_extui_cmpi_eq _ _

/-- The second one-hot matrix at (b, k), likewise. -/
theorem pay10_apply (B : Vec Ideal S4096 .i32) (b : Fin 64) (k : Fin 4096) :
    k0_pay10 (F := Ideal) B (ix2 b k) = oh (B (ix1 k)) b := by
  unfold k0_pay10
  rw [shapeCast_self]
  show FloatOps.sitofp .f32 ((IntOp.cmpi .eq (iota .tc S64x4096 32 [0] iota_S64x4096_d0_w32 (ix2 b k))
    (broadcastTo S64x4096 (shapeCast S1x4096 B shapeCasts_S4096_S1x4096) broadcasts_S1x4096_S64x4096 (ix2 b k))).setWidth 32) = _
  rw [iota_single_apply, broadcastTo_1b_ab_apply, shapeCast_a_1a_apply]
  exact sitofp_extui_cmpi_eq _ _

/-- The first accumulator's new value at (b, d): the old value plus the product of the one-hot matrix with the block's
    rows at (b, d), the sum over the rows k of row k's weight for b times its entry at column d. The changes of format
    are the identity on the extended reals. -/
theorem pay11_apply (B : Vec Ideal S4096 .i32) (X : Vec Ideal S4096x128 .f32) (A : Vec Ideal S64x128 .f32) (b : Fin 64) (d : Fin 128) :
    k0_pay11 (F := Ideal) B X A (ix2 b d) = A (ix2 b d) + ∑ k : Fin 4096, oh (B (ix1 k)) b * X (ix2 k d) := by
  unfold k0_pay11
  rw [shapeCast_self, shapeCast_self]
  show A (ix2 b d) + FloatOps.matmul dot_S64x4096_S4096x128_S64x128_1_0_0_1_n_n none
      (truncf .bf16 (k0_pay9 (F := Ideal) B) bitsLt_bf16_f32) (truncf .bf16 X bitsLt_bf16_f32)
      (constant S64x128 .f32 0x00000000#32) (ix2 b d) = _
  congr 1
  refine (Cert.Lib.MatmulPlain.matmul_zero_apply dot_S64x4096_S4096x128_S64x128_1_0_0_1_n_n rfl rfl rfl rfl rfl rfl none _ _ b d).trans ?_
  refine Finset.sum_congr rfl fun k _ => ?_
  show k0_pay9 (F := Ideal) B (ix2 b k) * X (ix2 k d) = _
  rw [pay9_apply]

theorem pay12_apply (B : Vec Ideal S4096 .i32) (X : Vec Ideal S4096x128 .f32) (A : Vec Ideal S64x128 .f32) (b : Fin 64) (d : Fin 128) :
    k0_pay12 (F := Ideal) B X A (ix2 b d) = A (ix2 b d) + ∑ k : Fin 4096, oh (B (ix1 k)) b * X (ix2 k d) := by
  unfold k0_pay12
  rw [shapeCast_self, shapeCast_self]
  show A (ix2 b d) + FloatOps.matmul dot_S64x4096_S4096x128_S64x128_1_0_0_1_n_n none
      (truncf .bf16 (k0_pay10 (F := Ideal) B) bitsLt_bf16_f32) (truncf .bf16 X bitsLt_bf16_f32)
      (constant S64x128 .f32 0x00000000#32) (ix2 b d) = _
  congr 1
  refine (Cert.Lib.MatmulPlain.matmul_zero_apply dot_S64x4096_S4096x128_S64x128_1_0_0_1_n_n rfl rfl rfl rfl rfl rfl none _ _ b d).trans ?_
  refine Finset.sum_congr rfl fun k _ => ?_
  show k0_pay10 (F := Ideal) B (ix2 b k) * X (ix2 k d) = _
  rw [pay10_apply]

/-- The first count's new value at row b: the old value plus the sum along row b of the one-hot matrix, kept as a
    column: the sum over the rows k of row k's weight for b. -/
theorem pay1_apply (B : Vec Ideal S4096 .i32) (C : Vec Ideal S64x1 .f32) (b : Fin 64) :
    k0_pay1 (F := Ideal) (k0_pay9 (F := Ideal) B) C (ix2 b (0 : Fin 1)) = C (ix2 b (0 : Fin 1)) + ∑ k : Fin 4096, oh (B (ix1 k)) b := by
  unfold k0_pay1
  rw [shapeCast_self]
  show C (ix2 b (0 : Fin 1)) + shapeCast S64x1 (multiReduction (F := Ideal) .add [1] S64 (k0_pay9 (F := Ideal) B) 0x00000000#32
      reduces_S64x4096_S64 (.inl rfl) rfl) shapeCasts_S64_S64x1 (ix2 b (0 : Fin 1)) = _
  congr 1
  refine (Cert.Lib.Column.shapeCast_a_a1_apply _ shapeCasts_S64_S64x1 b 0).trans ?_
  refine (Cert.Lib.LaneSums.sum_axis1_apply (k0_pay9 (F := Ideal) B) reduces_S64x4096_S64 (.inl rfl) rfl b).trans ?_
  exact Finset.sum_congr rfl fun k _ => pay9_apply B b k

theorem pay2_apply (B : Vec Ideal S4096 .i32) (C : Vec Ideal S64x1 .f32) (b : Fin 64) :
    k0_pay2 (F := Ideal) (k0_pay10 (F := Ideal) B) C (ix2 b (0 : Fin 1)) = C (ix2 b (0 : Fin 1)) + ∑ k : Fin 4096, oh (B (ix1 k)) b := by
  unfold k0_pay2
  rw [shapeCast_self]
  show C (ix2 b (0 : Fin 1)) + shapeCast S64x1 (multiReduction (F := Ideal) .add [1] S64 (k0_pay10 (F := Ideal) B) 0x00000000#32
      reduces_S64x4096_S64 (.inl rfl) rfl) shapeCasts_S64_S64x1 (ix2 b (0 : Fin 1)) = _
  congr 1
  refine (Cert.Lib.Column.shapeCast_a_a1_apply _ shapeCasts_S64_S64x1 b 0).trans ?_
  refine (Cert.Lib.LaneSums.sum_axis1_apply (k0_pay10 (F := Ideal) B) reduces_S64x4096_S64 (.inl rfl) rfl b).trans ?_
  exact Finset.sum_congr rfl fun k _ => pay10_apply B b k

/-- The first mean at (b, d): the sum at (b, d) over row b's count, the count taken at least one; the column of
    counts is read along its row, and the word of 1.0 is the real one. -/
theorem pay3_apply (S : Vec Ideal S64x128 .f32) (C : Vec Ideal S64x1 .f32) (b : Fin 64) (d : Fin 128) :
    k0_pay3 (F := Ideal) S C (ix2 b d) = Ideal.div (S (ix2 b d)) (max (C (ix2 b (0 : Fin 1))) 1) := by
  unfold k0_pay3
  show Ideal.div (S (ix2 b d)) (broadcastTo S64x128 (maximumf C (broadcast S64x1 (Scalar.ofBits (F := Ideal) .f32 0x3F800000#32)))
      broadcasts_S64x1_S64x128 (ix2 b d)) = _
  rw [Cert.Lib.Column.broadcastTo_a1_ab_apply]
  show Ideal.div (S (ix2 b d)) (max (C (ix2 b (0 : Fin 1))) (Ideal.ofBits .f32 0x3F800000#32)) = _
  rw [Cert.Spec.ofBits_one]

theorem pay4_apply (S : Vec Ideal S64x128 .f32) (C : Vec Ideal S64x1 .f32) (b : Fin 64) (d : Fin 128) :
    k0_pay4 (F := Ideal) S C (ix2 b d) = Ideal.div (S (ix2 b d)) (max (C (ix2 b (0 : Fin 1))) 1) := by
  unfold k0_pay4
  show Ideal.div (S (ix2 b d)) (broadcastTo S64x128 (maximumf C (broadcast S64x1 (Scalar.ofBits (F := Ideal) .f32 0x3F800000#32)))
      broadcasts_S64x1_S64x128 (ix2 b d)) = _
  rw [Cert.Lib.Column.broadcastTo_a1_ab_apply]
  show Ideal.div (S (ix2 b d)) (max (C (ix2 b (0 : Fin 1))) (Ideal.ofBits .f32 0x3F800000#32)) = _
  rw [Cert.Spec.ofBits_one]

/-- The reset values: the zero word's extended real is zero, at every index. -/
theorem pay5_apply (b : Fin 64) (d : Fin 128) : k0_pay5 (F := Ideal) (ix2 b d) = 0 := by
  unfold k0_pay5
  rw [shapeCast_self]
  exact Ideal.ofBits_zero_f32
theorem pay6_apply (b : Fin 64) : k0_pay6 (F := Ideal) (ix2 b (0 : Fin 1)) = 0 := by
  unfold k0_pay6
  rw [shapeCast_self]
  exact Ideal.ofBits_zero_f32
theorem pay7_apply (b : Fin 64) (d : Fin 128) : k0_pay7 (F := Ideal) (ix2 b d) = 0 := by
  unfold k0_pay7
  rw [shapeCast_self]
  exact Ideal.ofBits_zero_f32
theorem pay8_apply (b : Fin 64) : k0_pay8 (F := Ideal) (ix2 b (0 : Fin 1)) = 0 := by
  unfold k0_pay8
  rw [shapeCast_self]
  exact Ideal.ofBits_zero_f32

end Cert.KernelIdeal.Hand

end
-- ==== Proof.KMean.lean ====
/-
  The scatter-mean region's two results on the extended reals. The region reads the node rows padded with zero
  rows, and the ids padded with the id -1, up to 123 blocks of 4096 rows; after the last point each accumulator
  is the sum, over all blocks and all rows of a block, of the one-hot weighted rows. A padding row weighs nothing
  (its id is no segment's), so the sums run over the 500000 true rows, and the stored mean is the segment mean.

  The argument is written once, over a node set's blocks, padded arrays and accumulators (`mean_of_blocks`), and
  used for both node sets. Only 0 * x = 0, 1 * x = x and the commutative monoid of + are used of the extended reals.
-/
import proofs.«406569_j31748398252730_1_alg».proof.Proof.R0Dat
import proofs.«406569_j31748398252730_1_alg».proof.Proof.PayIdx
import proofs.«406569_j31748398252730_1_alg».proof.Proof.Spec
import Idealize.ShloMosaic.Lib.KernelVsHost

noncomputable section

namespace Cert.KernelIdeal.Hand

open Idealize.ShloMosaic Idealize.ShloMosaic.TcCoe Idealize.SL.Sem
open Cert.KernelIdeal Cert.KernelIdeal.Gen ValueIdx

variable (V : (c : Dev nD) → (b : Ref sig .tc) → Buf (Elt Ideal) ((c : Thread nD τ).loc b))

/-- The word of a segment's number reads back as that number, unsigned and signed. -/
theorem toNat_seg (b : Fin 64) : (BitVec.ofNat 32 b.val).toNat = b.val := by
  rw [BitVec.toNat_ofNat]; exact Nat.mod_eq_of_lt (by have := b.isLt; omega)
theorem toInt_seg (b : Fin 64) : (BitVec.ofNat 32 b.val).toInt = (b.val : ℤ) := by
  rw [BitVec.toInt_eq_toNat_of_lt (by rw [toNat_seg]; have := b.isLt; omega), toNat_seg]

/-- The padding id, the word of -1, is no segment's. -/
theorem oh_pad (b : Fin 64) : oh 4294967295#32 b = 0 := by
  unfold oh
  refine if_neg fun h => ?_
  have e := congrArg BitVec.toNat h
  rw [toNat_seg] at e
  have hb := b.isLt
  have : (4294967295#32 : BitVec 32).toNat = 4294967295 := rfl
  omega

/-- A row's weight is one exactly when the signed reading of its id word is the segment's number. -/
theorem oh_eq_hits (w : BitVec 32) (b : Fin 64) : oh w b = if Cert.Spec.hits w b then 1 else 0 := by
  have hiff : w = BitVec.ofNat 32 b.val ↔ Cert.Spec.hits w b := by
    constructor
    · rintro rfl; exact toInt_seg b
    · intro h; exact BitVec.eq_of_toInt_eq (h.trans (toInt_seg b).symm)
  exact if_congr hiff rfl rfl

/-- A sum over 123 blocks of 4096 rows is the sum over all 503808 rows. -/
theorem sum_blocks {M : Type} [AddCommMonoid M] (G : Fin 503808 → M) :
    ∑ t : Fin 123, ∑ k : Fin 4096, G ⟨4096 * t.val + k.val, by omega⟩ = ∑ n : Fin 503808, G n := by
  rw [← Fintype.sum_prod_type' (fun (t : Fin 123) (k : Fin 4096) => G ⟨4096 * t.val + k.val, by omega⟩)]
  exact Fintype.sum_equiv (finProdFinEquiv (m := 123) (n := 4096)) _ G
    (fun p => congrArg G (Fin.ext (by simp only [finProdFinEquiv_apply_val]; omega)))

/-- The weighted sum over all padded rows is the segment's sum over the true rows: a padding row weighs nothing. -/
theorem sum_padded (W : Fin 503808 → BitVec 32) (X : Fin 503808 → EReal) (b : Fin 64)
    (hW : ∀ n : Fin 503808, 500000 ≤ n.val → W n = 4294967295#32) :
    ∑ n : Fin 503808, oh (W n) b * X n
      = ∑ n : Fin 500000, if Cert.Spec.hits (W (n.castLE (by omega))) b then X (n.castLE (by omega)) else 0 := by
  refine (Fin.sum_univ_add (a := 500000) (b := 3808) (fun n : Fin 503808 => oh (W n) b * X n)).trans ?_
  have htail : ∑ i : Fin 3808, oh (W (Fin.natAdd 500000 i)) b * X (Fin.natAdd 500000 i) = 0 :=
    Finset.sum_eq_zero fun i _ => by
      rw [hW (Fin.natAdd 500000 i) (by show 500000 ≤ 500000 + i.val; omega), oh_pad, zero_mul]
  rw [htail, add_zero]
  refine Finset.sum_congr rfl fun n _ => ?_
  show oh (W (n.castLE _)) b * X (n.castLE _) = _
  rw [oh_eq_hits]
  split_ifs
  · exact one_mul _
  · exact zero_mul _

/-- An accumulator that starts at zero and takes one term per point is, after the 123 points, the sum of the terms. -/
theorem fold_fin (a : ℕ → EReal) (g : Fin 123 → EReal) (h0 : a 0 = 0)
    (hs : ∀ t : Fin 123, a (t.val + 1) = a t.val + g t) : a 123 = ∑ t : Fin 123, g t := by
  have key : ∀ n, n ≤ 123 → a n = ∑ t ∈ Finset.range n, (if h : t < 123 then g ⟨t, h⟩ else 0) := by
    intro n
    induction n with
    | zero => intro _; rw [h0, Finset.range_zero, Finset.sum_empty]
    | succ n ih =>
      intro hn
      rw [Finset.sum_range_succ, ← ih (by omega), dif_pos (by omega : n < 123)]
      exact hs ⟨n, by omega⟩
  rw [key 123 le_rfl, Finset.sum_range]
  exact Finset.sum_congr rfl (fun t _ => dif_pos t.isLt)

/-- The padded rows read at a true row are the rows. -/
theorem padRows_inside (x : FVec Ideal S500000x128 .f32) {u : Shape} (v : u.Idx → EReal)
    (hp : S500000x128.Pads (![0, 0] : Fin 2 → Nat) ![3808, 0] ![0, 0] S503808x128) (hu : 0 < u.numel)
    (n : Fin 500000) (d : Fin 128) :
    pad S503808x128 ![0, 0] ![3808, 0] ![0, 0] x v hp hu (ix2 (n.castLE (by omega)) d) = x (ix2 n d) :=
  pad_apply_of_inside _ _ _ x v hp hu _ (ix2 n d) fun a => by
    match a with
    | ⟨0, _⟩ => show n.val = 0 + n.val * (0 + 1); omega
    | ⟨1, _⟩ => show d.val = 0 + d.val * (0 + 1); omega

/-- The padded ids read at a true row are the ids, -/
theorem padIds_inside (ids : IVec S500000 32) {u : Shape} (v : u.Idx → BitVec 32)
    (hp : S500000.Pads (![0] : Fin 1 → Nat) ![3808] ![0] S503808) (hu : 0 < u.numel) (n : Fin 500000) :
    pad S503808 ![0] ![3808] ![0] ids v hp hu (ix1 (n.castLE (by omega))) = ids (ix1 n) :=
  pad_apply_of_inside _ _ _ ids v hp hu _ (ix1 n) fun a => by
    match a with
    | ⟨0, _⟩ => show n.val = 0 + n.val * (0 + 1); omega

/-- and at a padding row the padding value. -/
theorem padIds_outside (ids : IVec S500000 32) {u : Shape} (v : u.Idx → BitVec 32)
    (hp : S500000.Pads (![0] : Fin 1 → Nat) ![3808] ![0] S503808) (hu : 0 < u.numel) (n : Fin 503808) (hn : 500000 ≤ n.val) :
    pad S503808 ![0] ![3808] ![0] ids v hp hu (ix1 n) = v (Shape.Idx.first hu) :=
  pad_apply_of_not_inside _ _ _ ids v hp hu _ (⟨0, Nat.one_pos⟩ : Fin S500000.rank) fun h => by
    have h3 : (n.val - 0) / (0 + 1) < 500000 := h.2.2
    omega

/-- The weighted sum over the blocks' rows of the padded arrays is the sum over the true rows of the segment. -/
theorem blocks_to_rows (PB : S503808.Idx → BitVec 32) (ids : IVec S500000 32) {u : Shape} (v : u.Idx → BitVec 32)
    (hp : S500000.Pads (![0] : Fin 1 → Nat) ![3808] ![0] S503808) (hu : 0 < u.numel)
    (hv : v (Shape.Idx.first hu) = 4294967295#32)
    (hb : PB = pad S503808 ![0] ![3808] ![0] ids v hp hu) (X : Fin 503808 → EReal) (b : Fin 64) :
    ∑ t : Fin 123, ∑ k : Fin 4096, oh (PB (ix1 ⟨4096 * t.val + k.val, by omega⟩)) b * X ⟨4096 * t.val + k.val, by omega⟩
      = ∑ n : Fin 500000, if Cert.Spec.hits (ids (ix1 n)) b then X (n.castLE (by omega)) else 0 := by
  refine (sum_blocks (fun n : Fin 503808 => oh (PB (ix1 n)) b * X n)).trans ?_
  refine (sum_padded (fun n => PB (ix1 n)) X b fun n hn => ?_).trans ?_
  · show PB (ix1 n) = _
    rw [hb, padIds_outside ids v hp hu n hn, hv]
  · refine Finset.sum_congr rfl fun n _ => ?_
    show (if Cert.Spec.hits (PB (ix1 (n.castLE _))) b then _ else _) = _
    rw [hb, padIds_inside ids v hp hu n]

/-- The mean a node set's two accumulators give after the last point. The accumulators start at zero and each point
    adds its block's weighted rows (to the counts: its weights); a block's rows are the padded arrays' rows
    4096 t … 4096 t + 4095; the padded arrays are the true rows and ids followed by padding rows of id -1. -/
theorem mean_of_blocks {N : ℕ} (hN : N = 123)
    (xB : Fin N → Vec Ideal S4096x128 .f32) (bB : Fin N → Vec Ideal S4096 .i32)
    (PX : S503808x128.Idx → EReal) (PB : S503808.Idx → BitVec 32)
    (hxB : ∀ (t : Fin N) (k : Fin 4096) (d : Fin 128) (n : Fin 503808), n.val = 4096 * t.val + k.val →
      xB t (ix2 k d) = PX (ix2 n d))
    (hbB : ∀ (t : Fin N) (k : Fin 4096) (n : Fin 503808), n.val = 4096 * t.val + k.val → bB t (ix1 k) = PB (ix1 n))
    (x : FVec Ideal S500000x128 .f32) (ids : IVec S500000 32)
    (hpx : S500000x128.Pads (![0, 0] : Fin 2 → Nat) ![3808, 0] ![0, 0] S503808x128)
    (hpb : S500000.Pads (![0] : Fin 1 → Nat) ![3808] ![0] S503808) (hu : 0 < S_.numel)
    (hx : PX = pad S503808x128 ![0, 0] ![3808, 0] ![0, 0] x (sitofp .f32 (constantI S_ 32 0#32)) hpx hu)
    (hb : PB = pad S503808 ![0] ![3808] ![0] ids (id (constantI S_ 32 4294967295#32)) hpb hu)
    (S : ℕ → Vec Ideal S64x128 .f32) (C : ℕ → Vec Ideal S64x1 .f32)
    (hS0 : ∀ (b : Fin 64) (d : Fin 128), S 0 (ix2 b d) = 0) (hC0 : ∀ b : Fin 64, C 0 (ix2 b (0 : Fin 1)) = 0)
    (hSs : ∀ (t : Fin N) (b : Fin 64) (d : Fin 128),
      S (t.val + 1) (ix2 b d) = S t.val (ix2 b d) + ∑ k : Fin 4096, oh (bB t (ix1 k)) b * xB t (ix2 k d))
    (hCs : ∀ (t : Fin N) (b : Fin 64),
      C (t.val + 1) (ix2 b (0 : Fin 1)) = C t.val (ix2 b (0 : Fin 1)) + ∑ k : Fin 4096, oh (bB t (ix1 k)) b)
    (b : Fin 64) (d : Fin 128) :
    Ideal.div (S 123 (ix2 b d)) (max (C 123 (ix2 b (0 : Fin 1))) 1) = Cert.Spec.segMean x ids b d := by
  subst hN
  have hv : (id (constantI S_ 32 4294967295#32) : S_.Idx → BitVec 32) (Shape.Idx.first hu) = 4294967295#32 := rfl
  have hS : S 123 (ix2 b d) = Cert.Spec.segSum x ids b d := by
    refine (fold_fin (fun n => S n (ix2 b d)) _ (hS0 b d) (fun t => hSs t b d)).trans ?_
    have e : ∀ t : Fin 123, ∑ k : Fin 4096, oh (bB t (ix1 k)) b * xB t (ix2 k d)
        = ∑ k : Fin 4096, oh (PB (ix1 ⟨4096 * t.val + k.val, by omega⟩)) b * PX (ix2 ⟨4096 * t.val + k.val, by omega⟩ d) :=
      fun t => Finset.sum_congr rfl fun k _ => by rw [hbB t k ⟨4096 * t.val + k.val, by omega⟩ rfl, hxB t k d ⟨4096 * t.val + k.val, by omega⟩ rfl]
    rw [Finset.sum_congr rfl fun t _ => e t]
    refine (blocks_to_rows PB ids _ hpb hu hv hb (fun n => PX (ix2 n d)) b).trans ?_
    unfold Cert.Spec.segSum
    refine Finset.sum_congr rfl fun n _ => ?_
    show (if _ then PX (ix2 (n.castLE _) d) else _) = _
    rw [hx, padRows_inside x _ hpx hu n d]
  have hC : C 123 (ix2 b (0 : Fin 1)) = Cert.Spec.segCnt ids b := by
    refine (fold_fin (fun n => C n (ix2 b (0 : Fin 1))) _ (hC0 b) (fun t => hCs t b)).trans ?_
    have e : ∀ t : Fin 123, ∑ k : Fin 4096, oh (bB t (ix1 k)) b
        = ∑ k : Fin 4096, oh (PB (ix1 ⟨4096 * t.val + k.val, by omega⟩)) b * (fun _ : Fin 503808 => (1 : EReal)) ⟨4096 * t.val + k.val, by omega⟩ :=
      fun t => Finset.sum_congr rfl fun k _ => by rw [hbB t k ⟨4096 * t.val + k.val, by omega⟩ rfl]; exact (mul_one _).symm
    rw [Finset.sum_congr rfl fun t _ => e t]
    exact blocks_to_rows PB ids _ hpb hu hv hb (fun _ => 1) b
  unfold Cert.Spec.segMean
  rw [hS, hC]

/-- Over the grid, a row window's block index is the point on the row axis and zero on the column axis; an id window's is the point. -/
theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx0_1 : ∀ t : Fin cfg0.N, win0_1.index t (0 : Fin 1) = t.val :=
  (by decide +kernel : ∀ t : Fin grid0.N, win0_1.index t (0 : Fin 1) = t.val)
theorem idx0_2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx0_3 : ∀ t : Fin cfg0.N, win0_3.index t (0 : Fin 1) = t.val :=
  (by decide +kernel : ∀ t : Fin grid0.N, win0_3.index t (0 : Fin 1) = t.val)

/-- A block of the first set's rows at point t is rows 4096 t … 4096 t + 4095 of the padded rows, -/
theorem xhB_apply (c : Dev nD) (t : Fin cfg0.N) (k : Fin 4096) (d : Fin 128) (n : Fin 503808) (hn : n.val = 4096 * t.val + k.val) :
    xhB V c t (ix2 k d) = (V c main_v0 : S503808x128.Idx → EReal) (ix2 n d) := by
  unfold xhB iblk0
  rw [View.read_apply]
  show V c main_v0 _ = V c main_v0 _
  congr 1
  funext a
  apply Fin.ext
  match a with
  | ⟨0, _⟩ => show win0_0.index t 0 * 4096 + 1 * k.val = n.val; rw [(idx0_0 t).1, hn]; omega
  | ⟨1, _⟩ => show win0_0.index t 1 * 128 + 1 * d.val = d.val; rw [(idx0_0 t).2]; omega

/-- and its block of ids the same rows of the padded ids. -/
theorem bhB_apply (c : Dev nD) (t : Fin cfg0.N) (k : Fin 4096) (n : Fin 503808) (hn : n.val = 4096 * t.val + k.val) :
    bhB V c t (ix1 k) = (V c main_v2 : S503808.Idx → BitVec 32) (ix1 n) := by
  unfold bhB iblk0
  rw [View.read_apply]
  show V c main_v2 _ = V c main_v2 _
  congr 1
  funext a
  apply Fin.ext
  match a with
  | ⟨0, _⟩ => show win0_1.index t 0 * 4096 + 1 * k.val = n.val; rw [idx0_1 t, hn]; omega

/-- The same for the second set's rows -/
theorem xgB_apply (c : Dev nD) (t : Fin cfg0.N) (k : Fin 4096) (d : Fin 128) (n : Fin 503808) (hn : n.val = 4096 * t.val + k.val) :
    xgB V c t (ix2 k d) = (V c main_v1 : S503808x128.Idx → EReal) (ix2 n d) := by
  unfold xgB iblk0
  rw [View.read_apply]
  show V c main_v1 _ = V c main_v1 _
  congr 1
  funext a
  apply Fin.ext
  match a with
  | ⟨0, _⟩ => show win0_2.index t 0 * 4096 + 1 * k.val = n.val; rw [(idx0_2 t).1, hn]; omega
  | ⟨1, _⟩ => show win0_2.index t 1 * 128 + 1 * d.val = d.val; rw [(idx0_2 t).2]; omega

/-- and ids. -/
theorem bgB_apply (c : Dev nD) (t : Fin cfg0.N) (k : Fin 4096) (n : Fin 503808) (hn : n.val = 4096 * t.val + k.val) :
    bgB V c t (ix1 k) = (V c main_v3 : S503808.Idx → BitVec 32) (ix1 n) := by
  unfold bgB iblk0
  rw [View.read_apply]
  show V c main_v3 _ = V c main_v3 _
  congr 1
  funext a
  apply Fin.ext
  match a with
  | ⟨0, _⟩ => show win0_3.index t 0 * 4096 + 1 * k.val = n.val; rw [idx0_3 t, hn]; omega

/-- The first node set's mean, from the padded rows in window 0's array and the padded ids in window 1's. -/
theorem kmean_h (c : Dev nD) (x : FVec Ideal S500000x128 .f32) (ids : IVec S500000 32)
    (hx : (V c main_v0 : S503808x128.Idx → EReal)
      = pad S503808x128 ![0, 0] ![3808, 0] ![0, 0] x (sitofp .f32 (constantI S_ 32 0#32)) Facts₀.pads_S500000x128_S503808x128_038080_000 Facts₀.h_S_)
    (hb : (V c main_v2 : S503808.Idx → BitVec 32)
      = pad S503808 ![0] ![3808] ![0] ids (id (constantI S_ 32 4294967295#32)) Facts₀.pads_S500000_S503808_038080 Facts₀.h_S_)
    (b : Fin 64) (d : Fin 128) :
    k0_pay3 (F := Ideal) (acc V c 123).1 (acc V c 123).2.1 (ix2 b d) = Cert.Spec.segMean x ids b d := by
  rw [pay3_apply]
  refine mean_of_blocks (N := cfg0.N) Gen.N_0 (xhB V c) (bhB V c) (V c main_v0) (V c main_v2)
    (fun t k d n hn => xhB_apply V c t k d n hn) (fun t k n hn => bhB_apply V c t k n hn) x ids _ _ _ hx hb
    (fun n => (acc V c n).1) (fun n => (acc V c n).2.1) (fun b d => ?_) (fun b => ?_) (fun t b d => ?_) (fun t b => ?_) b d
  · show (sc0 (F := Ideal)).1 (ix2 b d) = 0
    exact pay5_apply b d
  · show (sc0 (F := Ideal)).2.1 (ix2 b (0 : Fin 1)) = 0
    exact pay6_apply b
  · show (acc V c (t.val + 1)).1 (ix2 b d) = _
    rw [acc_succ V c t]
    exact pay11_apply _ _ _ b d
  · show (acc V c (t.val + 1)).2.1 (ix2 b (0 : Fin 1)) = _
    rw [acc_succ V c t]
    exact pay1_apply _ _ b

/-- The second node set's mean, from window 2's and window 3's arrays. -/
theorem kmean_g (c : Dev nD) (x : FVec Ideal S500000x128 .f32) (ids : IVec S500000 32)
    (hx : (V c main_v1 : S503808x128.Idx → EReal)
      = pad S503808x128 ![0, 0] ![3808, 0] ![0, 0] x (sitofp .f32 (constantI S_ 32 0#32)) Facts₀.pads_S500000x128_S503808x128_038080_000 Facts₀.h_S_)
    (hb : (V c main_v3 : S503808.Idx → BitVec 32)
      = pad S503808 ![0] ![3808] ![0] ids (id (constantI S_ 32 4294967295#32)) Facts₀.pads_S500000_S503808_038080 Facts₀.h_S_)
    (b : Fin 64) (d : Fin 128) :
    k0_pay4 (F := Ideal) (acc V c 123).2.2.1 (acc V c 123).2.2.2 (ix2 b d) = Cert.Spec.segMean x ids b d := by
  rw [pay4_apply]
  refine mean_of_blocks (N := cfg0.N) Gen.N_0 (xgB V c) (bgB V c) (V c main_v1) (V c main_v3)
    (fun t k d n hn => xgB_apply V c t k d n hn) (fun t k n hn => bgB_apply V c t k n hn) x ids _ _ _ hx hb
    (fun n => (acc V c n).2.2.1) (fun n => (acc V c n).2.2.2) (fun b d => ?_) (fun b => ?_) (fun t b d => ?_) (fun t b => ?_) b d
  · show (sc0 (F := Ideal)).2.2.1 (ix2 b d) = 0
    exact pay7_apply b d
  · show (sc0 (F := Ideal)).2.2.2 (ix2 b (0 : Fin 1)) = 0
    exact pay8_apply b
  · show (acc V c (t.val + 1)).2.2.1 (ix2 b d) = _
    rw [acc_succ V c t]
    exact pay12_apply _ _ _ b d
  · show (acc V c (t.val + 1)).2.2.2 (ix2 b (0 : Fin 1)) = _
    rw [acc_succ V c t]
    exact pay2_apply _ _ b

end Cert.KernelIdeal.Hand

end
-- ==== Proof.LibRowIndexed.lean ====
/-
  Rows of a table addressed by a column of integer positions, read at one element.

  Two StableHLO operations move whole rows of a rank-2 table `[N, C]` according to an `[n, 1]` column of
  positions: the row GATHER (`table[idx]`: result row `p` is the table's row at position `idx p`) and the
  row SCATTER (`zeros.at[idx].add(updates)`: update row `e` lands on the table's row `idx e`). They treat a
  position outside `[0, N)` differently, and that difference is what the lemmas below pin down:

  * the gather reads the position as a signed integer and CLAMPS it into `[0, N - 1]`;
  * the scatter reads the position as a signed integer and DROPS the update row when it is not in `[0, N)`;
    so update element `(e, q)` lands on table element `(r, q')` exactly when `idx e = r` as integers and `q = q'`.
-/
import Idealize.ShloMosaic.PureOps
import Idealize.ShloMosaic.Lib.ValueIdx
import Idealize.ShloMosaic.Lib.StableHlo.Predicate

namespace Idealize.ShloMosaic.RowIndexed

open Idealize.ShloMosaic Idealize.ShloMosaic.ValueIdx Idealize.ShloMosaic.StableHlo.Predicate

/-! ## The row gather -/

/-- The row gather's dimension numbers: the rows collapsed and start-indexed, the columns an offset axis, the index
    vector on axis 1 of the column of positions. -/
abbrev rowGather (N C n : Nat) (sb : List (Fin 2)) (ss : Fin 2 → Nat)
    (wf : GatherDims.WF ⟨2, ![N, C]⟩ ⟨2, ![n, 1]⟩ ⟨2, ![n, C]⟩ [1] [0] [] [0] sb 1 ss) :
    GatherDims ⟨2, ![N, C]⟩ ⟨2, ![n, 1]⟩ ⟨2, ![n, C]⟩ :=
  ⟨[1], [0], [], sb, [0], 1, ss, wf⟩

theorem rowGather_apply {α : Type} {N C n w : Nat} (sb : List (Fin 2)) (ss : Fin 2 → Nat)
    (wf : GatherDims.WF ⟨2, ![N, C]⟩ ⟨2, ![n, 1]⟩ ⟨2, ![n, C]⟩ [1] [0] [] [0] sb 1 ss)
    (x : (⟨2, ![N, C]⟩ : Shape).Idx → α) (idx : IVec ⟨2, ![n, 1]⟩ w) (p : Fin n) (q : Fin C) (hN : 0 < N) :
    Host.gather (rowGather N C n sb ss wf) x idx (ix2 p q) = x (ix2 ⟨min (idx (ixP p)).toInt.toNat (N - 1), by omega⟩ q) := by
  unfold Host.gather
  congr 1
  funext a
  apply Fin.ext
  match a with
  | ⟨0, h0⟩ =>
    show (rowGather N C n sb ss wf).start (ix2 p q) idx ⟨0, h0⟩ + (rowGather N C n sb ss wf).batchCoord (ix2 p q) ⟨0, h0⟩
      + (rowGather N C n sb ss wf).offCoord (ix2 p q) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ (rowGather N C n sb ss wf).startIndexMap from List.mem_singleton.mpr rfl)]
    have hsl : ss 0 = 1 := (rowGather N C n sb ss wf).slice_collapsed 0 (List.mem_singleton.mpr rfl)
    have hsi : (rowGather N C n sb ss wf).siIdx (ix2 p q) ⟨List.idxOf (⟨0, h0⟩ : Fin 2) (rowGather N C n sb ss wf).startIndexMap,
        List.idxOf_lt_length_iff.2 (List.mem_singleton.mpr rfl)⟩ = ixP p := by
      funext b; refine Fin.ext ?_
      match b with
      | ⟨0, _⟩ => rfl
      | ⟨1, _⟩ => rfl
    rw [hsi]
    show min (idx (ixP p)).toInt.toNat (N - ss 0) = _
    rw [hsl]
  | ⟨1, h1⟩ =>
    show (rowGather N C n sb ss wf).start (ix2 p q) idx ⟨1, h1⟩ + (rowGather N C n sb ss wf).batchCoord (ix2 p q) ⟨1, h1⟩
      + (rowGather N C n sb ss wf).offCoord (ix2 p q) ⟨1, h1⟩ = _
    rw [GatherDims.batchCoord_eq_zero _ _ _ List.not_mem_nil]
    unfold GatherDims.start
    rw [dif_neg (fun h => absurd (congrArg Fin.val (List.mem_singleton.mp h)) Nat.one_ne_zero)]
    simp only [Nat.zero_add, Nat.add_zero]
    rfl

/-- THE ROW GATHER. `table[idx]` over a rank-2 table: one collapsed, start-indexed axis (the rows), the columns an
    offset axis taken whole, the index vector on axis 1 of the `[n, 1]` column of positions. Result element `(p, q)` is the
    table's element `(r, q)`, `r` the position `idx p` read signed and clamped into `[0, N - 1]`. -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (ix2 p q) = x (ix2 ⟨min (idx (ixP p)).toInt.toNat (N - 1), by omega⟩ q) := by
  obtain ⟨od, cd, ob, sb, sim, ivd, ss, wf⟩ := d
  dsimp only at hoff hcoll hob hsim hivd
  subst hoff hcoll hob hsim hivd
  exact rowGather_apply sb ss wf x idx p q hN

/-! ## The row scatter -/

/-- The row scatter's dimension numbers: the rows inserted and scattered, the columns a window axis, the index vector
    on axis 1 of the column of positions. -/
abbrev rowScatter (N C n : Nat) (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ :=
  ⟨[1], [0], [0], 1, wf⟩

section
variable {N C n w : Nat} (wf : ScatterDims.WF ⟨2, ![N, C]⟩ ⟨2, ![n, 1]⟩ ⟨2, ![n, C]⟩ [1] [0] [0] 1)
  (idx : IVec ⟨2, ![n, 1]⟩ w) (e : Fin n) (q : Fin C)

theorem rowScatter_start0 (h0 : 0 < 2) : (rowScatter N C n wf).start (ix2 e q) idx ⟨0, h0⟩ = (idx (ixP e)).toInt := by
  unfold ScatterDims.start
  rw [dif_pos (show (⟨0, h0⟩ : Fin 2) ∈ (rowScatter N C n wf).scatterDimsToOperandDims from List.mem_singleton.mpr rfl)]
  have hsi : (rowScatter N C n wf).siIdx (ix2 e q) ⟨List.idxOf (⟨0, h0⟩ : Fin 2) (rowScatter N C n wf).scatterDimsToOperandDims,
      List.idxOf_lt_length_iff.2 (List.mem_singleton.mpr rfl)⟩ = ixP e := by
    funext b; refine Fin.ext ?_
    match b with
    | ⟨0, _⟩ => rfl
    | ⟨1, _⟩ => rfl
  rw [hsi]

theorem rowScatter_start1 (h1 : 1 < 2) : (rowScatter N C n wf).start (ix2 e q) idx ⟨1, h1⟩ = 0 := by
  unfold ScatterDims.start
  rw [dif_neg (fun h => absurd (congrArg Fin.val (List.mem_singleton.mp h)) Nat.one_ne_zero)]

theorem rowScatter_sKept : (rowScatter N C n wf).sKept = [(1 : Fin 2)] := rfl

theorem rowScatter_window0 (h0 : 0 < 2) : (rowScatter N C n wf).window (ix2 e q) ⟨0, h0⟩ = 0 := by
  unfold ScatterDims.window
  rw [dif_neg (fun h => by
    rw [rowScatter_sKept] at h
    exact absurd (congrArg Fin.val (List.mem_singleton.mp h)) (Nat.zero_ne_one))]

theorem rowScatter_window1 (h1 : 1 < 2) : (rowScatter N C n wf).window (ix2 e q) ⟨1, h1⟩ = q.val := by
  unfold ScatterDims.window
  rw [dif_pos (by rw [rowScatter_sKept]; exact List.mem_singleton.mpr rfl)]
  rfl

theorem rowScatter_resultIdx (i : (⟨2, ![N, C]⟩ : Shape).Idx) :
    (rowScatter N C n wf).resultIdx? (ix2 e q) idx = some i ↔ (idx (ixP e)).toInt = ((i 0).val : Int) ∧ q = i 1 := by
  have hi0 : (i 0).val < N := (i 0).isLt
  have hi1 : (i 1).val < C := (i 1).isLt
  have hq : q.val < C := q.isLt
  constructor
  · intro hres
    unfold ScatterDims.resultIdx? at hres
    split at hres
    · rename_i h
      have hres' := Option.some.inj hres
      have e0 : ((rowScatter N C n wf).start (ix2 e q) idx ⟨0, Nat.zero_lt_two⟩ + (rowScatter N C n wf).window (ix2 e q) ⟨0, Nat.zero_lt_two⟩).toNat = (i 0).val :=
        congrArg Fin.val (congrFun hres' ⟨0, Nat.zero_lt_two⟩)
      have e1 : ((rowScatter N C n wf).start (ix2 e q) idx ⟨1, Nat.one_lt_two⟩ + (rowScatter N C n wf).window (ix2 e q) ⟨1, Nat.one_lt_two⟩).toNat = (i 1).val :=
        congrArg Fin.val (congrFun hres' ⟨1, Nat.one_lt_two⟩)
      have h0 := (h ⟨0, Nat.zero_lt_two⟩).1
      rw [rowScatter_start0, rowScatter_window0] at e0 h0
      rw [rowScatter_start1, rowScatter_window1] at e1
      refine ⟨by omega, Fin.ext (by omega)⟩
    · exact absurd hres (by simp)
  · rintro ⟨ht, hq'⟩
    unfold ScatterDims.resultIdx?
    have h : ∀ a : Fin 2, 0 ≤ (rowScatter N C n wf).start (ix2 e q) idx a + (rowScatter N C n wf).window (ix2 e q) a
        ∧ (rowScatter N C n wf).start (ix2 e q) idx a + (rowScatter N C n wf).window (ix2 e q) a < (⟨2, ![N, C]⟩ : Shape).size a := by
      intro a
      match a with
      | ⟨0, h0⟩ =>
        rw [rowScatter_start0, rowScatter_window0, ht]
        show 0 ≤ ((i 0).val : Int) + ((0 : Nat) : Int) ∧ ((i 0).val : Int) + ((0 : Nat) : Int) < (N : Int)
        omega
      | ⟨1, h1⟩ =>
        rw [rowScatter_start1, rowScatter_window1]
        show 0 ≤ (0 : Int) + (q.val : Int) ∧ (0 : Int) + (q.val : Int) < (C : Int)
        omega
    rw [dif_pos h]
    congr 1
    funext a
    apply Fin.ext
    match a with
    | ⟨0, h0⟩ =>
      show ((rowScatter N C n wf).start (ix2 e q) idx ⟨0, h0⟩ + (rowScatter N C n wf).window (ix2 e q) ⟨0, h0⟩).toNat = (i ⟨0, h0⟩).val
      rw [rowScatter_start0, rowScatter_window0, ht]
      show (((i 0).val : Int) + ((0 : Nat) : Int)).toNat = (i 0).val
      omega
    | ⟨1, h1⟩ =>
      show ((rowScatter N C n wf).start (ix2 e q) idx ⟨1, h1⟩ + (rowScatter N C n wf).window (ix2 e q) ⟨1, h1⟩).toNat = (i ⟨1, h1⟩).val
      rw [rowScatter_start1, rowScatter_window1, hq']
      show ((0 : Int) + ((i 1).val : Int)).toNat = (i 1).val
      omega

end

/-- THE ROW SCATTER's landing place. `table.at[idx].add(updates)` over a rank-2 table: the rows an inserted, scattered
    axis, the columns a window axis taken whole, the index vector on axis 1 of the `[n, 1]` column of positions. Update
    element `(e, q)` lands on table element `i` exactly when the position `idx e`, read signed and NOT clamped, is `i`'s
    row and `q` is `i`'s column; a position outside `[0, N)` lands nowhere. -/
theorem resultIdx_rows {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (idx : IVec ⟨2, ![n, 1]⟩ w) (e : Fin n) (q : Fin C) (i : (⟨2, ![N, C]⟩ : Shape).Idx) :
    d.resultIdx? (ix2 e q) idx = some i ↔ (idx (ixP e)).toInt = ((i 0).val : Int) ∧ q = i 1 := by
  obtain ⟨uw, iw, sd, ivd, wf⟩ := d
  dsimp only at huw hiw hsd hivd
  subst huw hiw hsd hivd
  exact rowScatter_resultIdx wf idx e q i

end Idealize.ShloMosaic.RowIndexed
-- ==== Proof.LibScatterAddRows.lean ====
/-
  A float scatter-add of ROWS read at an element, at the ideal instance (floats are extended reals).

  `table.at[idx].add(updates)` over a rank-2 table `[N, C]`, an `[R, 1]` column of positions and `[R, C]` updates
  (`jax.ops.segment_sum(updates, idx, num_segments = N)` when the table is zero): update row `e` is added to table
  row `idx e`, the position read signed and NOT clamped, so a position outside `[0, N)` contributes nothing. At the
  ideal instance the colliding updates are summed exactly, so the result at `(n, q)` is the table's entry plus the
  sum, over the update rows `e` whose position is `n`, of `updates (e, q)` (`scatterAdd_rows_apply`).

  The columns do not interact: the sum at `(n, q)` only reads column `q` of the updates. Hence scatter-adding a wide
  array and then keeping the block of columns `[off, off + C')` is scatter-adding that block of the updates onto that
  block of the table (`scatterAdd_rows_slice`); in particular, when the updates are a column-wise concatenation and the
  block is one piece's columns, it is scatter-adding that piece alone (`scatterAdd_rows_concat_slice`).
-/
import proofs.«406569_j31748398252730_1_alg».proof.Proof.LibRowIndexed
import Idealize.ShloMosaic.PureOps.Ideal
import Idealize.ShloMosaic.Lib.ValueIdx
import Idealize.ShloMosaic.Lib.Pipeline.Value
import Mathlib.Algebra.BigOperators.Group.Finset.Basic

noncomputable section

open scoped BigOperators

namespace Idealize.ShloMosaic.ScatterAddRows

open Idealize.ShloMosaic Idealize.ShloMosaic.ValueIdx Idealize.ShloMosaic.StableHlo.Predicate
open Idealize.ShloMosaic.RowIndexed

/-- THE ROW SCATTER-ADD AT AN ELEMENT. The rows an inserted, scattered axis, the columns a window axis taken whole,
    the index vector on axis 1 of the `[R, 1]` column of positions: the result at `(n, q)` is the operand's entry plus
    the sum of `upd (e, q)` over the update rows `e` whose position, read as a signed integer, is `n`. -/
theorem scatterAdd_rows_apply {φ : FTy} {N C R w : Nat} (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![R, 1]⟩ w) (upd : FVec Ideal ⟨2, ![R, C]⟩ φ) (n : Fin N) (q : Fin C) :
    Host.scatterAdd d x idx upd (ix2 n q)
      = x (ix2 n q) + ∑ e ∈ Finset.univ.filter (fun e : Fin R => (idx (ixP e)).toInt = (n.val : Int)), upd (ix2 e q) := by
  show Ideal.hostScatterAdd d x idx upd (ix2 n q) = _
  unfold Ideal.hostScatterAdd
  congr 1
  -- an update element (a, b) lands on (n, q) exactly when its row's position is n and its column is q
  have hland : ∀ (a : Fin R) (b : Fin C),
      d.resultIdx? (ix2 a b) idx = some (ix2 n q) ↔ (idx (ixP a)).toInt = (n.val : Int) ∧ b = q :=
    fun a b => resultIdx_rows d huw hiw hsd hivd idx a b (ix2 n q)
  -- so the update elements that land on (n, q) are the (e, q) with position n: re-index the sum along e
  refine Finset.sum_nbij' (fun j => (idxEquiv2 j).1) (fun e => ix2 e q) ?_ ?_ ?_ ?_ ?_
  · intro j hj
    obtain ⟨a, b, rfl⟩ : ∃ a b, j = ix2 a b := ⟨j 0, j 1, eq_ix2 j⟩
    have hj' := (hland a b).mp (Finset.mem_filter.mp hj).2
    exact Finset.mem_filter.mpr ⟨Finset.mem_univ _, hj'.1⟩
  · intro e he
    exact Finset.mem_filter.mpr ⟨Finset.mem_univ _, (hland e q).mpr ⟨(Finset.mem_filter.mp he).2, rfl⟩⟩
  · intro j hj
    obtain ⟨a, b, rfl⟩ : ∃ a b, j = ix2 a b := ⟨j 0, j 1, eq_ix2 j⟩
    have hb : b = q := ((hland a b).mp (Finset.mem_filter.mp hj).2).2
    subst hb
    rfl
  · intro e _
    rfl
  · intro j hj
    obtain ⟨a, b, rfl⟩ : ∃ a b, j = ix2 a b := ⟨j 0, j 1, eq_ix2 j⟩
    have hb : b = q := ((hland a b).mp (Finset.mem_filter.mp hj).2).2
    subst hb
    rfl

/-- THE COLUMNS OF A ROW SCATTER-ADD DO NOT INTERACT. Scatter-adding `[R, C]` updates onto an `[N, C]` table and keeping
    the columns `[off, off + C')` is scatter-adding, with the same positions, the updates' columns `[off, off + C')`
    (`hu`) onto the table's columns `[off, off + C')` (`hx`). -/
theorem scatterAdd_rows_slice {φ : FTy} {N C C' R w off : Nat}
    (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hivd : d.indexVectorDim = 1)
    (d' : ScatterDims ⟨2, ![N, C']⟩ ⟨2, ![R, 1]⟩ ⟨2, ![R, C']⟩)
    (huw' : d'.updateWindowDims = [1]) (hiw' : d'.insertedWindowDims = [0]) (hsd' : d'.scatterDimsToOperandDims = [0])
    (hivd' : d'.indexVectorDim = 1)
    (x : FVec Ideal ⟨2, ![N, C]⟩ φ) (x' : FVec Ideal ⟨2, ![N, C']⟩ φ) (idx : IVec ⟨2, ![R, 1]⟩ w)
    (upd : FVec Ideal ⟨2, ![R, C]⟩ φ) (upd' : FVec Ideal ⟨2, ![R, C']⟩ φ)
    (hsl : (⟨2, ![N, C]⟩ : Shape).Slices ![0, off] ⟨2, ![N, C']⟩)
    (hx : ∀ (n : Fin N) (q : Fin C') (k : Fin C), k.val = off + q.val → x' (ix2 n q) = x (ix2 n k))
    (hu : ∀ (e : Fin R) (q : Fin C') (k : Fin C), k.val = off + q.val → upd' (ix2 e q) = upd (ix2 e k)) :
    extractStridedSlice ⟨2, ![N, C']⟩ ![0, off] (Host.scatterAdd d x idx upd) hsl = Host.scatterAdd d' x' idx upd' := by
  funext j
  obtain ⟨n, q, rfl⟩ : ∃ n q, j = ix2 n q := ⟨j 0, j 1, eq_ix2 j⟩
  have hk : off + q.val < C := by
    have h := hsl.2 (1 : Fin 2)
    have hq := q.isLt
    show off + q.val < C
    have h' : off + C' ≤ C := h
    omega
  rw [extractStridedSlice_apply ![0, off] _ hsl (ix2 n q) (ix2 n ⟨off + q.val, hk⟩) (fun a => by
    match a with
    | ⟨0, _⟩ => show n.val = 0 + n.val; omega
    | ⟨1, _⟩ => rfl)]
  rw [scatterAdd_rows_apply d huw hiw hsd hivd, scatterAdd_rows_apply d' huw' hiw' hsd' hivd']
  rw [hx n q ⟨off + q.val, hk⟩ rfl]
  congr 1
  exact Finset.sum_congr rfl (fun e _ => (hu e q ⟨off + q.val, hk⟩ rfl).symm)

/-- SCATTER-ADDING A COLUMN-WISE CONCATENATION AND KEEPING ONE PIECE'S COLUMNS is scatter-adding that piece alone. The
    updates are pieces laid side by side along axis 1; piece `k`, of `C'` columns, starts at column `off` (`hpre`: the
    pieces before it have `off` columns together). Keeping the columns `[off, off + C')` of the scatter-add of the whole
    concatenation onto `x` is the scatter-add of piece `k` onto the same columns of `x` (`hx`). -/
theorem scatterAdd_rows_concat_slice {φ : FTy} {N C C' R w off : Nat}
    (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hivd : d.indexVectorDim = 1)
    (d' : ScatterDims ⟨2, ![N, C']⟩ ⟨2, ![R, 1]⟩ ⟨2, ![R, C']⟩)
    (huw' : d'.updateWindowDims = [1]) (hiw' : d'.insertedWindowDims = [0]) (hsd' : d'.scatterDimsToOperandDims = [0])
    (hivd' : d'.indexVectorDim = 1)
    (x : FVec Ideal ⟨2, ![N, C]⟩ φ) (x' : FVec Ideal ⟨2, ![N, C']⟩ φ) (idx : IVec ⟨2, ![R, 1]⟩ w)
    (xs : List ((s : Shape) × (s.Idx → Ideal φ)))
    (hcat : Shape.Concatenates (xs.map (·.1)) ⟨2, ![R, C]⟩ 1)
    (k : Nat) (hk : k < xs.length) (upd' : FVec Ideal ⟨2, ![R, C']⟩ φ) (hxk : xs[k] = ⟨⟨2, ![R, C']⟩, upd'⟩)
    (hpre : (((xs.take k).map (·.1)).map fun s : Shape =>
      if h : s.rank = (⟨2, ![R, C]⟩ : Shape).rank then s.size ((1 : Fin (⟨2, ![R, C]⟩ : Shape).rank).cast h.symm) else 0).sum = off)
    (hsl : (⟨2, ![N, C]⟩ : Shape).Slices ![0, off] ⟨2, ![N, C']⟩)
    (hx : ∀ (n : Fin N) (q : Fin C') (c : Fin C), c.val = off + q.val → x' (ix2 n q) = x (ix2 n c)) :
    extractStridedSlice ⟨2, ![N, C']⟩ ![0, off] (Host.scatterAdd d x idx (concatenate ⟨2, ![R, C]⟩ 1 xs hcat)) hsl
      = Host.scatterAdd d' x' idx upd' := by
  refine scatterAdd_rows_slice d huw hiw hsd hivd d' huw' hiw' hsd' hivd' x x' idx _ upd' hsl hx ?_
  intro e q c hc
  -- column c = off + q of the concatenation lies in piece k, at that piece's column q
  refine (concatenate_apply_piece (1 : Fin 2) xs hcat (ix2 e c) k hk ⟨2, ![R, C']⟩ upd' hxk rfl off hpre (ix2 e q) ?_ ?_).symm
  · intro b hb
    match b with
    | ⟨0, _⟩ => rfl
    | ⟨1, _⟩ => exact absurd rfl hb
  · show off + q.val = c.val
    omega

end Idealize.ShloMosaic.ScatterAddRows

end
-- ==== Proof.LibScatterVec.lean ====
/-
  A scatter into a vector at a column of positions, read at an index.

  `x.at[idx].add(u)` over a rank-1 operand `x : [N]`, positions `idx : [n, 1]` and updates `u : [n]` (no window
  axes: the operand's one axis is inserted and start-indexed, the index vector on axis 1). Update `p` lands on
  element `k` exactly when position `p`, read signed, is `k`; a position outside `[0, N)` lands nowhere. On the
  extended reals the accumulating scatter is the operand's element plus the sum of the updates landing on it.
-/
import Idealize.ShloMosaic.PureOps
import Idealize.ShloMosaic.PureOps.Ideal
import Idealize.ShloMosaic.Lib.ValueIdx

noncomputable section

namespace Cert.Lib.ScatterVec

open Idealize.ShloMosaic Idealize.ShloMosaic.ValueIdx

/-- Update `p` lands on element `k` iff its position, read signed, is `k`. -/
theorem resultIdx?_eq_some_iff {N n w : Nat} (d : ScatterDims ⟨1, ![N]⟩ ⟨2, ![n, 1]⟩ ⟨1, ![n]⟩)
    (hins : d.insertedWindowDims = [0]) (hsd : d.scatterDimsToOperandDims = [0]) (hivd : d.indexVectorDim = 1)
    (idx : IVec ⟨2, ![n, 1]⟩ w) (p : Fin n) (k : Fin N) :
    d.resultIdx? (ix1 p) idx = some (ix1 k) ↔ (idx (ix2 p (0 : Fin 1))).toInt = (k.val : Int) := by
  have hk : ∀ a : Fin (⟨1, ![N]⟩ : Shape).rank, a ∉ d.sKept := by
    intro a
    have ha : a = 0 := Subsingleton.elim _ _
    subst ha
    simp [ScatterDims.sKept, Shape.kept, hins]
  have hm : (0 : Fin (⟨1, ![N]⟩ : Shape).rank) ∈ d.scatterDimsToOperandDims := by
    rw [hsd]; exact List.mem_singleton.mpr rfl
  have hcoord : ∀ X : Fin (⟨1, ![n]⟩ : Shape).rank, ((ix1 p : (⟨1, ![n]⟩ : Shape).Idx) X).val = p.val := fun X => by
    have hX : X = 0 := Subsingleton.elim _ _
    subst hX; rfl
  have hwin : ∀ a, d.window (ix1 p) a = 0 := fun a => by
    unfold ScatterDims.window; rw [dif_neg (hk a)]
  have hstart : ∀ a, d.start (ix1 p) idx a = (idx (ix2 p (0 : Fin 1))).toInt := fun a => by
    have ha : a = 0 := Subsingleton.elim _ _
    subst ha
    unfold ScatterDims.start
    rw [dif_pos hm]
    congr 2
    funext b
    match b with
    | ⟨0, _⟩ =>
      -- axis 0 is not the index vector's axis: it carries the update's scatter coordinate
      unfold ScatterDims.siIdx
      rw [dif_neg (by rw [hivd]; exact Nat.zero_ne_one)]
      unfold ScatterDims.siCoord
      apply Fin.ext
      rw [Fin.val_cast]
      exact hcoord _
    | ⟨1, _⟩ =>
      -- axis 1 is the index vector's axis: it carries the component's number, the place of operand axis 0 in the map
      unfold ScatterDims.siIdx
      rw [dif_pos (by rw [hivd])]
      apply Fin.ext
      show List.idxOf (0 : Fin (⟨1, ![N]⟩ : Shape).rank) d.scatterDimsToOperandDims = 0
      rw [hsd]; simp
  unfold ScatterDims.resultIdx?
  split
  · -- in range: the landing index is the one with coordinate (start + 0).toNat
    rename_i h
    have h0 := h 0
    rw [hstart, hwin] at h0
    rw [Option.some.injEq]
    constructor
    · intro hf
      have hv : (d.start (ix1 p) idx 0 + (d.window (ix1 p) 0 : Nat)).toNat = k.val :=
        congrArg (fun f : (⟨1, ![N]⟩ : Shape).Idx => (f 0).val) hf
      rw [hstart, hwin] at hv
      omega
    · intro hv
      funext a
      have ha : a = 0 := Subsingleton.elim _ _
      subst ha
      apply Fin.ext
      show (d.start (ix1 p) idx 0 + (d.window (ix1 p) 0 : Nat)).toNat = k.val
      rw [hstart, hwin, hv]
      omega
  · -- out of range: nothing lands, and the position is no element's number
    rename_i h
    constructor
    · intro hf
      cases hf
    · intro hv
      exfalso
      apply h
      intro a
      have ha : a = 0 := Subsingleton.elim _ _
      subst ha
      rw [hstart, hwin, hv]
      have hN : (⟨1, ![N]⟩ : Shape).size 0 = N := rfl
      rw [hN]
      have := k.isLt
      omega

/-- The accumulating scatter on the extended reals, read at element `k`. -/
theorem scatterAdd_apply {N n w : Nat} {φ : FTy} (d : ScatterDims ⟨1, ![N]⟩ ⟨2, ![n, 1]⟩ ⟨1, ![n]⟩)
    (hins : d.insertedWindowDims = [0]) (hsd : d.scatterDimsToOperandDims = [0]) (hivd : d.indexVectorDim = 1)
    (x : FVec Ideal ⟨1, ![N]⟩ φ) (idx : IVec ⟨2, ![n, 1]⟩ w) (upd : FVec Ideal ⟨1, ![n]⟩ φ) (k : Fin N) :
    Host.scatterAdd (F := Ideal) d x idx upd (ix1 k)
      = x (ix1 k) + ∑ p : Fin n, if (idx (ix2 p (0 : Fin 1))).toInt = (k.val : Int) then upd (ix1 p) else 0 := by
  -- the accumulating scatter at an element: the element plus the sum of the updates landing on it
  show x (ix1 k) + ∑ j ∈ Finset.univ.filter (fun j => d.resultIdx? j idx = some (ix1 k)), upd j = _
  congr 1
  rw [Finset.sum_filter]
  -- the update indices are the numbers below n, through their one coordinate
  let e : (⟨1, ![n]⟩ : Shape).Idx ≃ Fin n :=
    ⟨fun j => j 0, fun p => ix1 p, fun j => (eq_ix1 j).symm, fun _ => rfl⟩
  refine Fintype.sum_equiv e _ _ (fun j => ?_)
  obtain ⟨p, rfl⟩ : ∃ p : Fin n, j = ix1 p := ⟨j 0, eq_ix1 j⟩
  exact if_congr (resultIdx?_eq_some_iff d hins hsd hivd idx p k) rfl rfl

end Cert.Lib.ScatterVec

end
-- ==== Proof.RefMeanIdx.lean ====
/-
  The reference's segment mean read at an index, on the extended reals: the host's accumulating scatter of the rows
  into a zero array is, at segment b and column d, the sum of the rows whose id lands on b; of ones into a zero
  vector, their number; the quotient by the count (at least one) broadcast along the row is the segment mean.
-/
import proofs.«406569_j31748398252730_1_alg».proof.Proof.RefTerm
import proofs.«406569_j31748398252730_1_alg».proof.Proof.Spec
import proofs.«406569_j31748398252730_1_alg».proof.Proof.LibScatterAddRows
import proofs.«406569_j31748398252730_1_alg».proof.Proof.LibScatterVec
import proofs.«406569_j31748398252730_1_alg».proof.Proof.LibColumn
import Idealize.ShloMosaic.PureOps.Ideal.Laws
import Idealize.ShloMosaic.Lib.ValueLayout
import Idealize.ShloMosaic.Lib.IdealHost

noncomputable section

namespace Cert.ReferenceIdeal.Hand

open Idealize.ShloMosaic Idealize.ShloMosaic.TcCoe Idealize.SL.Sem
open Cert.ReferenceIdeal ValueIdx
open Cert.ReferenceIdeal.Facts₀
open Idealize.ShloMosaic.StableHlo.Predicate

/-- The rank-1 index at a coordinate, in its two spellings. -/
theorem ofFin_eq_ix1 {n : Nat} (k : Fin n) : (Shape.Idx.ofFin k : (⟨1, ![n]⟩ : Shape).Idx) = ix1 k :=
  (eq_ix1 _).trans (congrArg ix1 (Shape.Idx.ofFin_zero k))

/-- Row p of a column, in its two spellings. -/
theorem ixP_eq_ix2 {n : Nat} (p : Fin n) : (ixP p : (⟨2, ![n, 1]⟩ : Shape).Idx) = ix2 p (0 : Fin 1) := by
  funext a; match a with | ⟨0, _⟩ => rfl | ⟨1, _⟩ => rfl

/-- Entry (p, q) of a rectangle, in its two spellings. -/
theorem ij_eq_ix2 {n m : Nat} (p : Fin n) (q : Fin m) : (ij p q : (⟨2, ![n, m]⟩ : Shape).Idx) = ix2 p q := by
  funext a; match a with | ⟨0, _⟩ => rfl | ⟨1, _⟩ => rfl

/-- The ids kept as a column read, at row e, the id of row e. -/
theorem idcol_apply (ids : IVec S500000 32) (e : Fin 500000) :
    broadcastInDim S500000x1 ![0] bcast_S500000_S500000x1_0 ids (ixP e) = ids (ix1 e) := by
  rw [bcast_col1, ofFin_eq_ix1]

/-- The rows scattered and added into a zero array read, at segment b and column d, the segment's sum: the rows whose
    id, read signed, is b land on row b, every other row lands elsewhere or nowhere. -/
theorem refSum_apply (x : FVec Ideal S500000x128 .f32) (ids : IVec S500000 32) (b : Fin 64) (d : Fin 128) :
    Host.scatterAdd (F := Ideal) scatter_S64x128_S500000x1_S500000x128_1_0_0_1
        (broadcastInDim S64x128 ![] bcast_S_S64x128 (constant (F := Ideal) S_ .f32 0x00000000#32))
        (broadcastInDim S500000x1 ![0] bcast_S500000_S500000x1_0 ids) x (ix2 b d)
      = Cert.Spec.segSum x ids b d := by
  refine (ScatterAddRows.scatterAdd_rows_apply scatter_S64x128_S500000x1_S500000x128_1_0_0_1 rfl rfl rfl rfl _ _ _ b d).trans ?_
  rw [broadcastInDim_scalar_apply, constant_apply, Ideal.ofBits_zero_f32, zero_add, Finset.sum_filter]
  unfold Cert.Spec.segSum
  refine Finset.sum_congr rfl fun n _ => ?_
  rw [idcol_apply]
  rfl

/-- Ones scattered and added into a zero vector read, at segment b, the segment's count. -/
theorem refCnt_apply (ids : IVec S500000 32) (b : Fin 64) :
    Host.scatterAdd (F := Ideal) scatter_S64_S500000x1_S500000_n_0_0_1
        (broadcastInDim S64 ![] bcast_S_S64 (constant (F := Ideal) S_ .f32 0x00000000#32))
        (broadcastInDim S500000x1 ![0] bcast_S500000_S500000x1_0 ids)
        (broadcastInDim S500000 ![] bcast_S_S500000 (constant (F := Ideal) S_ .f32 0x3F800000#32)) (ix1 b)
      = Cert.Spec.segCnt ids b := by
  refine (Cert.Lib.ScatterVec.scatterAdd_apply scatter_S64_S500000x1_S500000_n_0_0_1 rfl rfl rfl _ _ _ b).trans ?_
  rw [broadcastInDim_scalar_apply, constant_apply, Ideal.ofBits_zero_f32, zero_add]
  unfold Cert.Spec.segCnt
  refine Finset.sum_congr rfl fun n _ => ?_
  rw [← ixP_eq_ix2, idcol_apply, broadcastInDim_scalar_apply, constant_apply, Cert.Spec.ofBits_one]
  rfl

theorem refMean_apply (x : FVec Ideal S500000x128 .f32) (ids : IVec S500000 32) (b : Fin 64) (d : Fin 128) :
    refMean (F := Ideal) x ids (ix2 b d) = Cert.Spec.segMean x ids b d := by
  unfold refMean
  refine (hostDivf_apply _ _ (ix2 b d)).trans ?_
  unfold Cert.Spec.segMean
  refine congrArg₂ Ideal.div (refSum_apply x ids b d) ?_
  -- the count kept as a column and laid along the row reads the count of segment b, taken at least one
  rw [← ij_eq_ix2, bcast_rows, ofFin_eq_ix1, maximumf_apply, refCnt_apply, broadcastInDim_scalar_apply, constant_apply,
    Cert.Spec.ofBits_one]

end Cert.ReferenceIdeal.Hand

end
-- ==== Proof.LibDotPlain.lean ====
/-
  The host's plain matrix product, read at an index.

  For dimension numbers that contract the left operand's axis 1 with the right operand's axis 0, keep the left operand's
  axis 0 and the right operand's axis 1, and have no batch axis, the host's product of `l : [M, K]` and `r : [K, N]` is,
  at `(p, q)`, the sum over `k < K` of `l (p, k) · r (k, q)` on the extended reals: the host's product has no
  accumulator, and its contraction index set has one axis of extent `K`, whose one coordinate re-indexes the sum. The
  four facts about the operands' coordinates are those of the dimension numbers alone and are the ones the accumulating
  product uses.
-/
import Idealize.ShloMosaic.PureOps.Ideal.Laws
import Idealize.ShloMosaic.Lib.ValueIdx
import proofs.«406569_j31748398252730_1_alg».proof.Proof.LibMatmulPlain

noncomputable section

namespace Cert.Lib.DotPlain

open Idealize.ShloMosaic Idealize.ShloMosaic.ValueIdx Cert.Lib.MatmulPlain

variable {M K N : Nat} (d : DotDims ⟨2, ![M, K]⟩ ⟨2, ![K, N]⟩ ⟨2, ![M, N]⟩)

/-- THE HOST'S PRODUCT AT `(p, q)`: the sum over the contracted coordinate of the operands' products. -/
theorem dot_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  show FloatOps.dotGeneral d prec HostSchedule.single l r (ix2 p q) = _
  rw [Ideal.dotGeneral_apply]
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 p k := by
    funext a; apply Fin.ext
    match a with
    | ⟨0, _⟩ => exact lhs_0 d hln hlb _ _
    | ⟨1, _⟩ => exact (lhs_1 d hlc _ _).trans hk
  have er : d.rhsIdx (ix2 p q) ((contrEquiv1 d K (contr_rank d hlc) (contr_size d hlc)).symm k) = ix2 k q := by
    funext a; apply Fin.ext
    match a with
    | ⟨0, _⟩ => exact (rhs_0 d hlc hrc _ _).trans hk
    | ⟨1, _⟩ => exact rhs_1 d hrn hln hlb hrb _ _
  rw [el, er]

end Cert.Lib.DotPlain

end
-- ==== Proof.LibCat3.lean ====
/-
  Three pieces of one width laid side by side, read at an index.

  Three arrays of shape [M, 128] concatenated along axis 1 give an array of shape [M, 384]; at row `r` and column `q` it
  holds the first piece's entry (r, q) when q < 128, the second's entry (r, q − 128) when 128 ≤ q < 256, and the
  third's entry (r, q − 256) otherwise: the pieces before the one that holds column q have 0, 128 and 256 columns.
-/
import Idealize.ShloMosaic.Lib.Pipeline.Value
import Idealize.ShloMosaic.Lib.ValueIdx

noncomputable section

namespace Cert.Lib.Cat3

open Idealize.ShloMosaic Idealize.ShloMosaic.ValueIdx

variable {α : Type} {M : Nat}

/-- The three-piece concatenation along axis 1 at `(r, q)`, by the range column `q` falls in. -/
theorem concat3_apply (a b c : (⟨2, ![M, 128]⟩ : Shape).Idx → α)
    (h : Shape.Concatenates (([⟨⟨2, ![M, 128]⟩, a⟩, ⟨⟨2, ![M, 128]⟩, b⟩, ⟨⟨2, ![M, 128]⟩, c⟩] :
      List ((s : Shape) × (s.Idx → α))).map (·.1)) ⟨2, ![M, 384]⟩ 1)
    (r : Fin M) (q : Fin 384) :
    concatenate ⟨2, ![M, 384]⟩ 1 [⟨⟨2, ![M, 128]⟩, a⟩, ⟨⟨2, ![M, 128]⟩, b⟩, ⟨⟨2, ![M, 128]⟩, c⟩] h (ix2 r q)
      = if h1 : q.val < 128 then a (ix2 r ⟨q.val, h1⟩)
        else if h2 : q.val < 256 then b (ix2 r ⟨q.val - 128, by omega⟩)
        else c (ix2 r ⟨q.val - 256, by omega⟩) := by
  have hq := q.isLt
  by_cases h1 : q.val < 128
  · rw [dif_pos h1]
    refine concatenate_apply_piece (1 : Fin 2) _ h (ix2 r q) 0 (by show (0 : Nat) < 3; omega) ⟨2, ![M, 128]⟩ a rfl rfl 0 rfl
      (ix2 r ⟨q.val, h1⟩) ?_ ?_
    · intro d hd
      match d with
      | ⟨0, _⟩ => rfl
      | ⟨1, _⟩ => exact absurd rfl hd
    · show 0 + q.val = q.val; omega
  · rw [dif_neg h1]
    by_cases h2 : q.val < 256
    · rw [dif_pos h2]
      refine concatenate_apply_piece (1 : Fin 2) _ h (ix2 r q) 1 (by show (1 : Nat) < 3; omega) ⟨2, ![M, 128]⟩ b rfl rfl 128 rfl
        (ix2 r ⟨q.val - 128, by omega⟩) ?_ ?_
      · intro d hd
        match d with
        | ⟨0, _⟩ => rfl
        | ⟨1, _⟩ => exact absurd rfl hd
      · show 128 + (q.val - 128) = q.val; omega
    · rw [dif_neg h2]
      refine concatenate_apply_piece (1 : Fin 2) _ h (ix2 r q) 2 (by show (2 : Nat) < 3; omega) ⟨2, ![M, 128]⟩ c rfl rfl 256 rfl
        (ix2 r ⟨q.val - 256, by omega⟩) ?_ ?_
      · intro d hd
        match d with
        | ⟨0, _⟩ => rfl
        | ⟨1, _⟩ => exact absurd rfl hd
      · show 256 + (q.val - 256) = q.val; omega

end Cert.Lib.Cat3

end
-- ==== Proof.MlpVal.lean ====
/-
  The two-layer network on the extended reals: the kernel's body and the reference's host lines are one function.
  A product into a zero accumulator is the host's product (each a sum over the contracted axis); a change of float
  format is the identity; the bias added along rows is the same whichever way the row is cast and broadcast; the
  rectifier is the same comparison, product with the same f32 tenth, and selection. The three pieces set side by
  side are the same array on both sides.
-/
import proofs.«406569_j31748398252730_1_alg».proof.Proof.Gen.KernelIdeal.Skeleton
import proofs.«406569_j31748398252730_1_alg».proof.Proof.RefTerm
import proofs.«406569_j31748398252730_1_alg».proof.Proof.LibDotPlain
import proofs.«406569_j31748398252730_1_alg».proof.Proof.LibMatmulPlain
import proofs.«406569_j31748398252730_1_alg».proof.Proof.LibColumn
import proofs.«406569_j31748398252730_1_alg».proof.Proof.LibCat3
import Idealize.ShloMosaic.PureOps.Ideal.Laws
import Idealize.ShloMosaic.Lib.ValueLayout
import Idealize.ShloMosaic.Lib.Pipeline.Value

noncomputable section

namespace Cert.KernelIdeal.Hand

open Idealize.ShloMosaic Idealize.ShloMosaic.TcCoe Idealize.SL.Sem
open ValueIdx

/-- A vector of `n` entries cast to one row and the row broadcast down `m` rows reads, at `(p, q)`, the vector at `q`. -/
theorem rowCast_apply {α : Type} {m n : Nat} (b : (⟨1, ![n]⟩ : Shape).Idx → α)
    (h1 : (⟨1, ![n]⟩ : Shape).ShapeCasts ⟨2, ![1, n]⟩) (h2 : (⟨2, ![1, n]⟩ : Shape).Broadcasts ⟨2, ![m, n]⟩)
    (p : Fin m) (q : Fin n) :
    broadcastTo ⟨2, ![m, n]⟩ (shapeCast ⟨2, ![1, n]⟩ b h1) h2 (ix2 p q) = b (ix1 q) :=
  (broadcastTo_1b_ab_apply _ h2 p q).trans (shapeCast_a_1a_apply b h1 0 q)

/-- The same vector broadcast in dimensions to one row, and the row to `m` rows, reads the same. -/
theorem rowDims_apply {α : Type} {m n : Nat} (b : (⟨1, ![n]⟩ : Shape).Idx → α)
    (h4 : (⟨1, ![n]⟩ : Shape).BroadcastsInDim ⟨2, ![1, n]⟩ ![1])
    (h3 : (⟨2, ![1, n]⟩ : Shape).BroadcastsInDim ⟨2, ![m, n]⟩ ![0, 1]) (p : Fin m) (q : Fin n) :
    broadcastInDim ⟨2, ![m, n]⟩ ![0, 1] h3 (broadcastInDim ⟨2, ![1, n]⟩ ![1] h4 b) (ix2 p q) = b (ix1 q) := by
  refine (broadcastInDim_apply ![0, 1] h3 _ (ix2 p q) (ix2 (0 : Fin 1) q) ?_).trans
    (broadcastInDim_apply ![1] h4 b (ix2 (0 : Fin 1) q) (ix1 q) ?_)
  · intro a
    match a with
    | ⟨0, _⟩ => rfl
    | ⟨1, _⟩ =>
      show q.val = if n = 1 then 0 else q.val
      split
      · have := q.isLt; omega
      · rfl
  · intro a
    match a with
    | ⟨0, _⟩ =>
      show q.val = if n = 1 then 0 else q.val
      split
      · have := q.isLt; omega
      · rfl

/-- One layer: the kernel's product of the operands (their format changed, which is the identity) into a zero
    accumulator plus the bias laid along rows is the host's product plus the bias broadcast in dimensions. Both
    products are, at `(p, q)`, the sum over the contracted coordinate of the operands' products. -/
theorem layer_eq {K : Nat} (dK dR : DotDims ⟨2, ![64, K]⟩ ⟨2, ![K, 128]⟩ ⟨2, ![64, 128]⟩)
    (k1 : dK.lhsContracting = [1]) (k2 : dK.rhsContracting = [0]) (k3 : dK.lhsNonContracting = [0])
    (k4 : dK.rhsNonContracting = [1]) (k5 : dK.lhsBatch = []) (k6 : dK.rhsBatch = [])
    (r1 : dR.lhsContracting = [1]) (r2 : dR.rhsContracting = [0]) (r3 : dR.lhsNonContracting = [0])
    (r4 : dR.rhsNonContracting = [1]) (r5 : dR.lhsBatch = []) (r6 : dR.rhsBatch = [])
    (x' x : FVec Ideal ⟨2, ![64, K]⟩ .f32) (hx : x' = x) (W : FVec Ideal ⟨2, ![K, 128]⟩ .f32) (b : FVec Ideal ⟨1, ![128]⟩ .f32)
    (hb : FTy.bits .bf16 < FTy.bits .f32)
    (h1 : (⟨1, ![128]⟩ : Shape).ShapeCasts ⟨2, ![1, 128]⟩) (h2 : (⟨2, ![1, 128]⟩ : Shape).Broadcasts ⟨2, ![64, 128]⟩)
    (h4 : (⟨1, ![128]⟩ : Shape).BroadcastsInDim ⟨2, ![1, 128]⟩ ![1])
    (h3 : (⟨2, ![1, 128]⟩ : Shape).BroadcastsInDim ⟨2, ![64, 128]⟩ ![0, 1]) :
    addf (matmul dK none (truncf .bf16 x' hb) (truncf .bf16 W hb) (constant (F := Ideal) ⟨2, ![64, 128]⟩ .f32 0x00000000#32))
        (broadcastTo ⟨2, ![64, 128]⟩ (shapeCast ⟨2, ![1, 128]⟩ b h1) h2)
      = addf (Host.dotGeneral (F := Ideal) dR none x W)
        (broadcastInDim ⟨2, ![64, 128]⟩ ![0, 1] h3 (broadcastInDim ⟨2, ![1, 128]⟩ ![1] h4 b)) := by
  subst hx
  funext j
  obtain ⟨p, q, rfl⟩ : ∃ (p : Fin 64) (q : Fin 128), j = ix2 p q := ⟨j 0, j 1, eq_ix2 j⟩
  rw [addf_apply, addf_apply, rowCast_apply, rowDims_apply]
  refine congrArg (· + b (ix1 q)) ?_
  refine (Cert.Lib.MatmulPlain.matmul_zero_apply dK k1 k2 k3 k4 k5 k6 none _ _ p q).trans ?_
  exact (Cert.Lib.DotPlain.dot_apply dR r1 r2 r3 r4 r5 r6 none x' W p q).symm

/-- The rectifier: the kernel's splat of a scalar constant and the host's broadcast of the same constant are one
    constant array, so the comparison, the product and the selection are the same. -/
theorem leaky_eq (v : FVec Ideal ⟨2, ![64, 128]⟩ .f32) (h : (⟨0, ![]⟩ : Shape).BroadcastsInDim ⟨2, ![64, 128]⟩ ![]) :
    select (cmpf .oge v (broadcast ⟨2, ![64, 128]⟩ (Scalar.ofBits (F := Ideal) .f32 0x00000000#32))) v
        (mulf (broadcast ⟨2, ![64, 128]⟩ (Scalar.ofBits (F := Ideal) .f32 0x3DCCCCCD#32)) v)
      = select (cmpf .oge v (broadcastInDim ⟨2, ![64, 128]⟩ ![] h (constant (F := Ideal) ⟨0, ![]⟩ .f32 0x00000000#32))) v
        (mulf (broadcastInDim ⟨2, ![64, 128]⟩ ![] h (id (constant (F := Ideal) ⟨0, ![]⟩ .f32 0x3DCCCCCD#32))) v) := by
  funext j
  rfl

open Cert.ReferenceIdeal.Hand in
/-- The network's value. -/
theorem mlp_eq (x : FVec Ideal Cert.KernelIdeal.S64x384 .f32) (W1 : FVec Ideal Cert.KernelIdeal.S384x128 .f32) (b1 : FVec Ideal Cert.KernelIdeal.S128 .f32)
    (W2 : FVec Ideal Cert.KernelIdeal.S128x128 .f32) (b2 : FVec Ideal Cert.KernelIdeal.S128 .f32) :
    Cert.KernelIdeal.Gen.k1_pay1 (F := Ideal) x W1 b1 W2 b2 = refLin2 (F := Ideal) (refLeaky (refLin1 x W1 b1)) W2 b2 := by
  unfold Cert.KernelIdeal.Gen.k1_pay1 refLin2
  refine (layer_eq Cert.KernelIdeal.dot_S64x128_S128x128_S64x128_1_0_0_1_n_n
    Cert.ReferenceIdeal.dot_S64x128_S128x128_S64x128_1_0_0_1_n_n rfl rfl rfl rfl rfl rfl rfl rfl rfl rfl rfl rfl
    _ (refLeaky (refLin1 x W1 b1)) ?_ W2 b2 _ _ _ _ _).trans rfl
  unfold refLeaky
  refine (leaky_eq _ Cert.ReferenceIdeal.Facts₀.bcast_S_S64x128).trans ?_
  refine congrArg (fun v : FVec Ideal Cert.ReferenceIdeal.S64x128 .f32 =>
    select (cmpf .oge v (broadcastInDim Cert.ReferenceIdeal.S64x128 ![] Cert.ReferenceIdeal.Facts₀.bcast_S_S64x128 (constant (F := Ideal) Cert.ReferenceIdeal.S_ .f32 0x00000000#32))) v
      (mulf (broadcastInDim Cert.ReferenceIdeal.S64x128 ![] Cert.ReferenceIdeal.Facts₀.bcast_S_S64x128 (id (constant (F := Ideal) Cert.ReferenceIdeal.S_ .f32 0x3DCCCCCD#32))) v)) ?_
  unfold refLin1
  exact layer_eq Cert.KernelIdeal.dot_S64x384_S384x128_S64x128_1_0_0_1_n_n
    Cert.ReferenceIdeal.dot_S64x384_S384x128_S64x128_1_0_0_1_n_n rfl rfl rfl rfl rfl rfl rfl rfl rfl rfl rfl rfl
    _ x (shapeCast_self x _) W1 b1 _ _ _ _ _

open Cert.ReferenceIdeal.Hand in
/-- The three pieces side by side. -/
theorem cat_eq (u a b : FVec Ideal Cert.KernelIdeal.S64x128 .f32) :
    concatenate Cert.KernelIdeal.S64x384 1 [⟨Cert.KernelIdeal.S64x128, u⟩, ⟨Cert.KernelIdeal.S64x128, a⟩, ⟨Cert.KernelIdeal.S64x128, b⟩]
        Cert.KernelIdeal.Facts₀.concatenates_S64x128_S64x128_S64x128_S64x384_d1
      = refCat (F := Ideal) u a b := rfl

end Cert.KernelIdeal.Hand

end
-- ==== Proof.Bridge.lean ====
/-
  The two programs' results are one function of the argument arrays, on the extended reals. Each of the kernel
  program's two stored means is, index by index, the segment mean of the true rows (the padding rows weigh
  nothing), which is what the reference's scattered sums and counts give; the three pieces side by side and the
  two-layer network are then the same operations on both sides.
-/
import proofs.«406569_j31748398252730_1_alg».proof.Proof.RunVal
import proofs.«406569_j31748398252730_1_alg».proof.Proof.KMean
import proofs.«406569_j31748398252730_1_alg».proof.Proof.RefMeanIdx
import proofs.«406569_j31748398252730_1_alg».proof.Proof.MlpVal

noncomputable section

namespace Cert.KernelIdeal.Hand

open Idealize.ShloMosaic Idealize.ShloMosaic.TcCoe Idealize.SL.Sem
open Cert.KernelIdeal Cert.KernelIdeal.Gen ValueIdx
open Cert.ReferenceIdeal.Hand

variable (m : (ℓ : Loc nD τ sig) → Buf (Elt Ideal) ℓ)

/-- The first node set's stored mean is the reference's. -/
theorem mean_h_eq (c : Dev nD) :
    (k0_pay3 (F := Ideal) (acc (V8r m) c 123).1 (acc (V8r m) c 123).2.1 : S64x128.Idx → EReal)
      = refMean (F := Ideal) (m ((c.tc : Thread nD τ).loc main_arg0)) (m ((c.tc : Thread nD τ).loc main_arg5)) := by
  funext j
  obtain ⟨b, d, rfl⟩ : ∃ (b : Fin 64) (d : Fin 128), j = ix2 b d := ⟨j 0, j 1, eq_ix2 j⟩
  rw [kmean_h (V8r m) c _ _ (W8_v0 m c) (W8_v2 m c) b d]
  exact (refMean_apply _ _ b d).symm

/-- The second node set's stored mean is the reference's. -/
theorem mean_g_eq (c : Dev nD) :
    (k0_pay4 (F := Ideal) (acc (V8r m) c 123).2.2.1 (acc (V8r m) c 123).2.2.2 : S64x128.Idx → EReal)
      = refMean (F := Ideal) (m ((c.tc : Thread nD τ).loc main_arg1)) (m ((c.tc : Thread nD τ).loc main_arg6)) := by
  funext j
  obtain ⟨b, d, rfl⟩ : ∃ (b : Fin 64) (d : Fin 128), j = ix2 b d := ⟨j 0, j 1, eq_ix2 j⟩
  rw [kmean_g (V8r m) c _ _ (W8_v1 m c) (W8_v3 m c) b d]
  exact (refMean_apply _ _ b d).symm

/-- The kernel program's result is the reference's term of the same argument arrays. -/
theorem kres_eq (c : Dev nD) :
    kres m c = refVal (F := Ideal) (m ((c.tc : Thread nD τ).loc main_arg0)) (m ((c.tc : Thread nD τ).loc main_arg1))
      (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9))
      (m ((c.tc : Thread nD τ).loc main_arg10)) := by
  unfold kres refVal
  rw [mean_h_eq m c, mean_g_eq m c, cat_eq, mlp_eq]

end Cert.KernelIdeal.Hand

end
-- ==== Proof.lean ====
/-
  The certificate's claims, assembled.

  The kernel program is two pipelined regions among host operations: a scatter-mean over 123 blocks of 4096 node
  rows, accumulating each segment's sum as a one-hot product and each segment's count as a lane sum, dividing at
  the last block; then a two-layer network on the three pieces set side by side. Its run (every weakly fair
  execution terminates, nothing faults, the result buffer at a named term, the arguments unchanged) is proved once
  for any float interpretation and read at the word level for the printed kernel and on the extended reals for its
  idealization. The reference is a straight line of host operations. On the extended reals both results are the
  same function of the arguments: a padding row has an id that is no segment's and so weighs nothing; a row's
  one-hot weight is one exactly when the reference's scatter lands it on the segment; sums regroup freely; the
  network's lines are the same operations. The idealization removed two float format round trips.
-/
import proofs.«406569_j31748398252730_1_alg».proof.Defs
import proofs.«406569_j31748398252730_1_alg».proof.Proof.Gen.Kernel
import proofs.«406569_j31748398252730_1_alg».proof.Proof.Gen.KernelIdeal
import proofs.«406569_j31748398252730_1_alg».proof.Proof.Gen.ReferenceIdeal
import proofs.«406569_j31748398252730_1_alg».proof.Proof.Gen.Pre_finite_inputs
import proofs.«406569_j31748398252730_1_alg».proof.Proof.KRunVal
import proofs.«406569_j31748398252730_1_alg».proof.Proof.RunVal
import proofs.«406569_j31748398252730_1_alg».proof.Proof.RefRun
import proofs.«406569_j31748398252730_1_alg».proof.Proof.Bridge
import Idealize.ShloMosaic.Adequacy
import Idealize.ShloMosaic.Init

noncomputable section

namespace Cert.Proof

open Idealize.ShloMosaic Idealize.SL.Sem

/-- The printed kernel runs and leaves its arguments unchanged. -/
theorem frame_k : Cert.frame_Kernel := fun m ρ _ =>
  (θ_run Cert.Kernel.defs _ _).mono (fun _ h c => (h c).2) (Cert.Kernel.Hand.run_main (F := Bits) m ρ)

/-- So does its idealization. -/
theorem frame_ki : Cert.frame_KernelIdeal := fun m ρ _ =>
  (θ_run Cert.KernelIdeal.defs _ _).mono (fun _ h c => (h c).2) (Cert.KernelIdeal.Hand.run_main (F := Ideal) m ρ)

/-- So does the reference. -/
theorem frame_ri : Cert.frame_ReferenceIdeal := fun m ρ _ =>
  (θ_run Cert.ReferenceIdeal.defs _ _).mono (fun _ h c => (h c).2) (Cert.ReferenceIdeal.Hand.run (F := Ideal) m ρ)

/-- The two removed round trips through the shorter float format are the identity on the extended reals. -/
theorem preserves : Cert.preserves_Kernel_KernelIdeal :=
  ⟨IdealRules.truncf_extf.statement _ .f32 .bf16, IdealRules.truncf_extf.statement _ .f32 .bf16⟩

/-- From memories agreeing on the arguments both idealized programs end with the same result. -/
theorem algebraic : Cert.algebraic_KernelIdeal_ReferenceIdeal := by
  intro m ρ m' ρ' _ hagree
  refine ⟨fun c => Cert.KernelIdeal.Hand.kres m c, Cert.KernelIdeal.Hand.run_main (F := Ideal) m ρ, ?_⟩
  refine (θ_run Cert.ReferenceIdeal.defs _ _).mono (fun _ h c => ⟨(h c).1.trans ?_, (h c).2⟩)
    (Cert.ReferenceIdeal.Hand.run (F := Ideal) m' ρ')
  obtain ⟨a0, a1, a2, a3, a4, a5, a6, a7, a8, a9, a10⟩ := hagree c
  rw [a0, a1, a4, a5, a6, a7, a8, a9, a10]
  exact (Cert.KernelIdeal.Hand.kres_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
